-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v50)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v50) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v65) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x128 : Shape := ⟨2, ![50000, 128]⟩
abbrev S128x256 : Shape := ⟨2, ![128, 256]⟩
abbrev S256 : Shape := ⟨1, ![256]⟩
abbrev S256x256 : Shape := ⟨2, ![256, 256]⟩
abbrev S800000 : Shape := ⟨1, ![800000]⟩
abbrev S50000 : Shape := ⟨1, ![50000]⟩
abbrev S_ : Shape := ⟨0, ![]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S128x256 : S_.BroadcastsInDim S128x256 (![] : Fin 0 → Fin S128x256.rank)
  reducesTo_S128x256_S_d0_1 : S128x256.ReducesTo [0, 1] S_
  bcast_S_S256 : S_.BroadcastsInDim S256 (![] : Fin 0 → Fin S256.rank)
  reducesTo_S256_S_d0 : S256.ReducesTo [0] S_
  bcast_S_S256x256 : S_.BroadcastsInDim S256x256 (![] : Fin 0 → Fin S256x256.rank)
  reducesTo_S256x256_S_d0_1 : S256x256.ReducesTo [0, 1] S_

variable [Facts]

def fn_part1 {F : FTy → Type} [FloatOps F] (main_arg4 : FVec F S256 .f32) (main_v13 : IVec S_ 1) (main_v16 : IVec S256x256 1) : IVec S_ 1 :=
  let main_c_5 : IVec S_ 1 := constantI S_ 1 1#1
  let main_v17 : IVec S_ 1 := (fun x v => Host.reduce IntOp.andi x v reducesTo_S256x256_S_d0_1 h_S_) main_v16 main_c_5
  let main_v18 : IVec S_ 1 := andi main_v13 main_v17
  let main_v19 : FVec F S256 .f32 := Host.absf main_arg4
  let main_cst_6 : FVec F S_ .f32 := constant S_ .f32 0x7F800000#32
  let main_v20 : FVec F S256 .f32 := broadcastInDim S256 ![] bcast_S_S256 main_cst_6
  let main_v21 : IVec S256 1 := cmpf .olt main_v19 main_v20
  let main_c_7 : IVec S_ 1 := constantI S_ 1 1#1
  let main_v22 : IVec S_ 1 := (fun x v => Host.reduce IntOp.andi x v reducesTo_S256_S_d0 h_S_) main_v21 main_c_7
  let main_v23 : IVec S_ 1 := andi main_v18 main_v22
  main_v23

def fn {F : FTy → Type} [FloatOps F] (main_arg0 : FVec F S50000x128 .f32) (main_arg1 : FVec F S128x256 .f32) (main_arg2 : FVec F S256 .f32) (main_arg3 : FVec F S256x256 .f32) (main_arg4 : FVec F S256 .f32) (main_arg5 : IVec S800000 32) (main_arg6 : IVec S800000 32) (main_arg7 : IVec S50000 32) : IVec S_ 1 :=
  let main_v0 : FVec F S50000x128 .f32 := Host.absf main_arg0
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S128x256 .f32 := Host.absf main_arg1
  let main_cst_0 : FVec F S_ .f32 := constant S_ .f32 0x7F800000#32
  let main_v5 : FVec F S128x256 .f32 := broadcastInDim S128x256 ![] bcast_S_S128x256 main_cst_0
  let main_v6 : IVec S128x256 1 := cmpf .olt main_v4 main_v5
  let main_c_1 : IVec S_ 1 := constantI S_ 1 1#1
  let main_v7 : IVec S_ 1 := (fun x v => Host.reduce IntOp.andi x v reducesTo_S128x256_S_d0_1 h_S_) main_v6 main_c_1
  let main_v8 : IVec S_ 1 := andi main_v3 main_v7
  let main_v9 : FVec F S256 .f32 := Host.absf main_arg2
  let main_cst_2 : FVec F S_ .f32 := constant S_ .f32 0x7F800000#32
  let main_v10 : FVec F S256 .f32 := broadcastInDim S256 ![] bcast_S_S256 main_cst_2
  let main_v11 : IVec S256 1 := cmpf .olt main_v9 main_v10
  let main_c_3 : IVec S_ 1 := constantI S_ 1 1#1
  let main_v12 : IVec S_ 1 := (fun x v => Host.reduce IntOp.andi x v reducesTo_S256_S_d0 h_S_) main_v11 main_c_3
  let main_v13 : IVec S_ 1 := andi main_v8 main_v12
  let main_v14 : FVec F S256x256 .f32 := Host.absf main_arg3
  let main_cst_4 : FVec F S_ .f32 := constant S_ .f32 0x7F800000#32
  let main_v15 : FVec F S256x256 .f32 := broadcastInDim S256x256 ![] bcast_S_S256x256 main_cst_4
  let main_v16 : IVec S256x256 1 := cmpf .olt main_v14 main_v15
  fn_part1 (F := F) main_arg4 main_v13 main_v16
-- ==== Kernel.lean ====
abbrev S50000x128 : Shape := ⟨2, ![50000, 128]⟩
abbrev S128x256 : Shape := ⟨2, ![128, 256]⟩
abbrev S256 : Shape := ⟨1, ![256]⟩
abbrev S256x256 : Shape := ⟨2, ![256, 256]⟩
abbrev S800000 : Shape := ⟨1, ![800000]⟩
abbrev S50000 : Shape := ⟨1, ![50000]⟩
abbrev S_ : Shape := ⟨0, ![]⟩
abbrev S800000x1 : Shape := ⟨2, ![800000, 1]⟩
abbrev S50000x1 : Shape := ⟨2, ![50000, 1]⟩
abbrev S800000x128 : Shape := ⟨2, ![800000, 128]⟩
abbrev S1x256 : Shape := ⟨2, ![1, 256]⟩
abbrev S50000x256 : Shape := ⟨2, ![50000, 256]⟩
abbrev S5000x128 : Shape := ⟨2, ![5000, 128]⟩
abbrev S5000x1 : Shape := ⟨2, ![5000, 1]⟩
abbrev S5000x256 : Shape := ⟨2, ![5000, 256]⟩
abbrev S800000x256 : Shape := ⟨2, ![800000, 256]⟩
abbrev S25x256x256 : Shape := ⟨3, ![25, 256, 256]⟩
abbrev S2000x256 : Shape := ⟨2, ![2000, 256]⟩
abbrev S2000x1 : Shape := ⟨2, ![2000, 1]⟩
abbrev S1x256x256 : Shape := ⟨3, ![1, 256, 256]⟩
abbrev S2000 : Shape := ⟨1, ![2000]⟩

abbrev nBuf : Space → Nat
  | .hbm => 77
  | .vmem => 22
  | .smem => 0
  | _ => 0

abbrev bufTy : (tb : Table) → Fin (tcTables nBuf tb) → BufTy
  | .hbm, ⟨0, _⟩ => ⟨S50000x128, .f32⟩
  | .hbm, ⟨1, _⟩ => ⟨S128x256, .f32⟩
  | .hbm, ⟨2, _⟩ => ⟨S256, .f32⟩
  | .hbm, ⟨3, _⟩ => ⟨S256x256, .f32⟩
  | .hbm, ⟨4, _⟩ => ⟨S256, .f32⟩
  | .hbm, ⟨5, _⟩ => ⟨S800000, .i32⟩
  | .hbm, ⟨6, _⟩ => ⟨S800000, .i32⟩
  | .hbm, ⟨7, _⟩ => ⟨S50000, .i32⟩
  | .hbm, ⟨8, _⟩ => ⟨S_, .f32⟩
  | .hbm, ⟨9, _⟩ => ⟨S800000, .f32⟩
  | .hbm, ⟨10, _⟩ => ⟨S_, .f32⟩
  | .hbm, ⟨11, _⟩ => ⟨S50000, .f32⟩
  | .hbm, ⟨12, _⟩ => ⟨S800000x1, .i32⟩
  | .hbm, ⟨13, _⟩ => ⟨S50000, .f32⟩
  | .hbm, ⟨14, _⟩ => ⟨S_, .f32⟩
  | .hbm, ⟨15, _⟩ => ⟨S50000, .f32⟩
  | .hbm, ⟨16, _⟩ => ⟨S800000x1, .i32⟩
  | .hbm, ⟨17, _⟩ => ⟨S50000, .f32⟩
  | .hbm, ⟨18, _⟩ => ⟨S_, .f32⟩
  | .hbm, ⟨19, _⟩ => ⟨S50000, .f32⟩
  | .hbm, ⟨20, _⟩ => ⟨S50000, .f32⟩
  | .hbm, ⟨21, _⟩ => ⟨S_, .f32⟩
  | .hbm, ⟨22, _⟩ => ⟨S50000, .f32⟩
  | .hbm, ⟨23, _⟩ => ⟨S50000, .f32⟩
  | .hbm, ⟨24, _⟩ => ⟨S_, .f32⟩
  | .hbm, ⟨25, _⟩ => ⟨S50000, .f32⟩
  | .hbm, ⟨26, _⟩ => ⟨S50000, .f32⟩
  | .hbm, ⟨27, _⟩ => ⟨S_, .f32⟩
  | .hbm, ⟨28, _⟩ => ⟨S50000, .f32⟩
  | .hbm, ⟨29, _⟩ => ⟨S50000, .f32⟩
  | .hbm, ⟨30, _⟩ => ⟨S50000x1, .f32⟩
  | .hbm, ⟨31, _⟩ => ⟨S50000x1, .f32⟩
  | .hbm, ⟨32, _⟩ => ⟨S50000x128, .f32⟩
  | .hbm, ⟨33, _⟩ => ⟨S50000x128, .f32⟩
  | .hbm, ⟨34, _⟩ => ⟨S_, .i32⟩
  | .hbm, ⟨35, _⟩ => ⟨S800000, .i32⟩
  | .hbm, ⟨36, _⟩ => ⟨S800000, .i1⟩
  | .hbm, ⟨37, _⟩ => ⟨S_, .i32⟩
  | .hbm, ⟨38, _⟩ => ⟨S800000, .i32⟩
  | .hbm, ⟨39, _⟩ => ⟨S800000, .i32⟩
  | .hbm, ⟨40, _⟩ => ⟨S800000, .i32⟩
  | .hbm, ⟨41, _⟩ => ⟨S800000x1, .i32⟩
  | .hbm, ⟨42, _⟩ => ⟨S800000x128, .f32⟩
  | .hbm, ⟨43, _⟩ => ⟨S_, .f32⟩
  | .hbm, ⟨44, _⟩ => ⟨S50000x128, .f32⟩
  | .hbm, ⟨45, _⟩ => ⟨S800000x1, .i32⟩
  | .hbm, ⟨46, _⟩ => ⟨S50000x128, .f32⟩
  | .hbm, ⟨47, _⟩ => ⟨S1x256, .f32⟩
  | .hbm, ⟨48, _⟩ => ⟨S50000x256, .bf16⟩
  | .hbm, ⟨49, _⟩ => ⟨S_, .i32⟩
  | .hbm, ⟨50, _⟩ => ⟨S800000, .i32⟩
  | .hbm, ⟨51, _⟩ => ⟨S800000, .i1⟩
  | .hbm, ⟨52, _⟩ => ⟨S_, .i32⟩
  | .hbm, ⟨53, _⟩ => ⟨S800000, .i32⟩
  | .hbm, ⟨54, _⟩ => ⟨S800000, .i32⟩
  | .hbm, ⟨55, _⟩ => ⟨S800000, .i32⟩
  | .hbm, ⟨56, _⟩ => ⟨S800000x1, .i32⟩
  | .hbm, ⟨57, _⟩ => ⟨S800000x256, .bf16⟩
  | .hbm, ⟨58, _⟩ => ⟨S800000x256, .f32⟩
  | .hbm, ⟨59, _⟩ => ⟨S_, .f32⟩
  | .hbm, ⟨60, _⟩ => ⟨S50000x256, .f32⟩
  | .hbm, ⟨61, _⟩ => ⟨S800000x1, .i32⟩
  | .hbm, ⟨62, _⟩ => ⟨S50000x256, .f32⟩
  | .hbm, ⟨63, _⟩ => ⟨S1x256, .f32⟩
  | .hbm, ⟨64, _⟩ => ⟨S50000x1, .i32⟩
  | .hbm, ⟨65, _⟩ => ⟨S50000x1, .f32⟩
  | .hbm, ⟨66, _⟩ => ⟨S25x256x256, .f32⟩
  | .hbm, ⟨67, _⟩ => ⟨S_, .f32⟩
  | .hbm, ⟨68, _⟩ => ⟨S256x256, .f32⟩
  | .hbm, ⟨69, _⟩ => ⟨S_, .f32⟩
  | .hbm, ⟨70, _⟩ => ⟨S_, .f32⟩
  | .hbm, ⟨71, _⟩ => ⟨S_, .f32⟩
  | .hbm, ⟨72, _⟩ => ⟨S_, .f32⟩
  | .hbm, ⟨73, _⟩ => ⟨S_, .f32⟩
  | .hbm, ⟨74, _⟩ => ⟨S_, .f32⟩
  | .hbm, ⟨75, _⟩ => ⟨S256x256, .f32⟩
  | .hbm, ⟨76, _⟩ => ⟨S256x256, .f32⟩
  | .local _ .vmem, ⟨0, _⟩ => ⟨S5000x128, .f32⟩
  | .local _ .vmem, ⟨1, _⟩ => ⟨S5000x128, .f32⟩
  | .local _ .vmem, ⟨2, _⟩ => ⟨S5000x1, .f32⟩
  | .local _ .vmem, ⟨3, _⟩ => ⟨S5000x1, .f32⟩
  | .local _ .vmem, ⟨4, _⟩ => ⟨S5000x1, .f32⟩
  | .local _ .vmem, ⟨5, _⟩ => ⟨S5000x1, .f32⟩
  | .local _ .vmem, ⟨6, _⟩ => ⟨S128x256, .f32⟩
  | .local _ .vmem, ⟨7, _⟩ => ⟨S1x256, .f32⟩
  | .local _ .vmem, ⟨8, _⟩ => ⟨S5000x256, .bf16⟩
  | .local _ .vmem, ⟨9, _⟩ => ⟨S5000x256, .bf16⟩
  | .local _ .vmem, ⟨10, _⟩ => ⟨S2000x256, .f32⟩
  | .local _ .vmem, ⟨11, _⟩ => ⟨S2000x256, .f32⟩
  | .local _ .vmem, ⟨12, _⟩ => ⟨S2000x1, .f32⟩
  | .local _ .vmem, ⟨13, _⟩ => ⟨S2000x1, .f32⟩
  | .local _ .vmem, ⟨14, _⟩ => ⟨S2000x1, .i32⟩
  | .local _ .vmem, ⟨15, _⟩ => ⟨S2000x1, .i32⟩
  | .local _ .vmem, ⟨16, _⟩ => ⟨S256x256, .f32⟩
  | .local _ .vmem, ⟨17, _⟩ => ⟨S1x256, .f32⟩
  | .local _ .vmem, ⟨18, _⟩ => ⟨S2000x1, .f32⟩
  | .local _ .vmem, ⟨19, _⟩ => ⟨S2000x1, .f32⟩
  | .local _ .vmem, ⟨20, _⟩ => ⟨S1x256x256, .f32⟩
  | .local _ .vmem, ⟨21, _⟩ => ⟨S1x256x256, .f32⟩
  | _, _ => ⟨S50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_cst : Ref sig .tc := ⟨.hbm, 8, rfl⟩
abbrev main_v0 : Ref sig .tc := ⟨.hbm, 9, rfl⟩
abbrev main_cst_0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_cst_1 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_cst_2 : Ref sig .tc := ⟨.hbm, 18, rfl⟩
abbrev main_v7 : Ref sig .tc := ⟨.hbm, 19, rfl⟩
abbrev main_v8 : Ref sig .tc := ⟨.hbm, 20, rfl⟩
abbrev main_cst_3 : Ref sig .tc := ⟨.hbm, 21, rfl⟩
abbrev main_v9 : Ref sig .tc := ⟨.hbm, 22, rfl⟩
abbrev main_v10 : Ref sig .tc := ⟨.hbm, 23, rfl⟩
abbrev main_cst_4 : Ref sig .tc := ⟨.hbm, 24, rfl⟩
abbrev main_v11 : Ref sig .tc := ⟨.hbm, 25, rfl⟩
abbrev main_v12 : Ref sig .tc := ⟨.hbm, 26, rfl⟩
abbrev main_cst_5 : Ref sig .tc := ⟨.hbm, 27, rfl⟩
abbrev main_v13 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_c : Ref sig .tc := ⟨.hbm, 34, rfl⟩
abbrev main_v19 : Ref sig .tc := ⟨.hbm, 35, rfl⟩
abbrev main_v20 : Ref sig .tc := ⟨.hbm, 36, rfl⟩
abbrev main_c_6 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩
abbrev main_cst_7 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩
abbrev main_c_8 : Ref sig .tc := ⟨.hbm, 49, rfl⟩
abbrev main_v31 : Ref sig .tc := ⟨.hbm, 50, rfl⟩
abbrev main_v32 : Ref sig .tc := ⟨.hbm, 51, rfl⟩
abbrev main_c_9 : Ref sig .tc := ⟨.hbm, 52, rfl⟩
abbrev main_v33 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_v37 : Ref sig .tc := ⟨.hbm, 57, rfl⟩
abbrev main_v38 : Ref sig .tc := ⟨.hbm, 58, rfl⟩
abbrev main_cst_10 : Ref sig .tc := ⟨.hbm, 59, rfl⟩
abbrev main_v39 : Ref sig .tc := ⟨.hbm, 60, rfl⟩
abbrev main_v40 : Ref sig .tc := ⟨.hbm, 61, rfl⟩
abbrev main_v41 : Ref sig .tc := ⟨.hbm, 62, rfl⟩
abbrev main_v42 : Ref sig .tc := ⟨.hbm, 63, rfl⟩
abbrev main_v43 : Ref sig .tc := ⟨.hbm, 64, rfl⟩
abbrev main_v44_0 : Ref sig .tc := ⟨.hbm, 65, rfl⟩
abbrev main_v44_1 : Ref sig .tc := ⟨.hbm, 66, rfl⟩
abbrev main_cst_11 : Ref sig .tc := ⟨.hbm, 67, rfl⟩
abbrev main_v45 : Ref sig .tc := ⟨.hbm, 68, rfl⟩
abbrev main_cst_12 : Ref sig .tc := ⟨.hbm, 69, rfl⟩
abbrev main_v46 : Ref sig .tc := ⟨.hbm, 70, rfl⟩
abbrev main_cst_13 : Ref sig .tc := ⟨.hbm, 71, rfl⟩
abbrev main_v47 : Ref sig .tc := ⟨.hbm, 72, rfl⟩
abbrev main_cst_14 : Ref sig .tc := ⟨.hbm, 73, rfl⟩
abbrev main_v48 : Ref sig .tc := ⟨.hbm, 74, rfl⟩
abbrev main_v49 : Ref sig .tc := ⟨.hbm, 75, rfl⟩
abbrev main_v50 : Ref sig .tc := ⟨.hbm, 76, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc1_stg0_0 : Ref sig .tc := ⟨.vmem, 10, rfl⟩
abbrev cc1_stg0_1 : Ref sig .tc := ⟨.vmem, 11, rfl⟩
abbrev cc1_stg1_0 : Ref sig .tc := ⟨.vmem, 12, rfl⟩
abbrev cc1_stg1_1 : Ref sig .tc := ⟨.vmem, 13, rfl⟩
abbrev cc1_stg2_0 : Ref sig .tc := ⟨.vmem, 14, rfl⟩
abbrev cc1_stg2_1 : Ref sig .tc := ⟨.vmem, 15, rfl⟩
abbrev cc1_stg3_0 : Ref sig .tc := ⟨.vmem, 16, rfl⟩
abbrev cc1_stg4_0 : Ref sig .tc := ⟨.vmem, 17, rfl⟩
abbrev cc1_stg5_0 : Ref sig .tc := ⟨.vmem, 18, rfl⟩
abbrev cc1_stg5_1 : Ref sig .tc := ⟨.vmem, 19, rfl⟩
abbrev cc1_stg6_0 : Ref sig .tc := ⟨.vmem, 20, rfl⟩
abbrev cc1_stg6_1 : Ref sig .tc := ⟨.vmem, 21, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem5_1 : DmaSem sig := 9
abbrev cc1_sem0_0 : DmaSem sig := 10
abbrev cc1_sem0_1 : DmaSem sig := 11
abbrev cc1_sem1_0 : DmaSem sig := 12
abbrev cc1_sem1_1 : DmaSem sig := 13
abbrev cc1_sem2_0 : DmaSem sig := 14
abbrev cc1_sem2_1 : DmaSem sig := 15
abbrev cc1_sem3_0 : DmaSem sig := 16
abbrev cc1_sem4_0 : DmaSem sig := 17
abbrev cc1_sem5_0 : DmaSem sig := 18
abbrev cc1_sem5_1 : DmaSem sig := 19
abbrev cc1_sem6_0 : DmaSem sig := 20
abbrev cc1_sem6_1 : DmaSem sig := 21

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S5000x1 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S5000x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S128x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S5000x256 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev grid1 : Pipeline.Grid := ⟨1, ![25], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_6 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage1_0 : Fin 2 → Memref sig .tc .vmem S2000x256 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S2000x1 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S2000x1 .i32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 1 → Memref sig .tc .vmem S256x256 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x256 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 2 → Memref sig .tc .vmem S2000x1 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev stage1_6 : Fin 2 → Memref sig .tc .vmem S1x256x256 .f32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true]

class Facts₀ : Prop where
  bcast_S_S800000 : S_.BroadcastsInDim S800000 (![] : Fin 0 → Fin S800000.rank)
  bcast_S_S50000 : S_.BroadcastsInDim S50000 (![] : Fin 0 → Fin S50000.rank)
  bcast_S800000_S800000x1_0 : S800000.BroadcastsInDim S800000x1 (![0] : Fin 1 → Fin S800000x1.rank)
  shapeCasts_S50000_S50000x1 : S50000.ShapeCasts S50000x1
  bcast_S50000x1_S50000x128_0_1 : S50000x1.BroadcastsInDim S50000x128 (![0, 1] : Fin 2 → Fin S50000x128.rank)
  bcast_S_S50000x128 : S_.BroadcastsInDim S50000x128 (![] : Fin 0 → Fin S50000x128.rank)
  shapeCasts_S256_S1x256 : S256.ShapeCasts S1x256
  inb_S5000x128_S5000x128_0_0 : ∀ a, (![0, 0] : Fin 2 → Nat) a + S5000x128.size a ≤ S5000x128.size a
  h_S5000x128 : 0 < S5000x128.numel
  shapeCasts_S5000x128_S5000x128 : S5000x128.ShapeCasts S5000x128
  inb_S5000x1_S5000x1_0_0 : ∀ a, (![0, 0] : Fin 2 → Nat) a + S5000x1.size a ≤ S5000x1.size a
  h_S5000x1 : 0 < S5000x1.numel
  shapeCasts_S5000x1_S5000x1 : S5000x1.ShapeCasts S5000x1
  broadcasts_S5000x1_S5000x128 : S5000x1.Broadcasts S5000x128
  bitsLt_bf16_f32 : FTy.bits .bf16 < FTy.bits .f32
  inb_S128x256_S128x256_0_0 : ∀ a, (![0, 0] : Fin 2 → Nat) a + S128x256.size a ≤ S128x256.size a
  h_S128x256 : 0 < S128x256.numel
  inb_S1x256_S1x256_0_0 : ∀ a, (![0, 0] : Fin 2 → Nat) a + S1x256.size a ≤ S1x256.size a
  h_S1x256 : 0 < S1x256.numel
  shapeCasts_S1x256_S1x256 : S1x256.ShapeCasts S1x256
  broadcasts_S1x256_S5000x256 : S1x256.Broadcasts S5000x256
  broadcasts_S5000x1_S5000x256 : S5000x1.Broadcasts S5000x256
  inb_S5000x256_S5000x256_0_0 : ∀ a, (![0, 0] : Fin 2 → Nat) a + S5000x256.size a ≤ S5000x256.size a
  h_S5000x256 : 0 < S5000x256.numel
  packedbf16_S5000x256_S5000x256_0_0 : (Rect.unit (s := S5000x256) ![0, 0] S5000x256.size inb_S5000x256_S5000x256_0_0).PackedRows (EltTy.packing .bf16)
  bcast_S_S50000x256 : S_.BroadcastsInDim S50000x256 (![] : Fin 0 → Fin S50000x256.rank)
  inb_S2000x256_S2000x256_0_0 : ∀ a, (![0, 0] : Fin 2 → Nat) a + S2000x256.size a ≤ S2000x256.size a
  h_S2000x256 : 0 < S2000x256.numel
  shapeCasts_S2000x256_S2000x256 : S2000x256.ShapeCasts S2000x256
  inb_S2000x1_S2000x1_0_0 : ∀ a, (![0, 0] : Fin 2 → Nat) a + S2000x1.size a ≤ S2000x1.size a
  h_S2000x1 : 0 < S2000x1.numel
  shapeCasts_S2000x1_S2000x1 : S2000x1.ShapeCasts S2000x1
  broadcasts_S2000x1_S2000x256 : S2000x1.Broadcasts S2000x256
  inb_S256x256_S256x256_0_0 : ∀ a, (![0, 0] : Fin 2 → Nat) a + S256x256.size a ≤ S256x256.size a
  h_S256x256 : 0 < S256x256.numel
  broadcasts_S1x256_S2000x256 : S1x256.Broadcasts S2000x256
  reduces_S2000x256_S2000 : S2000x256.Reduces [1] S2000
  shapeCasts_S2000_S2000x1 : S2000.ShapeCasts S2000x1
  iota_S2000x256_d1_w32 : S2000x256.Iotas .tc 32 [1]
  natLt_1_32 : 1 < 32
  shapeCasts_S256x256_S1x256x256 : S256x256.ShapeCasts S1x256x256
  inb_S1x256x256_S1x256x256_0_0_0 : ∀ a, (![0, 0, 0] : Fin 3 → Nat) a + S1x256x256.size a ≤ S1x256x256.size a
  h_S1x256x256 : 0 < S1x256x256.numel
  reducesTo_S25x256x256_S256x256_d0 : S25x256x256.ReducesTo [0] S256x256
  h_S_ : 0 < S_.numel
  reducesTo_S50000x1_S_d0_1 : S50000x1.ReducesTo [0, 1] S_
  bcast_S_S256x256 : S_.BroadcastsInDim S256x256 (![] : Fin 0 → Fin S256x256.rank)
  scatter_S50000_S800000x1_S800000_n_0_0_1_wf : ScatterDims.WF S50000 S800000x1 S800000 [] [0] [0] 1
  gather_S50000x128_S800000x1_S800000x128_1_0_n_n_0_1_1128_wf : GatherDims.WF S50000x128 S800000x1 S800000x128 [1] [0] [] [0] [] 1 ![1, 128]
  scatter_S50000x128_S800000x1_S800000x128_1_0_0_1_wf : ScatterDims.WF S50000x128 S800000x1 S800000x128 [1] [0] [0] 1
  dot_S5000x128_S128x256_S5000x256_1_0_0_1_n_n_wf : DotDims.WF S5000x128 S128x256 S5000x256 [1] [0] [0] [1] [] []
  gather_S50000x256_S800000x1_S800000x256_1_0_n_n_0_1_1256_wf : GatherDims.WF S50000x256 S800000x1 S800000x256 [1] [0] [] [0] [] 1 ![1, 256]
  scatter_S50000x256_S800000x1_S800000x256_1_0_0_1_wf : ScatterDims.WF S50000x256 S800000x1 S800000x256 [1] [0] [0] 1
  dot_S2000x256_S256x256_S2000x256_1_0_0_1_n_n_wf : DotDims.WF S2000x256 S256x256 S2000x256 [1] [0] [0] [1] [] []
  dot_S2000x256_S2000x256_S256x256_0_0_1_1_n_n_wf : DotDims.WF S2000x256 S2000x256 S256x256 [0] [0] [1] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S50000x128.size a
  hwx0_0 : ∀ i : grid0.Coords, EltTy.bits .f32 = 32 ∨ (Rect.block (s := S50000x128) S5000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S5000x1.size a ≤ S50000x1.size a
  hwx0_1 : ∀ i : grid0.Coords, EltTy.bits .f32 = 32 ∨ (Rect.block (s := S50000x1) S5000x1.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x1.size a ≤ S50000x1.size a
  hwx0_2 : ∀ i : grid0.Coords, EltTy.bits .f32 = 32 ∨ (Rect.block (s := S50000x1) S5000x1.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128x256.size a ≤ S128x256.size a
  hwx0_3 : ∀ i : grid0.Coords, EltTy.bits .f32 = 32 ∨ (Rect.block (s := S128x256) S128x256.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x256.size a ≤ S1x256.size a
  hwx0_4 : ∀ i : grid0.Coords, EltTy.bits .f32 = 32 ∨ (Rect.block (s := S1x256) S1x256.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S5000x256.size a ≤ S50000x256.size a
  hwx0_5 : ∀ i : grid0.Coords, EltTy.bits .bf16 = 32 ∨ (Rect.block (s := S50000x256) S5000x256.size (cc0_transform_5 i) (hinb0_5 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2000x256.size a ≤ S50000x256.size a
  hwx1_0 : ∀ i : grid1.Coords, EltTy.bits .f32 = 32 ∨ (Rect.block (s := S50000x256) S2000x256.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S2000x1.size a ≤ S50000x1.size a
  hwx1_1 : ∀ i : grid1.Coords, EltTy.bits .f32 = 32 ∨ (Rect.block (s := S50000x1) S2000x1.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S2000x1.size a ≤ S50000x1.size a
  hwx1_2 : ∀ i : grid1.Coords, EltTy.bits .i32 = 32 ∨ (Rect.block (s := S50000x1) S2000x1.size (cc1_transform_2 i) (hinb1_2 i)).WholeWords (EltTy.packing .i32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S256x256.size a ≤ S256x256.size a
  hwx1_3 : ∀ i : grid1.Coords, EltTy.bits .f32 = 32 ∨ (Rect.block (s := S256x256) S256x256.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x256.size a ≤ S1x256.size a
  hwx1_4 : ∀ i : grid1.Coords, EltTy.bits .f32 = 32 ∨ (Rect.block (s := S1x256) S1x256.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S2000x1.size a ≤ S50000x1.size a
  hwx1_5 : ∀ i : grid1.Coords, EltTy.bits .f32 = 32 ∨ (Rect.block (s := S50000x1) S2000x1.size (cc1_transform_5 i) (hinb1_5 i)).WholeWords (EltTy.packing .f32)
  hstage1_6 : ∀ j, (stage1_6 j).IsWhole
  nbuf1_6 : grid1.bufCount reads1_6 false = 2
  hreads1_6 : ∀ i i' : grid1.Coords, (∀ a, reads1_6 a = true → i a = i' a) → cc1_transform_6 i = cc1_transform_6 i'
  hinb1_6 : ∀ (i : grid1.Coords) a, (cc1_transform_6 i a + 1) * S1x256x256.size a ≤ S25x256x256.size a
  hwx1_6 : ∀ i : grid1.Coords, EltTy.bits .f32 = 32 ∨ (Rect.block (s := S25x256x256) S1x256x256.size (cc1_transform_6 i) (hinb1_6 i)).WholeWords (EltTy.packing .f32)

variable [Facts₀]

def scatter_S50000_S800000x1_S800000_n_0_0_1 : ScatterDims S50000 S800000x1 S800000 where
  updateWindowDims := []
  insertedWindowDims := [0]
  scatterDimsToOperandDims := [0]
  indexVectorDim := 1
  wf := scatter_S50000_S800000x1_S800000_n_0_0_1_wf
def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf
def dot_S5000x128_S128x256_S5000x256_1_0_0_1_n_n : DotDims S5000x128 S128x256 S5000x256 where
  lhsContracting := [1]
  rhsContracting := [0]
  lhsNonContracting := [0]
  rhsNonContracting := [1]
  lhsBatch := []
  rhsBatch := []
  wf := dot_S5000x128_S128x256_S5000x256_1_0_0_1_n_n_wf
def gather_S50000x256_S800000x1_S800000x256_1_0_n_n_0_1_1256 : GatherDims S50000x256 S800000x1 S800000x256 where
  offsetDims := [1]
  collapsedSliceDims := [0]
  operandBatchingDims := []
  startIndicesBatchingDims := []
  startIndexMap := [0]
  indexVectorDim := 1
  sliceSizes := ![1, 256]
  wf := gather_S50000x256_S800000x1_S800000x256_1_0_n_n_0_1_1256_wf
def scatter_S50000x256_S800000x1_S800000x256_1_0_0_1 : ScatterDims S50000x256 S800000x1 S800000x256 where
  updateWindowDims := [1]
  insertedWindowDims := [0]
  scatterDimsToOperandDims := [0]
  indexVectorDim := 1
  wf := scatter_S50000x256_S800000x1_S800000x256_1_0_0_1_wf
def dot_S2000x256_S256x256_S2000x256_1_0_0_1_n_n : DotDims S2000x256 S256x256 S2000x256 where
  lhsContracting := [1]
  rhsContracting := [0]
  lhsNonContracting := [0]
  rhsNonContracting := [1]
  lhsBatch := []
  rhsBatch := []
  wf := dot_S2000x256_S256x256_S2000x256_1_0_0_1_n_n_wf
def dot_S2000x256_S2000x256_S256x256_0_0_1_1_n_n : DotDims S2000x256 S2000x256 S256x256 where
  lhsContracting := [0]
  rhsContracting := [0]
  lhsNonContracting := [1]
  rhsNonContracting := [1]
  lhsBatch := []
  rhsBatch := []
  wf := dot_S2000x256_S2000x256_S256x256_0_0_1_1_n_n_wf

abbrev win0_0 : Pipeline.Window sig grid0 :=
  Pipeline.Window.ofSpec (Memref.whole main_v28) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v15) S5000x1.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v16) S5000x1.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_arg1) S128x256.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v29) S1x256.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v30) S5000x256.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev win1_0 : Pipeline.Window sig grid1 :=
  Pipeline.Window.ofSpec (Memref.whole main_v41) S2000x256.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v15) S2000x1.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v43) S2000x1.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_arg3) S256x256.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v42) S1x256.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v44_0) S2000x1.size cc1_transform_5 reads1_5 true false 2 stage1_5 sem1_5
    hrank1 hreads1_5 hinb1_5 nbuf1_5 (Memref.isWhole_whole _) hwx1_5 hstage1_5

abbrev win1_6 : Pipeline.Window sig grid1 :=
  Pipeline.Window.ofSpec (Memref.whole main_v44_1) S1x256x256.size cc1_transform_6 reads1_6 true false 2 stage1_6 sem1_6
    hrank1 hreads1_6 hinb1_6 nbuf1_6 (Memref.isWhole_whole _) hwx1_6 hstage1_6

abbrev win1 : Fin 7 → Pipeline.Window sig grid1 := fun | 0 => win1_0 | 1 => win1_1 | 2 => win1_2 | 3 => win1_3 | 4 => win1_4 | 5 => win1_5 | 6 => win1_6 | ⟨_ + 7, h⟩ => absurd h (Nat.not_lt.2 (Nat.le_add_left _ _))
abbrev spec1 : Fin 7 → Pipeline.WinSpec sig grid1.rank := fun w => (win1 w).toWinSpec

class Facts : Prop extends Facts₀ where

variable [Facts]
-- ==== ReferenceIdeal.lean ====
abbrev S50000x128 : Shape := ⟨2, ![50000, 128]⟩
abbrev S128x256 : Shape := ⟨2, ![128, 256]⟩
abbrev S256 : Shape := ⟨1, ![256]⟩
abbrev S256x256 : Shape := ⟨2, ![256, 256]⟩
abbrev S800000 : Shape := ⟨1, ![800000]⟩
abbrev S50000 : Shape := ⟨1, ![50000]⟩
abbrev S_ : Shape := ⟨0, ![]⟩
abbrev S800000x1 : Shape := ⟨2, ![800000, 1]⟩
abbrev S50000x1 : Shape := ⟨2, ![50000, 1]⟩
abbrev S800000x128 : Shape := ⟨2, ![800000, 128]⟩
abbrev S50000x256 : Shape := ⟨2, ![50000, 256]⟩
abbrev S1x256 : Shape := ⟨2, ![1, 256]⟩
abbrev S800000x256 : Shape := ⟨2, ![800000, 256]⟩

abbrev nBuf : Space → Nat
  | .hbm => 96
  | .vmem => 0
  | .smem => 0
  | _ => 0

abbrev bufTy : (tb : Table) → Fin (tcTables nBuf tb) → BufTy
  | .hbm, ⟨0, _⟩ => ⟨S50000x128, .f32⟩
  | .hbm, ⟨1, _⟩ => ⟨S128x256, .f32⟩
  | .hbm, ⟨2, _⟩ => ⟨S256, .f32⟩
  | .hbm, ⟨3, _⟩ => ⟨S256x256, .f32⟩
  | .hbm, ⟨4, _⟩ => ⟨S256, .f32⟩
  | .hbm, ⟨5, _⟩ => ⟨S800000, .i32⟩
  | .hbm, ⟨6, _⟩ => ⟨S800000, .i32⟩
  | .hbm, ⟨7, _⟩ => ⟨S50000, .i32⟩
  | .hbm, ⟨8, _⟩ => ⟨S_, .f32⟩
  | .hbm, ⟨9, _⟩ => ⟨S800000, .f32⟩
  | .hbm, ⟨10, _⟩ => ⟨S_, .f32⟩
  | .hbm, ⟨11, _⟩ => ⟨S50000, .f32⟩
  | .hbm, ⟨12, _⟩ => ⟨S800000x1, .i32⟩
  | .hbm, ⟨13, _⟩ => ⟨S50000, .f32⟩
  | .hbm, ⟨14, _⟩ => ⟨S_, .f32⟩
  | .hbm, ⟨15, _⟩ => ⟨S50000, .f32⟩
  | .hbm, ⟨16, _⟩ => ⟨S50000, .f32⟩
  | .hbm, ⟨17, _⟩ => ⟨S_, .f32⟩
  | .hbm, ⟨18, _⟩ => ⟨S50000, .f32⟩
  | .hbm, ⟨19, _⟩ => ⟨S50000, .f32⟩
  | .hbm, ⟨20, _⟩ => ⟨S_, .f32⟩
  | .hbm, ⟨21, _⟩ => ⟨S50000, .f32⟩
  | .hbm, ⟨22, _⟩ => ⟨S800000x1, .i32⟩
  | .hbm, ⟨23, _⟩ => ⟨S50000, .f32⟩
  | .hbm, ⟨24, _⟩ => ⟨S_, .f32⟩
  | .hbm, ⟨25, _⟩ => ⟨S50000, .f32⟩
  | .hbm, ⟨26, _⟩ => ⟨S50000, .f32⟩
  | .hbm, ⟨27, _⟩ => ⟨S_, .f32⟩
  | .hbm, ⟨28, _⟩ => ⟨S50000, .f32⟩
  | .hbm, ⟨29, _⟩ => ⟨S50000, .f32⟩
  | .hbm, ⟨30, _⟩ => ⟨S50000x1, .f32⟩
  | .hbm, ⟨31, _⟩ => ⟨S50000x128, .f32⟩
  | .hbm, ⟨32, _⟩ => ⟨S50000x128, .f32⟩
  | .hbm, ⟨33, _⟩ => ⟨S_, .i32⟩
  | .hbm, ⟨34, _⟩ => ⟨S800000, .i32⟩
  | .hbm, ⟨35, _⟩ => ⟨S800000, .i1⟩
  | .hbm, ⟨36, _⟩ => ⟨S_, .i32⟩
  | .hbm, ⟨37, _⟩ => ⟨S800000, .i32⟩
  | .hbm, ⟨38, _⟩ => ⟨S800000, .i32⟩
  | .hbm, ⟨39, _⟩ => ⟨S800000, .i32⟩
  | .hbm, ⟨40, _⟩ => ⟨S800000x1, .i32⟩
  | .hbm, ⟨41, _⟩ => ⟨S800000x128, .f32⟩
  | .hbm, ⟨42, _⟩ => ⟨S_, .f32⟩
  | .hbm, ⟨43, _⟩ => ⟨S50000x128, .f32⟩
  | .hbm, ⟨44, _⟩ => ⟨S800000x1, .i32⟩
  | .hbm, ⟨45, _⟩ => ⟨S50000x128, .f32⟩
  | .hbm, ⟨46, _⟩ => ⟨S50000x1, .f32⟩
  | .hbm, ⟨47, _⟩ => ⟨S50000x128, .f32⟩
  | .hbm, ⟨48, _⟩ => ⟨S50000x128, .f32⟩
  | .hbm, ⟨49, _⟩ => ⟨S50000x256, .f32⟩
  | .hbm, ⟨50, _⟩ => ⟨S1x256, .f32⟩
  | .hbm, ⟨51, _⟩ => ⟨S50000x256, .f32⟩
  | .hbm, ⟨52, _⟩ => ⟨S50000x256, .f32⟩
  | .hbm, ⟨53, _⟩ => ⟨S_, .f32⟩
  | .hbm, ⟨54, _⟩ => ⟨S50000x256, .f32⟩
  | .hbm, ⟨55, _⟩ => ⟨S50000x256, .f32⟩
  | .hbm, ⟨56, _⟩ => ⟨S50000x1, .f32⟩
  | .hbm, ⟨57, _⟩ => ⟨S50000x256, .f32⟩
  | .hbm, ⟨58, _⟩ => ⟨S50000x256, .f32⟩
  | .hbm, ⟨59, _⟩ => ⟨S_, .i32⟩
  | .hbm, ⟨60, _⟩ => ⟨S800000, .i32⟩
  | .hbm, ⟨61, _⟩ => ⟨S800000, .i1⟩
  | .hbm, ⟨62, _⟩ => ⟨S_, .i32⟩
  | .hbm, ⟨63, _⟩ => ⟨S800000, .i32⟩
  | .hbm, ⟨64, _⟩ => ⟨S800000, .i32⟩
  | .hbm, ⟨65, _⟩ => ⟨S800000, .i32⟩
  | .hbm, ⟨66, _⟩ => ⟨S800000x1, .i32⟩
  | .hbm, ⟨67, _⟩ => ⟨S800000x256, .f32⟩
  | .hbm, ⟨68, _⟩ => ⟨S_, .f32⟩
  | .hbm, ⟨69, _⟩ => ⟨S50000x256, .f32⟩
  | .hbm, ⟨70, _⟩ => ⟨S800000x1, .i32⟩
  | .hbm, ⟨71, _⟩ => ⟨S50000x256, .f32⟩
  | .hbm, ⟨72, _⟩ => ⟨S50000x1, .f32⟩
  | .hbm, ⟨73, _⟩ => ⟨S50000x256, .f32⟩
  | .hbm, ⟨74, _⟩ => ⟨S50000x256, .f32⟩
  | .hbm, ⟨75, _⟩ => ⟨S50000x256, .f32⟩
  | .hbm, ⟨76, _⟩ => ⟨S1x256, .f32⟩
  | .hbm, ⟨77, _⟩ => ⟨S50000x256, .f32⟩
  | .hbm, ⟨78, _⟩ => ⟨S50000x256, .f32⟩
  | .hbm, ⟨79, _⟩ => ⟨S_, .f32⟩
  | .hbm, ⟨80, _⟩ => ⟨S_, .f32⟩
  | .hbm, ⟨81, _⟩ => ⟨S50000x256, .f32⟩
  | .hbm, ⟨82, _⟩ => ⟨S_, .f32⟩
  | .hbm, ⟨83, _⟩ => ⟨S50000, .f32⟩
  | .hbm, ⟨84, _⟩ => ⟨S50000, .f32⟩
  | .hbm, ⟨85, _⟩ => ⟨S_, .f32⟩
  | .hbm, ⟨86, _⟩ => ⟨S_, .f32⟩
  | .hbm, ⟨87, _⟩ => ⟨S_, .f32⟩
  | .hbm, ⟨88, _⟩ => ⟨S_, .f32⟩
  | .hbm, ⟨89, _⟩ => ⟨S_, .f32⟩
  | .hbm, ⟨90, _⟩ => ⟨S50000x256, .f32⟩
  | .hbm, ⟨91, _⟩ => ⟨S50000x256, .f32⟩
  | .hbm, ⟨92, _⟩ => ⟨S_, .f32⟩
  | .hbm, ⟨93, _⟩ => ⟨S256x256, .f32⟩
  | .hbm, ⟨94, _⟩ => ⟨S50000x1, .i32⟩
  | .hbm, ⟨95, _⟩ => ⟨S256x256, .f32⟩
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_cst : Ref sig .tc := ⟨.hbm, 8, rfl⟩
abbrev main_v0 : Ref sig .tc := ⟨.hbm, 9, rfl⟩
abbrev main_cst_0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_cst_1 : Ref sig .tc := ⟨.hbm, 14, rfl⟩
abbrev main_v4 : Ref sig .tc := ⟨.hbm, 15, rfl⟩
abbrev main_v5 : Ref sig .tc := ⟨.hbm, 16, rfl⟩
abbrev main_cst_2 : Ref sig .tc := ⟨.hbm, 17, rfl⟩
abbrev main_v6 : Ref sig .tc := ⟨.hbm, 18, rfl⟩
abbrev main_v7 : Ref sig .tc := ⟨.hbm, 19, rfl⟩
abbrev main_cst_3 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_cst_4 : Ref sig .tc := ⟨.hbm, 24, rfl⟩
abbrev main_v11 : Ref sig .tc := ⟨.hbm, 25, rfl⟩
abbrev main_v12 : Ref sig .tc := ⟨.hbm, 26, rfl⟩
abbrev main_cst_5 : Ref sig .tc := ⟨.hbm, 27, rfl⟩
abbrev main_v13 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_c : Ref sig .tc := ⟨.hbm, 33, rfl⟩
abbrev main_v18 : Ref sig .tc := ⟨.hbm, 34, rfl⟩
abbrev main_v19 : Ref sig .tc := ⟨.hbm, 35, rfl⟩
abbrev main_c_6 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_v24 : Ref sig .tc := ⟨.hbm, 41, rfl⟩
abbrev main_cst_7 : Ref sig .tc := ⟨.hbm, 42, rfl⟩
abbrev main_v25 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩
abbrev main_v31 : Ref sig .tc := ⟨.hbm, 49, rfl⟩
abbrev main_v32 : Ref sig .tc := ⟨.hbm, 50, rfl⟩
abbrev main_v33 : Ref sig .tc := ⟨.hbm, 51, rfl⟩
abbrev main_v34 : Ref sig .tc := ⟨.hbm, 52, rfl⟩
abbrev main_call0_cst : Ref sig .tc := ⟨.hbm, 53, rfl⟩
abbrev main_call0_v0 : Ref sig .tc := ⟨.hbm, 54, rfl⟩
abbrev main_v35 : Ref sig .tc := ⟨.hbm, 55, rfl⟩
abbrev main_v36 : Ref sig .tc := ⟨.hbm, 56, rfl⟩
abbrev main_v37 : Ref sig .tc := ⟨.hbm, 57, rfl⟩
abbrev main_v38 : Ref sig .tc := ⟨.hbm, 58, rfl⟩
abbrev main_c_8 : Ref sig .tc := ⟨.hbm, 59, rfl⟩
abbrev main_v39 : Ref sig .tc := ⟨.hbm, 60, rfl⟩
abbrev main_v40 : Ref sig .tc := ⟨.hbm, 61, rfl⟩
abbrev main_c_9 : Ref sig .tc := ⟨.hbm, 62, rfl⟩
abbrev main_v41 : Ref sig .tc := ⟨.hbm, 63, rfl⟩
abbrev main_v42 : Ref sig .tc := ⟨.hbm, 64, rfl⟩
abbrev main_v43 : Ref sig .tc := ⟨.hbm, 65, rfl⟩
abbrev main_v44 : Ref sig .tc := ⟨.hbm, 66, rfl⟩
abbrev main_v45 : Ref sig .tc := ⟨.hbm, 67, rfl⟩
abbrev main_cst_10 : Ref sig .tc := ⟨.hbm, 68, rfl⟩
abbrev main_v46 : Ref sig .tc := ⟨.hbm, 69, rfl⟩
abbrev main_v47 : Ref sig .tc := ⟨.hbm, 70, rfl⟩
abbrev main_v48 : Ref sig .tc := ⟨.hbm, 71, rfl⟩
abbrev main_v49 : Ref sig .tc := ⟨.hbm, 72, rfl⟩
abbrev main_v50 : Ref sig .tc := ⟨.hbm, 73, rfl⟩
abbrev main_v51 : Ref sig .tc := ⟨.hbm, 74, rfl⟩
abbrev main_v52 : Ref sig .tc := ⟨.hbm, 75, rfl⟩
abbrev main_v53 : Ref sig .tc := ⟨.hbm, 76, rfl⟩
abbrev main_v54 : Ref sig .tc := ⟨.hbm, 77, rfl⟩
abbrev main_v55 : Ref sig .tc := ⟨.hbm, 78, rfl⟩
abbrev main_cst_11 : Ref sig .tc := ⟨.hbm, 79, rfl⟩
abbrev main_v56 : Ref sig .tc := ⟨.hbm, 80, rfl⟩
abbrev main_call1_v0 : Ref sig .tc := ⟨.hbm, 81, rfl⟩
abbrev main_call1_cst : Ref sig .tc := ⟨.hbm, 82, rfl⟩
abbrev main_call1_v1 : Ref sig .tc := ⟨.hbm, 83, rfl⟩
abbrev main_v57 : Ref sig .tc := ⟨.hbm, 84, rfl⟩
abbrev main_cst_12 : Ref sig .tc := ⟨.hbm, 85, rfl⟩
abbrev main_v58 : Ref sig .tc := ⟨.hbm, 86, rfl⟩
abbrev main_cst_13 : Ref sig .tc := ⟨.hbm, 87, rfl⟩
abbrev main_v59 : Ref sig .tc := ⟨.hbm, 88, rfl⟩
abbrev main_v60 : Ref sig .tc := ⟨.hbm, 89, rfl⟩
abbrev main_v61 : Ref sig .tc := ⟨.hbm, 90, rfl⟩
abbrev main_v62 : Ref sig .tc := ⟨.hbm, 91, rfl⟩
abbrev main_cst_14 : Ref sig .tc := ⟨.hbm, 92, rfl⟩
abbrev main_v63 : Ref sig .tc := ⟨.hbm, 93, rfl⟩
abbrev main_v64 : Ref sig .tc := ⟨.hbm, 94, rfl⟩
abbrev main_v65 : Ref sig .tc := ⟨.hbm, 95, rfl⟩

abbrev nD : Nat := 1
abbrev τ : Topo := Topo.v7x

variable {F : FTy → Type} [FloatOps F]

class Facts₀ : Prop where
  bcast_S_S800000 : S_.BroadcastsInDim S800000 (![] : Fin 0 → Fin S800000.rank)
  bcast_S_S50000 : S_.BroadcastsInDim S50000 (![] : Fin 0 → Fin S50000.rank)
  bcast_S800000_S800000x1_0 : S800000.BroadcastsInDim S800000x1 (![0] : Fin 1 → Fin S800000x1.rank)
  bcast_S50000_S50000x1_0 : S50000.BroadcastsInDim S50000x1 (![0] : Fin 1 → Fin S50000x1.rank)
  bcast_S50000x1_S50000x128_0_1 : S50000x1.BroadcastsInDim S50000x128 (![0, 1] : Fin 2 → Fin S50000x128.rank)
  bcast_S_S50000x128 : S_.BroadcastsInDim S50000x128 (![] : Fin 0 → Fin S50000x128.rank)
  bcast_S256_S1x256_1 : S256.BroadcastsInDim S1x256 (![1] : Fin 1 → Fin S1x256.rank)
  bcast_S1x256_S50000x256_0_1 : S1x256.BroadcastsInDim S50000x256 (![0, 1] : Fin 2 → Fin S50000x256.rank)
  bcast_S_S50000x256 : S_.BroadcastsInDim S50000x256 (![] : Fin 0 → Fin S50000x256.rank)
  bcast_S50000x1_S50000x256_0_1 : S50000x1.BroadcastsInDim S50000x256 (![0, 1] : Fin 2 → Fin S50000x256.rank)
  reducesTo_S50000x256_S50000_d1 : S50000x256.ReducesTo [1] S50000
  h_S_ : 0 < S_.numel
  reducesTo_S50000_S_d0 : S50000.ReducesTo [0] S_
  bcast_S_S256x256 : S_.BroadcastsInDim S256x256 (![] : Fin 0 → Fin S256x256.rank)
  scatter_S50000_S800000x1_S800000_n_0_0_1_wf : ScatterDims.WF S50000 S800000x1 S800000 [] [0] [0] 1
  gather_S50000x128_S800000x1_S800000x128_1_0_n_n_0_1_1128_wf : GatherDims.WF S50000x128 S800000x1 S800000x128 [1] [0] [] [0] [] 1 ![1, 128]
  scatter_S50000x128_S800000x1_S800000x128_1_0_0_1_wf : ScatterDims.WF S50000x128 S800000x1 S800000x128 [1] [0] [0] 1
  dot_S50000x128_S128x256_S50000x256_1_0_0_1_n_n_wf : DotDims.WF S50000x128 S128x256 S50000x256 [1] [0] [0] [1] [] []
  gather_S50000x256_S800000x1_S800000x256_1_0_n_n_0_1_1256_wf : GatherDims.WF S50000x256 S800000x1 S800000x256 [1] [0] [] [0] [] 1 ![1, 256]
  scatter_S50000x256_S800000x1_S800000x256_1_0_0_1_wf : ScatterDims.WF S50000x256 S800000x1 S800000x256 [1] [0] [0] 1
  dot_S50000x256_S256x256_S50000x256_1_0_0_1_n_n_wf : DotDims.WF S50000x256 S256x256 S50000x256 [1] [0] [0] [1] [] []
  scatter_S256x256_S50000x1_S50000x256_1_0_0_1_wf : ScatterDims.WF S256x256 S50000x1 S50000x256 [1] [0] [0] 1

variable [Facts₀]

def scatter_S50000_S800000x1_S800000_n_0_0_1 : ScatterDims S50000 S800000x1 S800000 where
  updateWindowDims := []
  insertedWindowDims := [0]
  scatterDimsToOperandDims := [0]
  indexVectorDim := 1
  wf := scatter_S50000_S800000x1_S800000_n_0_0_1_wf
def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf
def dot_S50000x128_S128x256_S50000x256_1_0_0_1_n_n : DotDims S50000x128 S128x256 S50000x256 where
  lhsContracting := [1]
  rhsContracting := [0]
  lhsNonContracting := [0]
  rhsNonContracting := [1]
  lhsBatch := []
  rhsBatch := []
  wf := dot_S50000x128_S128x256_S50000x256_1_0_0_1_n_n_wf
def gather_S50000x256_S800000x1_S800000x256_1_0_n_n_0_1_1256 : GatherDims S50000x256 S800000x1 S800000x256 where
  offsetDims := [1]
  collapsedSliceDims := [0]
  operandBatchingDims := []
  startIndicesBatchingDims := []
  startIndexMap := [0]
  indexVectorDim := 1
  sliceSizes := ![1, 256]
  wf := gather_S50000x256_S800000x1_S800000x256_1_0_n_n_0_1_1256_wf
def scatter_S50000x256_S800000x1_S800000x256_1_0_0_1 : ScatterDims S50000x256 S800000x1 S800000x256 where
  updateWindowDims := [1]
  insertedWindowDims := [0]
  scatterDimsToOperandDims := [0]
  indexVectorDim := 1
  wf := scatter_S50000x256_S800000x1_S800000x256_1_0_0_1_wf
def dot_S50000x256_S256x256_S50000x256_1_0_0_1_n_n : DotDims S50000x256 S256x256 S50000x256 where
  lhsContracting := [1]
  rhsContracting := [0]
  lhsNonContracting := [0]
  rhsNonContracting := [1]
  lhsBatch := []
  rhsBatch := []
  wf := dot_S50000x256_S256x256_S50000x256_1_0_0_1_n_n_wf
def scatter_S256x256_S50000x1_S50000x256_1_0_0_1 : ScatterDims S256x256 S50000x1 S50000x256 where
  updateWindowDims := [1]
  insertedWindowDims := [0]
  scatterDimsToOperandDims := [0]
  indexVectorDim := 1
  wf := scatter_S256x256_S50000x1_S50000x256_1_0_0_1_wf

class Facts : Prop extends Facts₀ where

variable [Facts]
-- ==== Proof.Spec.lean ====
/-
  What the two fused kernels compute, entry by entry, over the extended reals.

  A graph-convolution layer first sums, for every node, the feature rows of its in-neighbours (done outside the
  kernels); the kernels then do the dense part. For node `r` and output feature `d`:
  * `affine`: the aggregated row, scaled by the node's in-degree factor, times the weight matrix, plus the bias;
  * `layer1`: that, clipped below at zero and scaled by the node's out-degree factor (what the first kernel stores);
  * `rowNorm`: the Euclidean length of the node's row of the second layer's `affine` (the second kernel's first output);
  * `poolPart`: for a block of 2000 consecutive nodes, graph `g` and feature `d`, the sum over the block's nodes of
    the node's `affine` entry times the indicator that the node's graph word is `g` (the second kernel's second
    output: a product with the block's indicator matrix, transposed).
  The indicator is kept as the conversion to a float of the one-bit comparison widened to 32 bits, the way the kernel
  spells it; that it is 1 or 0 is shown where it is used.
-/
import Idealize.ShloMosaic.PureOps.Ideal
import Idealize.ShloMosaic.Lib.ValueIdx

noncomputable section

open scoped BigOperators

namespace Cert.Hand

open Idealize.ShloMosaic Idealize.ShloMosaic.ValueIdx

/-- Row `r` of `a`, each entry scaled by the row's factor `inn r`, times column `d` of `w`, plus `b d`. -/
def affine {K : Nat} (a : (⟨2, ![50000, K]⟩ : Shape).Idx → EReal) (inn : (⟨2, ![50000, 1]⟩ : Shape).Idx → EReal)
    (w : (⟨2, ![K, 256]⟩ : Shape).Idx → EReal) (b : (⟨2, ![1, 256]⟩ : Shape).Idx → EReal) (r : Fin 50000) (d : Fin 256) : EReal :=
  (∑ k : Fin K, (a (ix2 r k) * inn (ix2 r 0)) * w (ix2 k d)) + b (ix2 0 d)

/-- The first layer's stored entry: `affine` clipped below at zero, times the row's factor `outn r`. -/
def layer1 {K : Nat} (a : (⟨2, ![50000, K]⟩ : Shape).Idx → EReal) (inn outn : (⟨2, ![50000, 1]⟩ : Shape).Idx → EReal)
    (w : (⟨2, ![K, 256]⟩ : Shape).Idx → EReal) (b : (⟨2, ![1, 256]⟩ : Shape).Idx → EReal) (r : Fin 50000) (d : Fin 256) : EReal :=
  max (affine a inn w b r d) 0 * outn (ix2 r 0)

/-- The Euclidean length of row `r` of `affine`: the square root of the sum of its squares. -/
def rowNorm {K : Nat} (a : (⟨2, ![50000, K]⟩ : Shape).Idx → EReal) (inn : (⟨2, ![50000, 1]⟩ : Shape).Idx → EReal)
    (w : (⟨2, ![K, 256]⟩ : Shape).Idx → EReal) (b : (⟨2, ![1, 256]⟩ : Shape).Idx → EReal) (r : Fin 50000) : EReal :=
  Ideal.sqrt (∑ d : Fin 256, affine a inn w b r d * affine a inn w b r d)

/-- The indicator "the word is `g`" as the kernel computes it: compare, widen the bit to 32 bits, convert. -/
def oneHot (word : BitVec 32) (g : Fin 256) : EReal :=
  FloatOps.sitofp (F := Ideal) .f32 ((IntOp.cmpi .eq word (BitVec.ofNat 32 g.val)).setWidth 32)

/-- Node `q` of block `blk` (blocks of 2000 consecutive nodes). -/
def rowOf (blk : Fin 25) (q : Fin 2000) : Fin 50000 := ⟨blk.val * 2000 + q.val, by have := blk.isLt; have := q.isLt; omega⟩

/-- Block `blk`'s share of graph `g`'s pooled feature `d`: the block's nodes whose graph word is `g`, summed. -/
def poolPart {K : Nat} (a : (⟨2, ![50000, K]⟩ : Shape).Idx → EReal) (inn : (⟨2, ![50000, 1]⟩ : Shape).Idx → EReal)
    (ng : (⟨2, ![50000, 1]⟩ : Shape).Idx → BitVec 32)
    (w : (⟨2, ![K, 256]⟩ : Shape).Idx → EReal) (b : (⟨2, ![1, 256]⟩ : Shape).Idx → EReal) (blk : Fin 25) (g d : Fin 256) : EReal :=
  ∑ q : Fin 2000, oneHot (ng (ix2 (rowOf blk q) 0)) g * affine a inn w b (rowOf blk q) d

end Cert.Hand

end
-- ==== Proof.Terms.lean ====
/-
  The pieces of the value both programs compute, named once, as terms of the argument arrays.

  The host side computes the two degree factors (`kDeg`: the number of edges leaving, or entering, each node, at least 1,
  to the power -1/2), aggregates neighbour rows (`kAgg1`, `kAgg2`: gather the source rows, add them into the target
  rows); the two fused kernels' arrays are `layer1`, `rowNorm` and `poolPart` of what they are handed (`kH1`, `kRN`,
  `kPP`). The result `kOut` is the sum of the 25 pooled slabs times 16 / (mean row length).
-/
import proofs.«431417_j49967649521735_2_alg».proof.KernelIdeal
import proofs.«431417_j49967649521735_2_alg».proof.Proof.Gen.KernelIdeal
import proofs.«431417_j49967649521735_2_alg».proof.Proof.Spec
import Idealize.ShloMosaic.Lib.ValueIdx

noncomputable section

open scoped BigOperators

namespace Cert.Hand

open Idealize.ShloMosaic Idealize.ShloMosaic.ValueIdx
open Cert.KernelIdeal Cert.KernelIdeal.Gen

/-! ## The pieces of the value -/

/-- The degree factor of every node: count the edges whose end word `s` names the node, take at least 1, raise to -1/2. -/
def kDeg (s : IVec S800000 32) : FVec Ideal S50000 .f32 :=
  Host.powf
    (maximumf
      (Host.scatterAdd scatter_S50000_S800000x1_S800000_n_0_0_1
        (broadcastInDim S50000 ![] bcast_S_S50000 (constant S_ .f32 0x00000000#32))
        (broadcastInDim S800000x1 ![0] bcast_S800000_S800000x1_0 s)
        (broadcastInDim S800000 ![] bcast_S_S800000 (constant S_ .f32 0x3F800000#32)))
      (broadcastInDim S50000 ![] bcast_S_S50000 (constant S_ .f32 0x3F800000#32)))
    (broadcastInDim S50000 ![] bcast_S_S50000 (constant S_ .f32 0xBF000000#32))

/-- A vector of 50000 entries as a column. -/
def kCol (v : FVec Ideal S50000 .f32) : FVec Ideal S50000x1 .f32 :=
  fun i => shapeCast S50000x1 v shapeCasts_S50000_S50000x1 i

/-- A vector of 50000 words as a column. -/
def kColI (v : IVec S50000 32) : IVec S50000x1 32 :=
  fun i => shapeCast S50000x1 v shapeCasts_S50000_S50000x1 i

/-- A vector of 256 entries as a row. -/
def kRow (b : FVec Ideal S256 .f32) : FVec Ideal S1x256 .f32 :=
  fun i => shapeCast S1x256 b shapeCasts_S256_S1x256 i

/-- The edge words as start indices of a row gather: a negative word is wrapped once by the number of nodes. -/
def kWrap (s : IVec S800000 32) : IVec S800000x1 32 :=
  broadcastInDim S800000x1 ![0] bcast_S800000_S800000x1_0
    (select (cmpi .slt s (broadcastInDim S800000 ![] bcast_S_S800000 (constantI S_ 32 0#32)))
      (addi s (broadcastInDim S800000 ![] bcast_S_S800000 (constantI S_ 32 50000#32))) s)

/-- First aggregation: the input rows, each scaled by its node's out-degree factor, gathered along the edges' sources and
    added into the edges' targets. -/
def kAgg1 (x : FVec Ideal S50000x128 .f32) (src dst : IVec S800000 32) : FVec Ideal S50000x128 .f32 :=
  Host.scatterAdd scatter_S50000x128_S800000x1_S800000x128_1_0_0_1
    (broadcastInDim S50000x128 ![] bcast_S_S50000x128 (constant S_ .f32 0x00000000#32))
    (broadcastInDim S800000x1 ![0] bcast_S800000_S800000x1_0 dst)
    (Host.gather gather_S50000x128_S800000x1_S800000x128_1_0_n_n_0_1_1128
      (mulf x (broadcastInDim S50000x128 ![0, 1] bcast_S50000x1_S50000x128_0_1 (kCol (kDeg src))))
      (kWrap src))

/-- The first kernel's array: `layer1` of the first aggregation, the two degree factors, the weights and the bias row. -/
def kH1 (x : FVec Ideal S50000x128 .f32) (w1 : FVec Ideal S128x256 .f32) (b1 : FVec Ideal S256 .f32)
    (src dst : IVec S800000 32) : FVec Ideal S50000x256 .bf16 :=
  fun i => layer1 (kAgg1 x src dst) (kCol (kDeg dst)) (kCol (kDeg src)) w1 (kRow b1) (i 0) (i 1)

/-- Second aggregation: rows of `h` gathered along the edges' sources and added into the edges' targets. -/
def kAgg2 (h : FVec Ideal S50000x256 .bf16) (src dst : IVec S800000 32) : FVec Ideal S50000x256 .f32 :=
  Host.scatterAdd scatter_S50000x256_S800000x1_S800000x256_1_0_0_1
    (broadcastInDim S50000x256 ![] bcast_S_S50000x256 (constant S_ .f32 0x00000000#32))
    (broadcastInDim S800000x1 ![0] bcast_S800000_S800000x1_0 dst)
    (extf .f32 (Host.gather gather_S50000x256_S800000x1_S800000x256_1_0_n_n_0_1_1256 h (kWrap src)) bitsLt_bf16_f32)

/-- The second kernel's first array: every node's row length. -/
def kRN (a2 : FVec Ideal S50000x256 .f32) (w2 : FVec Ideal S256x256 .f32) (b2 : FVec Ideal S256 .f32)
    (dst : IVec S800000 32) : FVec Ideal S50000x1 .f32 :=
  fun i => rowNorm a2 (kCol (kDeg dst)) w2 (kRow b2) (i 0)

/-- The second kernel's second array: the 25 pooled slabs. -/
def kPP (a2 : FVec Ideal S50000x256 .f32) (w2 : FVec Ideal S256x256 .f32) (b2 : FVec Ideal S256 .f32)
    (dst : IVec S800000 32) (ng : IVec S50000 32) : FVec Ideal S25x256x256 .f32 :=
  fun i => poolPart a2 (kCol (kDeg dst)) (kColI ng) w2 (kRow b2) (i 0) (i 1) (i 2)

/-- The result: the slabs summed, times 16 over the mean row length. -/
def kOut (x : FVec Ideal S50000x128 .f32) (w1 : FVec Ideal S128x256 .f32) (b1 : FVec Ideal S256 .f32)
    (w2 : FVec Ideal S256x256 .f32) (b2 : FVec Ideal S256 .f32) (src dst : IVec S800000 32) (ng : IVec S50000 32) :
    FVec Ideal S256x256 .f32 :=
  mulf
    (Host.reduceAdd (kPP (kAgg2 (kH1 x w1 b1 src dst) src dst) w2 b2 dst ng) (constant S_ .f32 0x00000000#32)
      reducesTo_S25x256x256_S256x256_d0 h_S_)
    (broadcastInDim S256x256 ![] bcast_S_S256x256
      (Host.divf (constant S_ .f32 0x41800000#32)
        (Host.divf
          (Host.reduceAdd (kRN (kAgg2 (kH1 x w1 b1 src dst) src dst) w2 b2 dst) (constant S_ .f32 0x00000000#32)
            reducesTo_S50000x1_S_d0_1 h_S_)
          (constant S_ .f32 0x47435000#32))))

end Cert.Hand

end
-- ==== Proof.LibMatmulAt.lean ====
/-
  A `tpu.matmul` into a zero accumulator, read at an output index, at the ideal instance: the plain sum of products
  over the one contracted axis, for the two rank-2 layouts a kernel uses.

  * `transposedRhs M K N` contracts the last axis of an M×K left operand with the last axis of an N×K right operand:
      out (p, q) = ∑ k, l (p, k) · r (q, k).
  * `plain M K N` contracts the last axis of an M×K left operand with the first axis of a K×N right operand:
      out (p, q) = ∑ k, l (p, k) · r (k, q).
  Both are stated for every M, K, N and every pair of operand formats, so one statement serves every tiling; a printed
  record with the same dimension numbers is one of these two by `rfl`.
-/
import Idealize.ShloMosaic.PureOps.Ideal.Laws
import Idealize.ShloMosaic.Lib.ValueIdx

noncomputable section

open scoped BigOperators

namespace Idealize.ShloMosaic.MatmulAt

open Idealize.ShloMosaic Idealize.ShloMosaic.ValueIdx

variable {M K N : Nat}

/-! ### Last axis with last axis -/

theorem tr_lhs_0 (j : (⟨2, ![M, N]⟩ : Shape).Idx) (q : (DotDims.transposedRhs M K N).contr.Idx) :
    ((DotDims.transposedRhs M K N).lhsIdx j q 0).val = (j 0).val := by
  unfold DotDims.lhsIdx
  rw [dif_neg (show ¬(0 : Fin 2) ∈ (DotDims.transposedRhs M K N).lhsBatch from List.not_mem_nil),
    dif_pos (show (0 : Fin 2) ∈ (DotDims.transposedRhs M K N).lhsNonContracting from List.mem_singleton.mpr rfl)]
  rfl

theorem tr_lhs_1 (j : (⟨2, ![M, N]⟩ : Shape).Idx) (q : (DotDims.transposedRhs M K N).contr.Idx) :
    ((DotDims.transposedRhs M K N).lhsIdx j q 1).val = (q ⟨0, Nat.one_pos⟩).val :=
  (DotDims.transposedRhs M K N).lhsIdx_val_of_single rfl j q

theorem tr_rhs_0 (j : (⟨2, ![M, N]⟩ : Shape).Idx) (q : (DotDims.transposedRhs M K N).contr.Idx) :
    ((DotDims.transposedRhs M K N).rhsIdx j q 0).val = (j 1).val := by
  unfold DotDims.rhsIdx
  rw [dif_neg (show ¬(0 : Fin 2) ∈ (DotDims.transposedRhs M K N).rhsBatch from List.not_mem_nil),
    dif_pos (show (0 : Fin 2) ∈ (DotDims.transposedRhs M K N).rhsNonContracting from List.mem_singleton.mpr rfl)]
  rfl

theorem tr_rhs_1 (j : (⟨2, ![M, N]⟩ : Shape).Idx) (q : (DotDims.transposedRhs M K N).contr.Idx) :
    ((DotDims.transposedRhs M K N).rhsIdx j q 1).val = (q ⟨0, Nat.one_pos⟩).val :=
  (DotDims.transposedRhs M K N).rhsIdx_val_of_single rfl j q

/-- `out (p, q) = ∑ k, l (p, k) · r (q, k)`. -/
theorem matmul_transposedRhs_apply {φ₁ φ₂ : FTy} (prec : Option ContractPrecision)
    (l : FVec Ideal ⟨2, ![M, K]⟩ φ₁) (r : FVec Ideal ⟨2, ![N, K]⟩ φ₂) (p : Fin M) (q : Fin N) :
    FloatOps.matmul (DotDims.transposedRhs M K N) prec l r (constant ⟨2, ![M, N]⟩ .f32 0x00000000#32) (ix2 p q)
      = ∑ k : Fin K, l (ix2 p k) * r (ix2 q k) := by
  rw [Ideal.matmul_constant_zero_apply, ← Equiv.sum_comp (contrEquiv1 (DotDims.transposedRhs M K N) K rfl rfl).symm]
  refine Finset.sum_congr rfl fun k _ => ?_
  have hk := contrEquiv1_symm_val (DotDims.transposedRhs M K N) K rfl rfl k
  have el : (DotDims.transposedRhs M K N).lhsIdx (ix2 p q) ((contrEquiv1 (DotDims.transposedRhs M K N) K rfl rfl).symm k) = ix2 p k :=
    funext fun a => Fin.ext (by
      match a with
      | ⟨0, _⟩ => exact tr_lhs_0 _ _
      | ⟨1, _⟩ => exact (tr_lhs_1 _ _).trans hk)
  have er : (DotDims.transposedRhs M K N).rhsIdx (ix2 p q) ((contrEquiv1 (DotDims.transposedRhs M K N) K rfl rfl).symm k) = ix2 q k :=
    funext fun a => Fin.ext (by
      match a with
      | ⟨0, _⟩ => exact tr_rhs_0 _ _
      | ⟨1, _⟩ => exact (tr_rhs_1 _ _).trans hk)
  rw [el, er]

/-! ### Last axis with first axis -/

theorem pl_lhs_0 (j : (⟨2, ![M, N]⟩ : Shape).Idx) (q : (DotDims.plain M K N).contr.Idx) :
    ((DotDims.plain M K N).lhsIdx j q 0).val = (j 0).val := by
  unfold DotDims.lhsIdx
  rw [dif_neg (show ¬(0 : Fin 2) ∈ (DotDims.plain M K N).lhsBatch from List.not_mem_nil),
    dif_pos (show (0 : Fin 2) ∈ (DotDims.plain M K N).lhsNonContracting from List.mem_singleton.mpr rfl)]
  rfl

theorem pl_lhs_1 (j : (⟨2, ![M, N]⟩ : Shape).Idx) (q : (DotDims.plain M K N).contr.Idx) :
    ((DotDims.plain M K N).lhsIdx j q 1).val = (q ⟨0, Nat.one_pos⟩).val :=
  (DotDims.plain M K N).lhsIdx_val_of_single rfl j q

theorem pl_rhs_0 (j : (⟨2, ![M, N]⟩ : Shape).Idx) (q : (DotDims.plain M K N).contr.Idx) :
    ((DotDims.plain M K N).rhsIdx j q 0).val = (q ⟨0, Nat.one_pos⟩).val :=
  (DotDims.plain M K N).rhsIdx_val_of_single rfl j q

theorem pl_rhs_1 (j : (⟨2, ![M, N]⟩ : Shape).Idx) (q : (DotDims.plain M K N).contr.Idx) :
    ((DotDims.plain M K N).rhsIdx j q 1).val = (j 1).val := by
  unfold DotDims.rhsIdx
  rw [dif_neg (show ¬(1 : Fin 2) ∈ (DotDims.plain M K N).rhsBatch from List.not_mem_nil),
    dif_pos (show (1 : Fin 2) ∈ (DotDims.plain M K N).rhsNonContracting from List.mem_singleton.mpr rfl)]
  rfl

/-- `out (p, q) = ∑ k, l (p, k) · r (k, q)`. -/
theorem matmul_plain_apply {φ₁ φ₂ : FTy} (prec : Option ContractPrecision)
    (l : FVec Ideal ⟨2, ![M, K]⟩ φ₁) (r : FVec Ideal ⟨2, ![K, N]⟩ φ₂) (p : Fin M) (q : Fin N) :
    FloatOps.matmul (DotDims.plain M K N) prec l r (constant ⟨2, ![M, N]⟩ .f32 0x00000000#32) (ix2 p q)
      = ∑ k : Fin K, l (ix2 p k) * r (ix2 k q) := by
  rw [Ideal.matmul_constant_zero_apply, ← Equiv.sum_comp (contrEquiv1 (DotDims.plain M K N) K rfl rfl).symm]
  refine Finset.sum_congr rfl fun k _ => ?_
  have hk := contrEquiv1_symm_val (DotDims.plain M K N) K rfl rfl k
  have el : (DotDims.plain M K N).lhsIdx (ix2 p q) ((contrEquiv1 (DotDims.plain M K N) K rfl rfl).symm k) = ix2 p k :=
    funext fun a => Fin.ext (by
      match a with
      | ⟨0, _⟩ => exact pl_lhs_0 _ _
      | ⟨1, _⟩ => exact (pl_lhs_1 _ _).trans hk)
  have er : (DotDims.plain M K N).rhsIdx (ix2 p q) ((contrEquiv1 (DotDims.plain M K N) K rfl rfl).symm k) = ix2 k q :=
    funext fun a => Fin.ext (by
      match a with
      | ⟨0, _⟩ => exact (pl_rhs_0 _ _).trans hk
      | ⟨1, _⟩ => exact pl_rhs_1 _ _)
  rw [el, er]

end Idealize.ShloMosaic.MatmulAt

end
-- ==== Proof.LibRowOps.lean ====
/-
  Rank-2 ROW OPERATIONS read at an index, for any extents.

  A LayerNorm over the last axis of an [a, b] array is built from: the sum of each row, that sum kept as an [a, 1]
  column, the column spread back over the b columns, and a [1, b] row of per-column scales spread over the a rows.
  A kernel writes these with `vector.multi_reduction`, `vector.shape_cast` and `vector.broadcast`; jnp on the host with
  `stablehlo.reduce` and `stablehlo.broadcast_in_dim`. Each lemma says which element of the operand an element of the
  result is; the two sums are read as `∑ k : Fin b` over the row.
-/
import Idealize.ShloMosaic.PureOps.Ideal.Laws
import Idealize.ShloMosaic.Lib.ValueIdx
import Idealize.ShloMosaic.Lib.ValueLayout
import Idealize.ShloMosaic.Lib.Pipeline.Value

noncomputable section

open scoped BigOperators

namespace Idealize.ShloMosaic.RowOps

open Idealize.ShloMosaic Idealize.ShloMosaic.ValueIdx

variable {α : Type} {a b : Nat}

/-! ## The kernel's forms -/

/-- A vector [a] kept as a column [a, 1]: element (p, 0) is element p. -/
theorem shapeCast_col_apply (x : (⟨1, ![a]⟩ : Shape).Idx → α) (h : (⟨1, ![a]⟩ : Shape).ShapeCasts ⟨2, ![a, 1]⟩)
    (p : Fin a) (u : Fin 1) : shapeCast ⟨2, ![a, 1]⟩ x h (ix2 p u) = x (ix1 p) :=
  shapeCast_apply x h _ _ (by
    have hu : u.val = 0 := by omega
    rw [Shape.rowMajor_val_two, Shape.rowMajor_val_one]
    show p.val = p.val * 1 + u.val
    omega)

/-- A column [a, 1] spread over b columns: element (p, c) is the column's element (p, 0). -/
theorem broadcastTo_col_apply (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- The index over row p with column k inserted is (p, k). -/
theorem lift_row (h : (⟨2, ![a, b]⟩ : Shape).Reduces [1] ⟨1, ![a]⟩) (p : Fin a) (k : Fin b) :
    h.lift (ix1 p) k = ix2 p k :=
  funext fun c => Fin.ext (by
    match c with
    | ⟨0, _⟩ => rfl
    | ⟨1, _⟩ => rfl)

/-- A kernel's sum over the last axis, at row p: the sum of the row. -/
theorem multiReduction_row_apply {φ : FTy} (x : FVec Ideal ⟨2, ![a, b]⟩ φ) (acc : BitVec φ.bits)
    (h : (⟨2, ![a, b]⟩ : Shape).Reduces [1] ⟨1, ![a]⟩) (hφ : FKind.Formats φ) (hacc : acc = FKind.add.neutral φ hφ) (p : Fin a) :
    multiReduction .add [1] ⟨1, ![a]⟩ x acc h hφ hacc (ix1 p) = ∑ k : Fin b, x (ix2 p k) := by
  rw [Ideal.multiReduction_add_single]
  exact Finset.sum_congr rfl fun k _ => congrArg x (lift_row h p k)

/-! ## The host's forms -/

/-- A vector [b] as a row [1, b] (`broadcast_in_dim`, dims = [1]): element (0, q) is element q. -/
theorem bcastInDim_row_apply (h : (⟨1, ![b]⟩ : Shape).BroadcastsInDim ⟨2, ![1, b]⟩ ![1]) (x : (⟨1, ![b]⟩ : Shape).Idx → α)
    (u : Fin 1) (q : Fin b) : broadcastInDim ⟨2, ![1, b]⟩ ![1] h x (ix2 u q) = x (ix1 q) := by
  refine broadcastInDim_apply _ h x (ix2 u q) (ix1 q) fun ax => ?_
  match ax with
  | ⟨0, _⟩ =>
    show q.val = if b = 1 then 0 else q.val
    split
    · have := q.isLt; omega
    · rfl

/-- A row [1, b] spread over a rows (dims = [0, 1]): element (r, q) is the row's element (0, q). -/
theorem bcastInDim_rows_apply (h : (⟨2, ![1, b]⟩ : Shape).BroadcastsInDim ⟨2, ![a, b]⟩ ![0, 1]) (x : (⟨2, ![1, b]⟩ : Shape).Idx → α)
    (r : Fin a) (q : Fin b) : broadcastInDim ⟨2, ![a, b]⟩ ![0, 1] h x (ix2 r q) = x (ix2 (0 : Fin 1) q) := by
  refine broadcastInDim_apply _ h x (ix2 r q) (ix2 (0 : Fin 1) q) fun ax => ?_
  match ax with
  | ⟨0, _⟩ => rfl
  | ⟨1, _⟩ =>
    show q.val = if b = 1 then 0 else q.val
    split
    · have := q.isLt; omega
    · rfl

/-- A vector [a] kept as a column [a, 1] (dims = [0]): element (r, 0) is element r. -/
theorem bcastInDim_col_apply (h : (⟨1, ![a]⟩ : Shape).BroadcastsInDim ⟨2, ![a, 1]⟩ ![0]) (x : (⟨1, ![a]⟩ : Shape).Idx → α)
    (r : Fin a) (u : Fin 1) : broadcastInDim ⟨2, ![a, 1]⟩ ![0] h x (ix2 r u) = x (ix1 r) := by
  refine broadcastInDim_apply _ h x (ix2 r u) (ix1 r) fun ax => ?_
  match ax with
  | ⟨0, _⟩ =>
    show r.val = if a = 1 then 0 else r.val
    split
    · have := r.isLt; omega
    · rfl

/-- A column [a, 1] spread over b columns (dims = [0, 1]): element (r, q) is the column's element (r, 0). -/
theorem bcastInDim_cols_apply (h : (⟨2, ![a, 1]⟩ : Shape).BroadcastsInDim ⟨2, ![a, b]⟩ ![0, 1]) (x : (⟨2, ![a, 1]⟩ : Shape).Idx → α)
    (r : Fin a) (q : Fin b) : broadcastInDim ⟨2, ![a, b]⟩ ![0, 1] h x (ix2 r q) = x (ix2 r (0 : Fin 1)) := by
  refine broadcastInDim_apply _ h x (ix2 r q) (ix2 r (0 : Fin 1)) fun ax => ?_
  match ax with
  | ⟨0, _⟩ =>
    show r.val = if a = 1 then 0 else r.val
    split
    · have := r.isLt; omega
    · rfl
  | ⟨1, _⟩ => rfl

/-- A scalar spread over any shape (dims = []): every element is the scalar. -/
theorem bcastInDim_scalar_apply {t : Shape} (h : (⟨0, ![]⟩ : Shape).BroadcastsInDim t ![]) (x : (⟨0, ![]⟩ : Shape).Idx → α)
    (j : t.Idx) : broadcastInDim t ![] h x j = x ix0 :=
  broadcastInDim_apply _ h x j ix0 fun ax => ax.elim0

/-- The host's sum over the last axis, at row r: the initial value plus the sum of the row. -/
theorem hostReduceAdd_row_apply {φ : FTy} (x : FVec Ideal ⟨2, ![a, b]⟩ φ) (init : FVec Ideal ⟨0, ![]⟩ φ)
    (h' : (⟨2, ![a, b]⟩ : Shape).ReducesTo [1] ⟨1, ![a]⟩) (hu : 0 < (⟨0, ![]⟩ : Shape).numel)
    (h : (⟨2, ![a, b]⟩ : Shape).Reduces [1] ⟨1, ![a]⟩) (r : Fin a) :
    Host.reduceAdd x init h' hu (ix1 r) = init ix0 + ∑ k : Fin b, x (ix2 r k) := by
  unfold Host.reduceAdd
  rw [Ideal.hostReduceAdd_def, Ideal.hostReduceAdd_single h' h, eq_ix0 (Shape.Idx.first hu)]
  exact congrArg (init ix0 + ·) (Finset.sum_congr rfl fun k _ => congrArg x (lift_row h r k))

end Idealize.ShloMosaic.RowOps

end
-- ==== Proof.Region0.lean ====
/-
  The first kernel's output array after its ten grid points, as one function of the five arrays it reads.
  Point `t` handles rows 5000·t … 5000·t + 4999: it stores, for each of its rows and each of the 256 features,
  `layer1` of the aggregated features, the two degree factors, the weights and the bias. The ten row blocks tile the
  50000 rows, so the array ends holding `layer1` everywhere.
-/
import proofs.«431417_j49967649521735_2_alg».proof.Proof.Gen.KernelIdeal.Frame
import proofs.«431417_j49967649521735_2_alg».proof.Proof.Spec
import proofs.«431417_j49967649521735_2_alg».proof.Proof.LibMatmulAt
import proofs.«431417_j49967649521735_2_alg».proof.Proof.LibRowOps
import Idealize.ShloMosaic.Lib.ValueIdx
import Idealize.ShloMosaic.Lib.ValueLayout
import Idealize.ShloMosaic.Lib.Pipeline.Value
import Idealize.ShloMosaic.PureOps.Ideal.Laws

set_option maxRecDepth 16384

noncomputable section

open scoped BigOperators

namespace Cert.Hand

open Idealize.ShloMosaic Idealize.ShloMosaic.TcCoe Idealize.SL.Sem Idealize.ShloMosaic.ValueIdx
open Cert.KernelIdeal Cert.KernelIdeal.Gen

namespace Region0

/-! ## The stored value at an index of a block -/

/-- The first kernel's one product, at row p and column d: the printed contraction takes the last axis of the left
    operand with the first axis of the right, into a zero accumulator, so it is the plain sum over the 128 shared entries. -/
theorem matmul_at (l : FVec Ideal S5000x128 .bf16) (r : FVec Ideal S128x256 .bf16) (p : Fin 5000) (d : Fin 256) :
    matmul dot_S5000x128_S128x256_S5000x256_1_0_0_1_n_n none l r (constant (F := Ideal) S5000x256 .f32 0x00000000#32) (ix2 p d)
      = ∑ k : Fin 128, l (ix2 p k) * r (ix2 k d) :=
  MatmulAt.matmul_plain_apply none l r p d

/-- The value the body stores at row p and feature d of its block: the row of features scaled by the row's in-factor,
    times column d of the weights, plus the bias at d, clipped below at zero, times the row's out-factor. -/
theorem pay_apply (x0 : Vec Ideal S5000x128 .f32) (xin : Vec Ideal S5000x1 .f32) (xw : Vec Ideal S128x256 .f32)
    (xb : Vec Ideal S1x256 .f32) (xout : Vec Ideal S5000x1 .f32) (p : Fin 5000) (d : Fin 256) :
    k0_pay1 x0 xin xw xb xout (ix2 p d)
      = max ((∑ k : Fin 128, (x0 (ix2 p k) * xin (ix2 p 0)) * xw (ix2 k d)) + xb (ix2 0 d)) 0 * xout (ix2 p 0) := by
  unfold k0_pay1
  simp only [shapeCast_self]
  rw [truncf_apply, mulf_apply, maximumf_apply, addf_apply, broadcast_apply, matmul_at,
    RowOps.broadcastTo_col_apply, broadcastTo_1b_ab_apply]
  simp only [truncf_apply, mulf_apply, RowOps.broadcastTo_col_apply]
  have h0 : (FloatOps.ofBits (F := Ideal) .f32 0x00000000#32 : EReal) = 0 := Ideal.ofBits_zero_f32
  rw [h0]

/-! ## The blocks the points read and write -/

theorem zero_offsets : (![0, 0] : Fin 2 → Nat) = fun _ => 0 := funext fun a => by fin_cases a <;> rfl

/-- The printed index maps over the ten points: the three row-blocked inputs and the output are at block (t, 0), the
    weights and the bias at block (0, 0). -/
theorem block_index : ∀ t : Fin cfg0.N,
    (win0_0.index t (0 : Fin 2) = t.val ∧ win0_0.index t (1 : Fin 2) = 0)
    ∧ (win0_1.index t (0 : Fin 2) = t.val ∧ win0_1.index t (1 : Fin 2) = 0)
    ∧ (win0_2.index t (0 : Fin 2) = t.val ∧ win0_2.index t (1 : Fin 2) = 0)
    ∧ (win0_3.index t (0 : Fin 2) = 0 ∧ win0_3.index t (1 : Fin 2) = 0)
    ∧ (win0_4.index t (0 : Fin 2) = 0 ∧ win0_4.index t (1 : Fin 2) = 0)
    ∧ (win0_5.index t (0 : Fin 2) = t.val ∧ win0_5.index t (1 : Fin 2) = 0) :=
  (by decide +kernel : ∀ t : Fin grid0.N, _)

variable (V : (c : Dev nD) → (b : Ref sig .tc) → Buf (Elt Ideal) ((c : Thread nD τ).loc b))

/-- Point t's block of the features: row p of it is row 5000·t + p of the array. -/
theorem feat_block (c : Dev nD) (t : Fin cfg0.N) (p : Fin 5000) (k : Fin 128) (r : Fin 50000)
    (hr : r.val = t.val * 5000 + p.val) :
    (iblk0 V c 0 t : Vec Ideal S5000x128 .f32) (ix2 p k) = (V c main_v28 : S50000x128.Idx → EReal) (ix2 r k) := by
  obtain ⟨⟨e0, e1⟩, -⟩ := block_index t
  unfold iblk0
  rw [View.read_apply]
  show V c main_v28 _ = V c main_v28 _
  congr 1
  funext a
  apply Fin.ext
  match a with
  | ⟨0, _⟩ => show win0_0.index t (0 : Fin 2) * 5000 + 1 * p.val = r.val; rw [e0, hr]; omega
  | ⟨1, _⟩ => show win0_0.index t (1 : Fin 2) * 128 + 1 * k.val = k.val; rw [e1]; omega

/-- Point t's block of the in-degree factors: entry p of it is entry 5000·t + p of the array. -/
theorem inn_block (c : Dev nD) (t : Fin cfg0.N) (p : Fin 5000) (r : Fin 50000)
    (hr : r.val = t.val * 5000 + p.val) :
    (iblk0 V c 1 t : Vec Ideal S5000x1 .f32) (ix2 p 0) = (V c main_v15 : S50000x1.Idx → EReal) (ix2 r 0) := by
  obtain ⟨-, ⟨e0, e1⟩, -⟩ := block_index t
  unfold iblk0
  rw [View.read_apply]
  show V c main_v15 _ = V c main_v15 _
  congr 1
  funext a
  apply Fin.ext
  match a with
  | ⟨0, _⟩ => show win0_1.index t (0 : Fin 2) * 5000 + 1 * p.val = r.val; rw [e0, hr]; omega
  | ⟨1, _⟩ => show win0_1.index t (1 : Fin 2) * 1 + 1 * 0 = 0; rw [e1]

/-- Point t's block of the out-degree factors: entry p of it is entry 5000·t + p of the array. -/
theorem outn_block (c : Dev nD) (t : Fin cfg0.N) (p : Fin 5000) (r : Fin 50000)
    (hr : r.val = t.val * 5000 + p.val) :
    (iblk0 V c 2 t : Vec Ideal S5000x1 .f32) (ix2 p 0) = (V c main_v16 : S50000x1.Idx → EReal) (ix2 r 0) := by
  obtain ⟨-, -, ⟨e0, e1⟩, -⟩ := block_index t
  unfold iblk0
  rw [View.read_apply]
  show V c main_v16 _ = V c main_v16 _
  congr 1
  funext a
  apply Fin.ext
  match a with
  | ⟨0, _⟩ => show win0_2.index t (0 : Fin 2) * 5000 + 1 * p.val = r.val; rw [e0, hr]; omega
  | ⟨1, _⟩ => show win0_2.index t (1 : Fin 2) * 1 + 1 * 0 = 0; rw [e1]

/-- Every point's block of the weights is the whole array. -/
theorem weight_block (c : Dev nD) (t : Fin cfg0.N) (k : Fin 128) (d : Fin 256) :
    (iblk0 V c 3 t : Vec Ideal S128x256 .f32) (ix2 k d) = (V c main_arg1 : S128x256.Idx → EReal) (ix2 k d) := by
  obtain ⟨-, -, -, ⟨e0, e1⟩, -⟩ := block_index t
  unfold iblk0
  rw [View.read_apply]
  show V c main_arg1 _ = V c main_arg1 _
  congr 1
  funext a
  apply Fin.ext
  match a with
  | ⟨0, _⟩ => show win0_3.index t (0 : Fin 2) * 128 + 1 * k.val = k.val; rw [e0]; omega
  | ⟨1, _⟩ => show win0_3.index t (1 : Fin 2) * 256 + 1 * d.val = d.val; rw [e1]; omega

/-- Every point's block of the bias is the whole row. -/
theorem bias_block (c : Dev nD) (t : Fin cfg0.N) (d : Fin 256) :
    (iblk0 V c 4 t : Vec Ideal S1x256 .f32) (ix2 0 d) = (V c main_v29 : S1x256.Idx → EReal) (ix2 0 d) := by
  obtain ⟨-, -, -, -, ⟨e0, e1⟩, -⟩ := block_index t
  unfold iblk0
  rw [View.read_apply]
  show V c main_v29 _ = V c main_v29 _
  congr 1
  funext a
  apply Fin.ext
  match a with
  | ⟨0, _⟩ => show win0_4.index t (0 : Fin 2) * 1 + 1 * 0 = 0; rw [e0]
  | ⟨1, _⟩ => show win0_4.index t (1 : Fin 2) * 256 + 1 * d.val = d.val; rw [e1]; omega

/-! ## From the blocks to the array -/

/-- The array the kernel is to leave: `layer1` of the five arrays it reads, entry by entry. -/
abbrev target (c : Dev nD) : S50000x256.Idx → EReal :=
  fun i => layer1 (V c main_v28) (V c main_v15) (V c main_v16) (V c main_arg1) (V c main_v29) (i 0) (i 1)

/-- What point t writes back is block t of the target. -/
theorem flushed_eq (c : Dev nD) (t : Fin cfg0.N) :
    (dat0 (F := Ideal) V c).flushed 5 t = ((cfg0.win 5).blk t).view.read (Elt Ideal) (target V c) := by
  show (cfg0.win 5).cut (grid0.coords t) ((dat0 (F := Ideal) V c).after 5 t) = _
  rw [after0_5]
  unfold out0_5
  rw [View.canon_unit_zero zero_offsets]
  simp only [View.ld_unit_zero (S := S5000x128) zero_offsets, View.ld_unit_zero (S := S5000x1) zero_offsets,
    View.ld_unit_zero (S := S128x256) zero_offsets, View.ld_unit_zero (S := S1x256) zero_offsets]
  funext j
  obtain ⟨p, d, rfl⟩ : ∃ (p : Fin 5000) (d : Fin 256), j = ix2 p d := ⟨j 0, j 1, eq_ix2 j⟩
  have hN : cfg0.N = 10 := N_0
  have ht : t.val < 10 := by have := t.isLt; omega
  obtain ⟨-, -, -, -, -, ⟨e0, e1⟩⟩ := block_index t
  have hp : t.val * 5000 + p.val < 50000 := by have := p.isLt; omega
  have hemb : ((cfg0.win 5).blk t).view.emb (ix2 p d) = (ix2 (⟨t.val * 5000 + p.val, hp⟩ : Fin 50000) d : S50000x256.Idx) := by
    funext a
    apply Fin.ext
    match a with
    | ⟨0, _⟩ => show win0_5.index t (0 : Fin 2) * 5000 + 1 * p.val = t.val * 5000 + p.val; rw [e0]; omega
    | ⟨1, _⟩ => show win0_5.index t (1 : Fin 2) * 256 + 1 * d.val = d.val; rw [e1]; omega
  have hrhs : ((cfg0.win 5).blk t).view.read (Elt Ideal) (target V c) (ix2 p d)
      = target V c (ix2 (⟨t.val * 5000 + p.val, hp⟩ : Fin 50000) d) := by
    rw [View.read_apply]
    exact congrArg (target V c) hemb
  refine (pay_apply (iblk0 V c 0 t) (iblk0 V c 1 t) (iblk0 V c 3 t) (iblk0 V c 4 t) (iblk0 V c 2 t) p d).trans (Eq.trans ?_ hrhs.symm)
  show _ = layer1 (V c main_v28) (V c main_v15) (V c main_v16) (V c main_arg1) (V c main_v29) (⟨t.val * 5000 + p.val, hp⟩ : Fin 50000) d
  unfold layer1 affine
  rw [inn_block V c t p ⟨t.val * 5000 + p.val, hp⟩ rfl, outn_block V c t p ⟨t.val * 5000 + p.val, hp⟩ rfl, bias_block V c t d]
  simp only [feat_block V c t p _ ⟨t.val * 5000 + p.val, hp⟩ rfl, weight_block V c t]

/-- An index of the array is in point t's block iff, on each axis, its coordinate is in the block's range. -/
theorem mem_block (t : Fin cfg0.N) (i : S50000x256.Idx) :
    i ∈ ((cfg0.win 5).blk t).view.set
      ↔ ∀ a : Fin 2, win0_5.index t a * S5000x256.size a ≤ (i a).val
          ∧ (i a).val < win0_5.index t a * S5000x256.size a + S5000x256.size a := by
  show i ∈ ((View.whole main_v30).slice (win0_5.rect t)).set ↔ _
  rw [View.set_slice_whole, Rect.mem_set_unit]
  exact Iff.rfl

end Region0

variable (V : (c : Dev nD) → (b : Ref sig .tc) → Buf (Elt Ideal) ((c : Thread nD τ).loc b))

/-- The first kernel's result array, whatever the buffers hold when the kernel is entered: entry (r, d) is `layer1` at (r, d)
    of the arrays the kernel's five input windows stage. -/
theorem region0_value (c : Dev nD) :
    (dat0 (F := Ideal) V c).arrAt 5 cfg0.N
      = fun i => layer1 (V c main_v28) (V c main_v15) (V c main_v16) (V c main_arg1) (V c main_v29) (i 0) (i 1) := by
  refine (dat0 (F := Ideal) V c).arrAt_eq_of_cover 5 (Region0.target V c) (fun t _ => Region0.flushed_eq V c t) fun i => ?_
  -- row r lies in the block of point r / 5000
  have hN : cfg0.N = 10 := N_0
  have h0 : (i 0).val < 50000 := (i 0).isLt
  have h1 : (i 1).val < 256 := (i 1).isLt
  have hq : (i 0).val / 5000 < cfg0.N := by rw [hN]; omega
  obtain ⟨-, -, -, -, -, ⟨e0, e1⟩⟩ := Region0.block_index ⟨(i 0).val / 5000, hq⟩
  have e0' : win0_5.index ⟨(i 0).val / 5000, hq⟩ (0 : Fin 2) = (i 0).val / 5000 := e0
  refine ⟨⟨(i 0).val / 5000, hq⟩, flush0_5 _, ?_⟩
  rw [Region0.mem_block]
  intro a
  match a with
  | ⟨0, _⟩ =>
    show win0_5.index ⟨(i 0).val / 5000, hq⟩ (0 : Fin 2) * 5000 ≤ (i 0).val
      ∧ (i 0).val < win0_5.index ⟨(i 0).val / 5000, hq⟩ (0 : Fin 2) * 5000 + 5000
    rw [e0']; omega
  | ⟨1, _⟩ =>
    show win0_5.index ⟨(i 0).val / 5000, hq⟩ (1 : Fin 2) * 256 ≤ (i 1).val
      ∧ (i 1).val < win0_5.index ⟨(i 0).val / 5000, hq⟩ (1 : Fin 2) * 256 + 256
    rw [e1]; omega

end Cert.Hand

end
-- ==== Proof.Region1Pay.lean ====
/-
  The second kernel's shared arithmetic at one entry: for a block of 2000 nodes, entry (p, d) of "the block's rows, each
  scaled by its node's factor, times the weight matrix, plus the bias row" is the sum over the 256 input features of
  (row entry × factor) × weight, plus the bias entry.
-/
import proofs.«431417_j49967649521735_2_alg».proof.Proof.Gen.KernelIdeal.Frame
import proofs.«431417_j49967649521735_2_alg».proof.Proof.Spec
import proofs.«431417_j49967649521735_2_alg».proof.Proof.LibMatmulAt
import proofs.«431417_j49967649521735_2_alg».proof.Proof.LibRowOps
import Idealize.ShloMosaic.Lib.ValueIdx
import Idealize.ShloMosaic.Lib.ValueLayout
import Idealize.ShloMosaic.Lib.Pipeline.Value
import Idealize.ShloMosaic.PureOps.Ideal.Laws

set_option maxRecDepth 16384

noncomputable section

open scoped BigOperators

namespace Cert.Hand

open Idealize.ShloMosaic Idealize.ShloMosaic.TcCoe Idealize.SL.Sem Idealize.ShloMosaic.ValueIdx
open Cert.KernelIdeal Cert.KernelIdeal.Gen

variable (V : (c : Dev nD) → (b : Ref sig .tc) → Buf (Elt Ideal) ((c : Thread nD τ).loc b))

/-- The block product plus bias, read at (p, d). -/
theorem k1_pay1_apply (x0 : Vec Ideal S2000x256 .f32) (x1 : Vec Ideal S2000x1 .f32) (x3 : Vec Ideal S256x256 .f32)
    (x4 : Vec Ideal S1x256 .f32) (p : Fin 2000) (d : Fin 256) :
    k1_pay1 x0 x1 x3 x4 (ix2 p d)
      = (∑ k : Fin 256, (x0 (ix2 p k) * x1 (ix2 p 0)) * x3 (ix2 k d)) + x4 (ix2 0 d) := by
  unfold k1_pay1
  rw [addf_apply, broadcastTo_1b_ab_apply, shapeCast_self, shapeCast_self, shapeCast_self]
  have hm : ∀ (l : FVec Ideal S2000x256 .bf16) (r : FVec Ideal S256x256 .bf16),
      matmul dot_S2000x256_S256x256_S2000x256_1_0_0_1_n_n none l r (constant S2000x256 .f32 0x00000000#32) (ix2 p d)
        = ∑ k : Fin 256, l (ix2 p k) * r (ix2 k d) :=
    fun l r => MatmulAt.matmul_plain_apply (M := 2000) (K := 256) (N := 256) none l r p d
  rw [hm]
  refine congrArg (· + x4 (ix2 0 d)) (Finset.sum_congr rfl fun k _ => ?_)
  rw [truncf_apply, truncf_apply, mulf_apply, RowOps.broadcastTo_col_apply]

end Cert.Hand

end
-- ==== Proof.Region1Norm.lean ====
/-
  The second kernel's first output array after its 25 grid points. Point `t` handles nodes 2000·t … 2000·t + 1999 and
  stores each node's `rowNorm`; the 25 blocks of 2000 rows tile the 50000 rows, so the array ends holding `rowNorm`.
-/
import proofs.«431417_j49967649521735_2_alg».proof.Proof.Gen.KernelIdeal.Frame
import proofs.«431417_j49967649521735_2_alg».proof.Proof.Spec
import proofs.«431417_j49967649521735_2_alg».proof.Proof.LibMatmulAt
import proofs.«431417_j49967649521735_2_alg».proof.Proof.LibRowOps
import proofs.«431417_j49967649521735_2_alg».proof.Proof.Region1Pay
import Idealize.ShloMosaic.Lib.ValueIdx
import Idealize.ShloMosaic.Lib.ValueLayout
import Idealize.ShloMosaic.Lib.Pipeline.Value
import Idealize.ShloMosaic.PureOps.Ideal.Laws

set_option maxRecDepth 16384

noncomputable section

open scoped BigOperators

namespace Cert.Hand

open Idealize.ShloMosaic Idealize.ShloMosaic.TcCoe Idealize.SL.Sem Idealize.ShloMosaic.ValueIdx
open Cert.KernelIdeal Cert.KernelIdeal.Gen

variable (V : (c : Dev nD) → (b : Ref sig .tc) → Buf (Elt Ideal) ((c : Thread nD τ).loc b))

/-- The zero offsets of a rank-2 rectangle. -/
theorem norm_zeros2 : (![0, 0] : Fin 2 → Nat) = fun _ => 0 := funext fun a => by fin_cases a <;> rfl

/-- The stored column at row p: the square root of the sum of the squares of the row of the block product. -/
theorem k1_pay2_apply (x0 : Vec Ideal S2000x256 .f32) (x1 : Vec Ideal S2000x1 .f32) (x3 : Vec Ideal S256x256 .f32)
    (x4 : Vec Ideal S1x256 .f32) (p : Fin 2000) (u : Fin 1) :
    k1_pay2 x0 x1 x3 x4 (ix2 p u)
      = Ideal.sqrt (∑ d : Fin 256, k1_pay1 x0 x1 x3 x4 (ix2 p d) * k1_pay1 x0 x1 x3 x4 (ix2 p d)) := by
  unfold k1_pay2
  show FloatOps.sqrt (shapeCast S2000x1 _ shapeCasts_S2000_S2000x1 (ix2 p u)) = _
  rw [RowOps.shapeCast_col_apply, Ideal.sqrt_def]
  refine congrArg Ideal.sqrt ?_
  refine (RowOps.multiReduction_row_apply (a := 2000) (b := 256) _ _ _ _ _ p).trans ?_
  rfl

/-- The windows' block indices over the 25 points: the row-blocked windows sit at block (t, 0), the whole ones at (0, 0). -/
theorem norm_index_facts : ∀ t : Fin cfg1.N, win1_0.index t (0 : Fin 2) = t.val ∧ win1_0.index t (1 : Fin 2) = 0
    ∧ win1_1.index t (0 : Fin 2) = t.val ∧ win1_1.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = t.val ∧ win1_5.index t (1 : Fin 2) = 0 :=
  (by decide +kernel : ∀ t : Fin grid1.N, _)

/-- Point t's block of the aggregated rows is rows 2000·t … 2000·t + 1999 of the array. -/
theorem norm_rows_block (c : Dev nD) (t : Fin cfg1.N) (p : Fin 2000) (k : Fin 256) (r : Fin 50000)
    (hr : r.val = t.val * 2000 + p.val) :
    (iblk1 V c 0 t : Vec Ideal S2000x256 .f32) (ix2 p k) = (V c main_v41 : S50000x256.Idx → EReal) (ix2 r k) := by
  obtain ⟨e0, e1, -⟩ := norm_index_facts t
  unfold iblk1
  rw [View.read_apply]
  show V c main_v41 _ = V c main_v41 _
  congr 1
  funext a
  apply Fin.ext
  match a with
  | ⟨0, _⟩ => show win1_0.index t (0 : Fin 2) * 2000 + 1 * p.val = r.val; rw [e0, hr]; omega
  | ⟨1, _⟩ => show win1_0.index t (1 : Fin 2) * 256 + 1 * k.val = k.val; rw [e1]; omega

/-- Point t's block of the in-degree factors is the same rows of the factor column. -/
theorem norm_factor_block (c : Dev nD) (t : Fin cfg1.N) (p : Fin 2000) (r : Fin 50000)
    (hr : r.val = t.val * 2000 + p.val) :
    (iblk1 V c 1 t : Vec Ideal S2000x1 .f32) (ix2 p 0) = (V c main_v15 : S50000x1.Idx → EReal) (ix2 r 0) := by
  obtain ⟨-, -, e0, e1, -⟩ := norm_index_facts t
  unfold iblk1
  rw [View.read_apply]
  show V c main_v15 _ = V c main_v15 _
  congr 1
  funext a
  apply Fin.ext
  match a with
  | ⟨0, _⟩ => show win1_1.index t (0 : Fin 2) * 2000 + 1 * p.val = r.val; rw [e0, hr]; omega
  | ⟨1, _⟩ => show win1_1.index t (1 : Fin 2) * 1 + 1 * 0 = 0; rw [e1]

/-- The weight window's block is the whole weight matrix. -/
theorem norm_weight_block (c : Dev nD) (t : Fin cfg1.N) (k d : Fin 256) :
    (iblk1 V c 3 t : Vec Ideal S256x256 .f32) (ix2 k d) = (V c main_arg3 : S256x256.Idx → EReal) (ix2 k d) := by
  obtain ⟨-, -, -, -, e0, e1, -⟩ := norm_index_facts t
  unfold iblk1
  rw [View.read_apply]
  show V c main_arg3 _ = V c main_arg3 _
  congr 1
  funext a
  apply Fin.ext
  match a with
  | ⟨0, _⟩ => show win1_3.index t (0 : Fin 2) * 256 + 1 * k.val = k.val; rw [e0]; omega
  | ⟨1, _⟩ => show win1_3.index t (1 : Fin 2) * 256 + 1 * d.val = d.val; rw [e1]; omega

/-- The bias window's block is the whole bias row. -/
theorem norm_bias_block (c : Dev nD) (t : Fin cfg1.N) (d : Fin 256) :
    (iblk1 V c 4 t : Vec Ideal S1x256 .f32) (ix2 0 d) = (V c main_v42 : S1x256.Idx → EReal) (ix2 0 d) := by
  obtain ⟨-, -, -, -, -, -, e0, e1, -⟩ := norm_index_facts t
  unfold iblk1
  rw [View.read_apply]
  show V c main_v42 _ = V c main_v42 _
  congr 1
  funext a
  apply Fin.ext
  match a with
  | ⟨0, _⟩ => show win1_4.index t (0 : Fin 2) * 1 + 1 * 0 = 0; rw [e0]
  | ⟨1, _⟩ => show win1_4.index t (1 : Fin 2) * 256 + 1 * d.val = d.val; rw [e1]; omega

/-- What point t stores for its row p is the Euclidean length of node 2000·t + p's row. -/
theorem norm_at (c : Dev nD) (t : Fin cfg1.N) (p : Fin 2000) (u : Fin 1) (r : Fin 50000)
    (hr : r.val = t.val * 2000 + p.val) :
    k1_pay2 (iblk1 V c 0 t) (iblk1 V c 1 t) (iblk1 V c 3 t) (iblk1 V c 4 t) (ix2 p u)
      = rowNorm (V c main_v41) (V c main_v15) (V c main_arg3) (V c main_v42) r := by
  refine (k1_pay2_apply _ _ _ _ p u).trans ?_
  unfold rowNorm
  have h : ∀ d : Fin 256, k1_pay1 (iblk1 V c 0 t) (iblk1 V c 1 t) (iblk1 V c 3 t) (iblk1 V c 4 t) (ix2 p d)
      = affine (V c main_v41) (V c main_v15) (V c main_arg3) (V c main_v42) r d := fun d => by
    refine (k1_pay1_apply _ _ _ _ p d).trans ?_
    unfold affine
    rw [norm_bias_block V c t d, norm_factor_block V c t p r hr]
    refine congrArg (· + _) (Finset.sum_congr rfl fun k _ => ?_)
    rw [norm_rows_block V c t p k r hr, norm_weight_block V c t k d]
  exact congrArg Ideal.sqrt (Finset.sum_congr rfl fun d _ => by rw [h d])

/-- What point t writes back is block t of the column of Euclidean row lengths. -/
theorem flushed_norm (c : Dev nD) (t : Fin cfg1.N) :
    (dat1 (F := Ideal) V c).flushed 5 t
      = ((cfg1.win 5).blk t).view.read (Elt Ideal)
          (fun i => rowNorm (V c main_v41) (V c main_v15) (V c main_arg3) (V c main_v42) (i 0)) := by
  show (cfg1.win 5).cut (grid1.coords t) ((dat1 V c).after 5 t) = _
  rw [after1_5]
  unfold out1_5
  rw [View.canon_unit_zero norm_zeros2]
  simp only [View.ld_unit_zero (S := S2000x256) norm_zeros2, View.ld_unit_zero (S := S2000x1) norm_zeros2,
    View.ld_unit_zero (S := S256x256) norm_zeros2, View.ld_unit_zero (S := S1x256) norm_zeros2]
  refine funext fun (j : S2000x1.Idx) => ?_
  obtain ⟨p, u, rfl⟩ : ∃ (p : Fin 2000) (u : Fin 1), j = ix2 p u := ⟨j 0, j 1, eq_ix2 j⟩
  obtain ⟨-, -, -, -, -, -, -, -, e0, e1⟩ := norm_index_facts t
  exact norm_at V c t p u _ (by
    show win1_5.index t (0 : Fin 2) * 2000 + 1 * p.val = _
    rw [e0]; omega)

/-- An index of the result column is in point t's block iff each coordinate is in the block's range on its axis. -/
theorem mem_norm_block (t : Fin cfg1.N) (i : S50000x1.Idx) :
    i ∈ ((cfg1.win 5).blk t).view.set
      ↔ ∀ a : Fin 2, win1_5.index t a * S2000x1.size a ≤ (i a).val ∧ (i a).val < win1_5.index t a * S2000x1.size a + S2000x1.size a := by
  show i ∈ ((View.whole main_v44_0).slice (win1_5.rect t)).set ↔ _
  rw [View.set_slice_whole, Rect.mem_set_unit]
  exact Iff.rfl

/-- The second kernel's first result array: entry (r, 0) is the Euclidean length of node r's second-layer row. -/
theorem region1_norm (c : Dev nD) :
    (dat1 (F := Ideal) V c).arrAt 5 cfg1.N
      = fun i => rowNorm (V c main_v41) (V c main_v15) (V c main_arg3) (V c main_v42) (i 0) := by
  refine (dat1 (F := Ideal) V c).arrAt_eq_of_cover 5 _ (fun t _ => flushed_norm V c t) fun (i : S50000x1.Idx) => ?_
  have hi0 : (i 0).val < 50000 := (i 0).isLt
  have hi1 : (i 1).val < 1 := (i 1).isLt
  have hN : cfg1.N = 25 := N_1
  obtain ⟨t, ht⟩ : ∃ t : Fin cfg1.N, t.val = (i 0).val / 2000 := ⟨⟨(i 0).val / 2000, by rw [hN]; omega⟩, rfl⟩
  obtain ⟨-, -, -, -, -, -, -, -, e0, e1⟩ := norm_index_facts t
  refine ⟨t, flush1_5 t, ?_⟩
  rw [mem_norm_block]
  intro a
  match a with
  | ⟨0, _⟩ =>
    show win1_5.index t (0 : Fin 2) * 2000 ≤ (i 0).val ∧ (i 0).val < win1_5.index t (0 : Fin 2) * 2000 + 2000
    rw [e0, ht]; omega
  | ⟨1, _⟩ =>
    show win1_5.index t (1 : Fin 2) * 1 ≤ (i 1).val ∧ (i 1).val < win1_5.index t (1 : Fin 2) * 1 + 1
    rw [e1]; omega

end Cert.Hand

end
-- ==== Proof.LibMatmulLhsT.lean ====
/-
  A `tpu.matmul` into a zero accumulator that contracts the FIRST axis of BOTH operands (a product with the left operand
  transposed: jnp's `dot_general(l, r, (((0,), (0,)), ((), ())))`), read at an output index at the ideal instance: the
  plain sum of products over the contracted axis,
      out (p, q) = ∑ k, l (k, p) · r (k, q)
  for a K×M left operand, a K×N right operand and an M×N result. Stated for every M, K, N, every pair of operand formats
  and ANY dimension record of these shapes whose fields are these dimension numbers (contracting [0] and [0], free [1] and
  [1], no batch axes): a printed record meets the six equations by `rfl`.
-/
import Idealize.ShloMosaic.PureOps.Ideal.Laws
import Idealize.ShloMosaic.Lib.ValueIdx

noncomputable section

open scoped BigOperators

namespace Idealize.ShloMosaic.MatmulLhsT

open Idealize.ShloMosaic Idealize.ShloMosaic.ValueIdx

variable {M K N : Nat}

/-- For dimension numbers that contract axis 0 of a K×M left operand with axis 0 of a K×N right operand, the operand
    indices at output index (p, q) and contraction position k are (k, p) and (k, q). -/
theorem trl_idx (d : DotDims ⟨2, ![K, M]⟩ ⟨2, ![K, N]⟩ ⟨2, ![M, N]⟩)
    (hlc : d.lhsContracting = [0]) (hrc : d.rhsContracting = [0]) (hln : d.lhsNonContracting = [1])
    (hrn : d.rhsNonContracting = [1]) (hlb : d.lhsBatch = []) (hrb : d.rhsBatch = [])
    (j : (⟨2, ![M, N]⟩ : Shape).Idx) (q : d.contr.Idx) :
    (d.lhsIdx j q 0).val = (q ⟨0, by rw [d.rank_contr, hlc]; exact Nat.one_pos⟩).val ∧ (d.lhsIdx j q 1).val = (j 0).val
      ∧ (d.rhsIdx j q 0).val = (q ⟨0, by rw [d.rank_contr, hlc]; exact Nat.one_pos⟩).val ∧ (d.rhsIdx j q 1).val = (j 1).val := by
  refine ⟨d.lhsIdx_val_of_single hlc j q, ?_, d.rhsIdx_val_of_single hrc j q, ?_⟩
  · obtain ⟨lc, rc, ln, rn, lb, rb, wf⟩ := d
    dsimp only at hlc hrc hln hrn hlb hrb
    subst hlc hrc hln hrn hlb hrb
    unfold DotDims.lhsIdx
    rw [dif_neg (by simp), dif_pos (by simp)]
    rfl
  · obtain ⟨lc, rc, ln, rn, lb, rb, wf⟩ := d
    dsimp only at hlc hrc hln hrn hlb hrb
    subst hlc hrc hln hrn hlb hrb
    unfold DotDims.rhsIdx
    rw [dif_neg (by simp), dif_pos (by simp)]
    rfl

/-- Into a zero accumulator, at the ideal values: `out (p, q) = ∑ k, l (k, p) · r (k, q)`. -/
theorem matmul_transposedLhs_apply {φ₁ φ₂ : FTy} (d : DotDims ⟨2, ![K, M]⟩ ⟨2, ![K, N]⟩ ⟨2, ![M, N]⟩)
    (hlc : d.lhsContracting = [0]) (hrc : d.rhsContracting = [0]) (hln : d.lhsNonContracting = [1])
    (hrn : d.rhsNonContracting = [1]) (hlb : d.lhsBatch = []) (hrb : d.rhsBatch = [])
    (prec : Option ContractPrecision)
    (l : FVec Ideal ⟨2, ![K, M]⟩ φ₁) (r : FVec Ideal ⟨2, ![K, N]⟩ φ₂) (p : Fin M) (q : Fin N) :
    FloatOps.matmul d prec l r (constant ⟨2, ![M, N]⟩ .f32 0x00000000#32) (ix2 p q)
      = ∑ k : Fin K, l (ix2 k p) * r (ix2 k q) := by
  have hr : d.contr.rank = 1 := by rw [d.rank_contr, hlc]; rfl
  have hs : d.contr.size ⟨0, by omega⟩ = K := by
    have := d.size_contr 0 (by rw [hlc]; exact Nat.one_pos)
    rw [this]; simp only [hlc]; rfl
  rw [Ideal.matmul_constant_zero_apply, ← Equiv.sum_comp (contrEquiv1 d K hr hs).symm]
  refine Finset.sum_congr rfl fun k _ => ?_
  have hk := contrEquiv1_symm_val d K hr hs k
  obtain ⟨l0, l1, r0, r1⟩ := trl_idx d hlc hrc hln hrn hlb hrb (ix2 p q) ((contrEquiv1 d K hr hs).symm k)
  have el : d.lhsIdx (ix2 p q) ((contrEquiv1 d K hr hs).symm k) = ix2 k p :=
    funext fun a => Fin.ext (by
      match a with
      | ⟨0, _⟩ => exact l0.trans hk
      | ⟨1, _⟩ => exact l1)
  have er : d.rhsIdx (ix2 p q) ((contrEquiv1 d K hr hs).symm k) = ix2 k q :=
    funext fun a => Fin.ext (by
      match a with
      | ⟨0, _⟩ => exact r0.trans hk
      | ⟨1, _⟩ => exact r1)
  rw [el, er]

end Idealize.ShloMosaic.MatmulLhsT

end
-- ==== Proof.Region1Pool.lean ====
/-
  The second kernel's second output array after its 25 grid points. Point `t` stores into slab `t` of the [25, 256, 256]
  array the block's `poolPart`: the product of the block's indicator matrix, transposed, with the block's second-layer
  rows. The 25 slabs tile the array.
-/
import proofs.«431417_j49967649521735_2_alg».proof.Proof.Gen.KernelIdeal.Frame
import proofs.«431417_j49967649521735_2_alg».proof.Proof.Spec
import proofs.«431417_j49967649521735_2_alg».proof.Proof.LibMatmulAt
import proofs.«431417_j49967649521735_2_alg».proof.Proof.LibRowOps
import proofs.«431417_j49967649521735_2_alg».proof.Proof.Region1Pay
import proofs.«431417_j49967649521735_2_alg».proof.Proof.LibMatmulLhsT
import Idealize.ShloMosaic.Lib.ValueIdx
import Idealize.ShloMosaic.Lib.ValueLayout
import Idealize.ShloMosaic.Lib.Pipeline.Value
import Idealize.ShloMosaic.PureOps.Ideal.Laws

set_option maxRecDepth 16384

noncomputable section

open scoped BigOperators

namespace Cert.Hand

open Idealize.ShloMosaic Idealize.ShloMosaic.TcCoe Idealize.SL.Sem Idealize.ShloMosaic.ValueIdx
open Cert.KernelIdeal Cert.KernelIdeal.Gen

variable (V : (c : Dev nD) → (b : Ref sig .tc) → Buf (Elt Ideal) ((c : Thread nD τ).loc b))

/-- The block's pooled product read at (u, g, d): the sum over the block's 2000 rows of the row's indicator for graph g
    times the row's second-layer entry d. -/
theorem k1_pay3_apply (x0 : Vec Ideal S2000x256 .f32) (x1 : Vec Ideal S2000x1 .f32) (x3 : Vec Ideal S256x256 .f32)
    (x4 : Vec Ideal S1x256 .f32) (x2 : Vec Ideal S2000x1 .i32) (u : Fin 1) (g d : Fin 256) :
    k1_pay3 x0 x1 x3 x4 x2 (ix3 u g d)
      = ∑ q : Fin 2000, oneHot (x2 (ix2 q 0)) g
          * ((∑ k : Fin 256, (x0 (ix2 q k) * x1 (ix2 q 0)) * x3 (ix2 k d)) + x4 (ix2 0 d)) := by
  unfold k1_pay3
  rw [shapeCast_ab_1ab_apply]
  have hm : ∀ (l : FVec Ideal S2000x256 .bf16) (r : FVec Ideal S2000x256 .bf16),
      matmul dot_S2000x256_S2000x256_S256x256_0_0_1_1_n_n none l r (constant S256x256 .f32 0x00000000#32) (ix2 g d)
        = ∑ q : Fin 2000, l (ix2 q g) * r (ix2 q d) :=
    fun l r => MatmulLhsT.matmul_transposedLhs_apply (M := 256) (K := 2000) (N := 256)
      dot_S2000x256_S2000x256_S256x256_0_0_1_1_n_n rfl rfl rfl rfl rfl rfl none l r g d
  rw [hm]
  refine Finset.sum_congr rfl fun q _ => ?_
  rw [truncf_apply, truncf_apply, k1_pay1_apply, sitofp_apply, extui_apply]
  have hc : ∀ (a b : IVec S2000x256 32) (i : S2000x256.Idx), cmpi .eq a b i = IntOp.cmpi .eq (a i) (b i) :=
    fun _ _ _ => rfl
  rw [hc, RowOps.broadcastTo_col_apply, shapeCast_self, iota_single_apply]
  rfl

theorem zeroOff2 : (![0, 0] : Fin 2 → Nat) = fun _ => 0 := funext fun a => by fin_cases a <;> rfl
theorem zeroOff3 : (![0, 0, 0] : Fin 3 → Nat) = fun _ => 0 := funext fun a => by fin_cases a <;> rfl

/-- The printed index maps over the 25 points: the three row-blocked inputs and the output slab move with the point,
    the weight matrix and the bias row stay. -/
theorem index_facts1 : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 2) = t.val ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_6.index t (0 : Fin 3) = t.val ∧ win1_6.index t (1 : Fin 3) = 0 ∧ win1_6.index t (2 : Fin 3) = 0 :=
  (by decide +kernel : ∀ t : Fin grid1.N, _)

/-- Row q of point t's block of the second-layer input is array row 2000·t + q. -/
theorem iblk1_0_apply (c : Dev nD) (t : Fin cfg1.N) (q : Fin 2000) (k : Fin 256) (r : Fin 50000)
    (hr : r.val = t.val * 2000 + q.val) :
    (iblk1 V c 0 t : Vec Ideal S2000x256 .f32) (ix2 q k) = (V c main_v41 : S50000x256.Idx → EReal) (ix2 r k) := by
  obtain ⟨e0, e1, -⟩ := index_facts1 t
  unfold iblk1
  rw [View.read_apply]
  show V c main_v41 _ = V c main_v41 _
  congr 1
  funext a
  apply Fin.ext
  match a with
  | ⟨0, _⟩ => show win1_0.index t (0 : Fin 2) * 2000 + 1 * q.val = r.val; rw [e0, hr]; omega
  | ⟨1, _⟩ => show win1_0.index t (1 : Fin 2) * 256 + 1 * k.val = k.val; rw [e1]; omega

/-- Row q of point t's block of the in-degree factors is array row 2000·t + q. -/
theorem iblk1_1_apply (c : Dev nD) (t : Fin cfg1.N) (q : Fin 2000) (z : Fin 1) (r : Fin 50000)
    (hr : r.val = t.val * 2000 + q.val) :
    (iblk1 V c 1 t : Vec Ideal S2000x1 .f32) (ix2 q z) = (V c main_v15 : S50000x1.Idx → EReal) (ix2 r z) := by
  obtain ⟨-, -, e0, e1, -⟩ := index_facts1 t
  unfold iblk1
  rw [View.read_apply]
  show V c main_v15 _ = V c main_v15 _
  congr 1
  funext a
  apply Fin.ext
  match a with
  | ⟨0, _⟩ => show win1_1.index t (0 : Fin 2) * 2000 + 1 * q.val = r.val; rw [e0, hr]; omega
  | ⟨1, _⟩ => show win1_1.index t (1 : Fin 2) * 1 + 1 * z.val = z.val; rw [e1]; omega

/-- Row q of point t's block of the graph words is array row 2000·t + q. -/
theorem iblk1_2_apply (c : Dev nD) (t : Fin cfg1.N) (q : Fin 2000) (z : Fin 1) (r : Fin 50000)
    (hr : r.val = t.val * 2000 + q.val) :
    (iblk1 V c 2 t : Vec Ideal S2000x1 .i32) (ix2 q z) = (V c main_v43 : S50000x1.Idx → BitVec 32) (ix2 r z) := by
  obtain ⟨-, -, -, -, e0, e1, -⟩ := index_facts1 t
  unfold iblk1
  rw [View.read_apply]
  show V c main_v43 _ = V c main_v43 _
  congr 1
  funext a
  apply Fin.ext
  match a with
  | ⟨0, _⟩ => show win1_2.index t (0 : Fin 2) * 2000 + 1 * q.val = r.val; rw [e0, hr]; omega
  | ⟨1, _⟩ => show win1_2.index t (1 : Fin 2) * 1 + 1 * z.val = z.val; rw [e1]; omega

/-- Every point's block of the weight matrix is the matrix. -/
theorem iblk1_3_apply (c : Dev nD) (t : Fin cfg1.N) (k d : Fin 256) :
    (iblk1 V c 3 t : Vec Ideal S256x256 .f32) (ix2 k d) = (V c main_arg3 : S256x256.Idx → EReal) (ix2 k d) := by
  obtain ⟨-, -, -, -, -, -, e0, e1, -⟩ := index_facts1 t
  unfold iblk1
  rw [View.read_apply]
  show V c main_arg3 _ = V c main_arg3 _
  congr 1
  funext a
  apply Fin.ext
  match a with
  | ⟨0, _⟩ => show win1_3.index t (0 : Fin 2) * 256 + 1 * k.val = k.val; rw [e0]; omega
  | ⟨1, _⟩ => show win1_3.index t (1 : Fin 2) * 256 + 1 * d.val = d.val; rw [e1]; omega

/-- Every point's block of the bias row is the row. -/
theorem iblk1_4_apply (c : Dev nD) (t : Fin cfg1.N) (z : Fin 1) (d : Fin 256) :
    (iblk1 V c 4 t : Vec Ideal S1x256 .f32) (ix2 z d) = (V c main_v42 : S1x256.Idx → EReal) (ix2 z d) := by
  obtain ⟨-, -, -, -, -, -, -, -, e0, e1, -⟩ := index_facts1 t
  unfold iblk1
  rw [View.read_apply]
  show V c main_v42 _ = V c main_v42 _
  congr 1
  funext a
  apply Fin.ext
  match a with
  | ⟨0, _⟩ => show win1_4.index t (0 : Fin 2) * 1 + 1 * z.val = z.val; rw [e0]; omega
  | ⟨1, _⟩ => show win1_4.index t (1 : Fin 2) * 256 + 1 * d.val = d.val; rw [e1]; omega

/-- With each block's entries read off its array (row q of block b is array row 2000·b + q; the weight matrix and the bias
    row whole), the block's sum is the block's share of the pooled feature. -/
theorem pool_of_blocks (A : S50000x256.Idx → EReal) (I : S50000x1.Idx → EReal) (W : S50000x1.Idx → BitVec 32)
    (M : S256x256.Idx → EReal) (B : S1x256.Idx → EReal)
    (x0 : Vec Ideal S2000x256 .f32) (x1 : Vec Ideal S2000x1 .f32) (x3 : Vec Ideal S256x256 .f32)
    (x4 : Vec Ideal S1x256 .f32) (x2 : Vec Ideal S2000x1 .i32) (b : Fin 25)
    (h0 : ∀ (q : Fin 2000) (k : Fin 256), x0 (ix2 q k) = A (ix2 (rowOf b q) k))
    (h1 : ∀ q : Fin 2000, x1 (ix2 q 0) = I (ix2 (rowOf b q) 0))
    (h2 : ∀ q : Fin 2000, x2 (ix2 q 0) = W (ix2 (rowOf b q) 0))
    (h3 : ∀ k d : Fin 256, x3 (ix2 k d) = M (ix2 k d))
    (h4 : ∀ d : Fin 256, x4 (ix2 0 d) = B (ix2 0 d)) (g d : Fin 256) :
    (∑ q : Fin 2000, oneHot (x2 (ix2 q 0)) g
        * ((∑ k : Fin 256, (x0 (ix2 q k) * x1 (ix2 q 0)) * x3 (ix2 k d)) + x4 (ix2 0 d)))
      = poolPart A I W M B b g d := by
  unfold poolPart affine
  refine Finset.sum_congr rfl fun q _ => ?_
  rw [h2 q, h1 q, h4 d]
  refine congrArg (fun s => _ * (s + _)) (Finset.sum_congr rfl fun k _ => ?_)
  rw [h0 q k, h3 k d]

/-- What point t writes back into the pooled array is slab t of the blocks' shares. -/
theorem flushed_pool (c : Dev nD) (t : Fin cfg1.N) :
    (dat1 (F := Ideal) V c).flushed 6 t = ((cfg1.win 6).blk t).view.read (Elt Ideal)
      (fun i => poolPart (V c main_v41) (V c main_v15) (V c main_v43) (V c main_arg3) (V c main_v42) (i 0) (i 1) (i 2)) := by
  show (cfg1.win 6).cut (grid1.coords t) ((dat1 (F := Ideal) V c).after 6 t) = _
  rw [after1_6]
  unfold out1_6
  rw [View.canon_unit_zero zeroOff3]
  simp only [View.ld_unit_zero (S := S2000x256) zeroOff2, View.ld_unit_zero (S := S2000x1) zeroOff2,
    View.ld_unit_zero (S := S256x256) zeroOff2, View.ld_unit_zero (S := S1x256) zeroOff2]
  funext j
  obtain ⟨u, g, d, rfl⟩ : ∃ (u : Fin 1) (g d : Fin 256), j = ix3 u g d := ⟨j 0, j 1, j 2, eq_ix3 j⟩
  obtain ⟨-, -, -, -, -, -, -, -, -, -, e0, e1, e2⟩ := index_facts1 t
  have h0 : ((((cfg1.win 6).blk t).view.emb (ix3 u g d)) 0 : Fin 25).val = t.val := by
    show win1_6.index t (0 : Fin 3) * 1 + 1 * u.val = t.val
    rw [e0]; omega
  have h1 : ((((cfg1.win 6).blk t).view.emb (ix3 u g d)) 1 : Fin 256) = g := Fin.ext (by
    show win1_6.index t (1 : Fin 3) * 256 + 1 * g.val = g.val
    rw [e1]; omega)
  have h2 : ((((cfg1.win 6).blk t).view.emb (ix3 u g d)) 2 : Fin 256) = d := Fin.ext (by
    show win1_6.index t (2 : Fin 3) * 256 + 1 * d.val = d.val
    rw [e2]; omega)
  show k1_pay3 (iblk1 V c 0 t) (iblk1 V c 1 t) (iblk1 V c 3 t) (iblk1 V c 4 t) (iblk1 V c 2 t) (ix3 u g d)
    = poolPart (V c main_v41) (V c main_v15) (V c main_v43) (V c main_arg3) (V c main_v42)
        ((((cfg1.win 6).blk t).view.emb (ix3 u g d)) 0) ((((cfg1.win 6).blk t).view.emb (ix3 u g d)) 1)
        ((((cfg1.win 6).blk t).view.emb (ix3 u g d)) 2)
  rw [h1, h2, k1_pay3_apply]
  have hr : ∀ q : Fin 2000,
      (rowOf ((((cfg1.win 6).blk t).view.emb (ix3 u g d)) 0) q).val = t.val * 2000 + q.val := fun q => by
    show ((((cfg1.win 6).blk t).view.emb (ix3 u g d)) 0 : Fin 25).val * 2000 + q.val = _
    rw [h0]
  exact pool_of_blocks (V c main_v41) (V c main_v15) (V c main_v43) (V c main_arg3) (V c main_v42)
    (iblk1 V c 0 t) (iblk1 V c 1 t) (iblk1 V c 3 t) (iblk1 V c 4 t) (iblk1 V c 2 t) _
    (fun q k => iblk1_0_apply V c t q k _ (hr q)) (fun q => iblk1_1_apply V c t q 0 _ (hr q))
    (fun q => iblk1_2_apply V c t q 0 _ (hr q)) (fun k d => iblk1_3_apply V c t k d)
    (fun d => iblk1_4_apply V c t 0 d) g d

/-- An index of the pooled array is in point t's slab iff each coordinate is in the slab's range on its axis. -/
theorem mem_slab (t : Fin cfg1.N) (i : S25x256x256.Idx) :
    i ∈ ((cfg1.win 6).blk t).view.set ↔ ∀ a : Fin 3, win1_6.index t a * S1x256x256.size a ≤ (i a).val
      ∧ (i a).val < win1_6.index t a * S1x256x256.size a + S1x256x256.size a := by
  show i ∈ ((View.whole main_v44_1).slice (win1_6.rect t)).set ↔ _
  rw [View.set_slice_whole, Rect.mem_set_unit]
  exact Iff.rfl

/-- The second kernel's second result array: entry (blk, g, d) is block blk's share of graph g's pooled feature d. -/
theorem region1_pool (c : Dev nD) :
    (dat1 (F := Ideal) V c).arrAt 6 cfg1.N
      = fun i => poolPart (V c main_v41) (V c main_v15) (V c main_v43) (V c main_arg3) (V c main_v42) (i 0) (i 1) (i 2) :=
  (dat1 (F := Ideal) V c).arrAt_eq_of_cover 6 _ (fun t _ => flushed_pool V c t) fun i => by
    have hi0 : (i 0).val < 25 := (i 0).isLt
    have hi1 : (i 1).val < 256 := (i 1).isLt
    have hi2 : (i 2).val < 256 := (i 2).isLt
    have hN : cfg1.N = 25 := N_1
    refine ⟨⟨(i 0).val, by rw [hN]; exact hi0⟩, flush1_6 _, ?_⟩
    rw [mem_slab]
    obtain ⟨-, -, -, -, -, -, -, -, -, -, e0, e1, e2⟩ := index_facts1 ⟨(i 0).val, by rw [hN]; exact hi0⟩
    intro a
    match a with
    | ⟨0, _⟩ =>
      show win1_6.index ⟨(i 0).val, _⟩ (0 : Fin 3) * 1 ≤ (i 0).val
        ∧ (i 0).val < win1_6.index ⟨(i 0).val, _⟩ (0 : Fin 3) * 1 + 1
      rw [e0]; show (i 0).val * 1 ≤ (i 0).val ∧ (i 0).val < (i 0).val * 1 + 1; omega
    | ⟨1, _⟩ =>
      show win1_6.index ⟨(i 0).val, _⟩ (1 : Fin 3) * 256 ≤ (i 1).val
        ∧ (i 1).val < win1_6.index ⟨(i 0).val, _⟩ (1 : Fin 3) * 256 + 256
      rw [e1]; omega
    | ⟨2, _⟩ =>
      show win1_6.index ⟨(i 0).val, _⟩ (2 : Fin 3) * 256 ≤ (i 2).val
        ∧ (i 2).val < win1_6.index ⟨(i 0).val, _⟩ (2 : Fin 3) * 256 + 256
      rw [e2]; omega

end Cert.Hand

end
-- ==== Proof.KValue.lean ====
/-
  What the kernel's program leaves in its result buffer: `kOut` of the eight argument arrays.

  The buffers are read back boundary by boundary. Before the first kernel the host operations leave the first
  aggregation, the two degree columns and the bias row; the first kernel's array is `layer1` of those; between the
  kernels the host operations leave the second aggregation, the second bias row and the graph words as a column; the
  second kernel's arrays are `rowNorm` and `poolPart` of those; the last host operations sum the slabs and scale.
  An argument, and an array a kernel only reads, is found again as it was.
-/
import proofs.«431417_j49967649521735_2_alg».proof.Proof.Gen.KernelIdeal.Frame
import proofs.«431417_j49967649521735_2_alg».proof.Proof.Terms
import proofs.«431417_j49967649521735_2_alg».proof.Proof.Region0
import proofs.«431417_j49967649521735_2_alg».proof.Proof.Region1Norm
import proofs.«431417_j49967649521735_2_alg».proof.Proof.Region1Pool
import Idealize.ShloMosaic.Lib.StableHlo.Run

set_option maxRecDepth 16384

noncomputable section

open scoped BigOperators

namespace Cert.Hand

open Idealize.ShloMosaic Idealize.ShloMosaic.TcCoe Idealize.SL.Sem Idealize.ShloMosaic.StableHlo Idealize.ShloMosaic.ValueIdx
open Cert.KernelIdeal Cert.KernelIdeal.Gen

variable (m : (ℓ : Loc nD τ sig) → Buf (Elt Ideal) ℓ) (ρ : Dev nD → PrngReg)

/-! ## Reading the buffers back at the first kernel's entry -/

theorem W1_v15 (c : Dev nD) : W1 (F := Ideal) m ρ c (Proc.devRef .tc main_v15) = kCol (kDeg (m ((c : Thread nD τ).loc main_arg6))) := by
  dsimp only [W1, hostOps0]
  after_results_simp
  rfl

theorem W1_v16 (c : Dev nD) : W1 (F := Ideal) m ρ c (Proc.devRef .tc main_v16) = kCol (kDeg (m ((c : Thread nD τ).loc main_arg5))) := by
  dsimp only [W1, hostOps0]
  after_results_simp
  rfl

theorem W1_v29 (c : Dev nD) : W1 (F := Ideal) m ρ c (Proc.devRef .tc main_v29) = kRow (m ((c : Thread nD τ).loc main_arg2)) := by
  dsimp only [W1, hostOps0]
  after_results_simp
  rfl

theorem W1_v28 (c : Dev nD) : W1 (F := Ideal) m ρ c (Proc.devRef .tc main_v28)
    = kAgg1 (m ((c : Thread nD τ).loc main_arg0)) (m ((c : Thread nD τ).loc main_arg5)) (m ((c : Thread nD τ).loc main_arg6)) := by
  dsimp only [W1, hostOps0]
  after_results_simp
  rfl

/-- The first stretch of host operations writes no argument. -/
theorem W1_arg1 (c : Dev nD) : W1 (F := Ideal) m ρ c (Proc.devRef .tc main_arg1) = m ((c : Thread nD τ).loc main_arg1) := by
  dsimp only [W1, hostOps0]; after_results_simp <;> rfl
theorem W1_arg3 (c : Dev nD) : W1 (F := Ideal) m ρ c (Proc.devRef .tc main_arg3) = m ((c : Thread nD τ).loc main_arg3) := by
  dsimp only [W1, hostOps0]; after_results_simp <;> rfl
theorem W1_arg4 (c : Dev nD) : W1 (F := Ideal) m ρ c (Proc.devRef .tc main_arg4) = m ((c : Thread nD τ).loc main_arg4) := by
  dsimp only [W1, hostOps0]; after_results_simp <;> rfl
theorem W1_arg5 (c : Dev nD) : W1 (F := Ideal) m ρ c (Proc.devRef .tc main_arg5) = m ((c : Thread nD τ).loc main_arg5) := by
  dsimp only [W1, hostOps0]; after_results_simp <;> rfl
theorem W1_arg6 (c : Dev nD) : W1 (F := Ideal) m ρ c (Proc.devRef .tc main_arg6) = m ((c : Thread nD τ).loc main_arg6) := by
  dsimp only [W1, hostOps0]; after_results_simp <;> rfl
theorem W1_arg7 (c : Dev nD) : W1 (F := Ideal) m ρ c (Proc.devRef .tc main_arg7) = m ((c : Thread nD τ).loc main_arg7) := by
  dsimp only [W1, hostOps0]; after_results_simp <;> rfl

/-! ## After the first kernel -/

/-- The first kernel's array is `kH1` of the arguments. -/
theorem W2_v30 (c : Dev nD) : W2 (F := Ideal) m ρ c (Proc.devRef .tc main_v30)
    = kH1 (m ((c : Thread nD τ).loc main_arg0)) (m ((c : Thread nD τ).loc main_arg1)) (m ((c : Thread nD τ).loc main_arg2))
        (m ((c : Thread nD τ).loc main_arg5)) (m ((c : Thread nD τ).loc main_arg6)) := by
  have e : W2 (F := Ideal) m ρ c (Proc.devRef .tc main_v30) = (dat0 (V1 m ρ) c).arrAt 5 cfg0.N := W2_arr m ρ c 5
  rewrite [e, region0_value (V1 m ρ) c]
  dsimp only [V1]
  rewrite [W1_v28, W1_v15, W1_v16, W1_v29, W1_arg1]
  rfl

/-- The first kernel leaves what it does not write as it found it. -/
theorem W2_v15 (c : Dev nD) : W2 (F := Ideal) m ρ c (Proc.devRef .tc main_v15) = kCol (kDeg (m ((c : Thread nD τ).loc main_arg6))) :=
  (W2_arr m ρ c 1).trans (((dat0 (V1 m ρ) c).arrAt_in 1 rfl _).trans ((A_eq0 (V1 m ρ) c 1).trans (W1_v15 m ρ c)))
theorem W2_arg3 (c : Dev nD) : W2 (F := Ideal) m ρ c (Proc.devRef .tc main_arg3) = m ((c : Thread nD τ).loc main_arg3) :=
  (W2_of_ne m ρ c main_arg3 (by decide)).trans (W1_arg3 m ρ c)
theorem W2_arg4 (c : Dev nD) : W2 (F := Ideal) m ρ c (Proc.devRef .tc main_arg4) = m ((c : Thread nD τ).loc main_arg4) :=
  (W2_of_ne m ρ c main_arg4 (by decide)).trans (W1_arg4 m ρ c)
theorem W2_arg5 (c : Dev nD) : W2 (F := Ideal) m ρ c (Proc.devRef .tc main_arg5) = m ((c : Thread nD τ).loc main_arg5) :=
  (W2_of_ne m ρ c main_arg5 (by decide)).trans (W1_arg5 m ρ c)
theorem W2_arg6 (c : Dev nD) : W2 (F := Ideal) m ρ c (Proc.devRef .tc main_arg6) = m ((c : Thread nD τ).loc main_arg6) :=
  (W2_of_ne m ρ c main_arg6 (by decide)).trans (W1_arg6 m ρ c)
theorem W2_arg7 (c : Dev nD) : W2 (F := Ideal) m ρ c (Proc.devRef .tc main_arg7) = m ((c : Thread nD τ).loc main_arg7) :=
  (W2_of_ne m ρ c main_arg7 (by decide)).trans (W1_arg7 m ρ c)

/-! ## At the second kernel's entry -/

set_option maxHeartbeats 4000000 in
theorem W3_v41 (c : Dev nD) : W3 (F := Ideal) m ρ c (Proc.devRef .tc main_v41)
    = kAgg2 (kH1 (m ((c : Thread nD τ).loc main_arg0)) (m ((c : Thread nD τ).loc main_arg1)) (m ((c : Thread nD τ).loc main_arg2)) (m ((c : Thread nD τ).loc main_arg5)) (m ((c : Thread nD τ).loc main_arg6))) (m ((c : Thread nD τ).loc main_arg5)) (m ((c : Thread nD τ).loc main_arg6)) := by
  suffices h : ∀ Q : Buf (Elt Ideal) ((c : Thread nD τ).loc main_v41) → Prop,
      Q (kAgg2 (kH1 (m ((c : Thread nD τ).loc main_arg0)) (m ((c : Thread nD τ).loc main_arg1)) (m ((c : Thread nD τ).loc main_arg2)) (m ((c : Thread nD τ).loc main_arg5)) (m ((c : Thread nD τ).loc main_arg6))) (m ((c : Thread nD τ).loc main_arg5)) (m ((c : Thread nD τ).loc main_arg6)))
        → Q (W3 (F := Ideal) m ρ c (Proc.devRef .tc main_v41)) from h (· = _) rfl
  intro Q hQ
  dsimp only [W3, hostOps1]
  after_results
  rewrite [W2_v30, W2_arg5, W2_arg6]
  exact hQ

theorem W3_v42 (c : Dev nD) : W3 (F := Ideal) m ρ c (Proc.devRef .tc main_v42) = kRow (m ((c : Thread nD τ).loc main_arg4)) := by
  suffices h : ∀ Q : Buf (Elt Ideal) ((c : Thread nD τ).loc main_v42) → Prop,
      Q (kRow (m ((c : Thread nD τ).loc main_arg4))) → Q (W3 (F := Ideal) m ρ c (Proc.devRef .tc main_v42)) from h (· = _) rfl
  intro Q hQ
  dsimp only [W3, hostOps1]
  after_results
  rewrite [W2_arg4]
  exact hQ

theorem W3_v43 (c : Dev nD) : W3 (F := Ideal) m ρ c (Proc.devRef .tc main_v43) = kColI (m ((c : Thread nD τ).loc main_arg7)) := by
  suffices h : ∀ Q : Buf (Elt Ideal) ((c : Thread nD τ).loc main_v43) → Prop,
      Q (kColI (m ((c : Thread nD τ).loc main_arg7))) → Q (W3 (F := Ideal) m ρ c (Proc.devRef .tc main_v43)) from h (· = _) rfl
  intro Q hQ
  dsimp only [W3, hostOps1]
  after_results
  rewrite [W2_arg7]
  exact hQ

theorem W3_v15 (c : Dev nD) : W3 (F := Ideal) m ρ c (Proc.devRef .tc main_v15) = kCol (kDeg (m ((c : Thread nD τ).loc main_arg6))) := by
  suffices h : ∀ Q : Buf (Elt Ideal) ((c : Thread nD τ).loc main_v15) → Prop,
      Q (kCol (kDeg (m ((c : Thread nD τ).loc main_arg6)))) → Q (W3 (F := Ideal) m ρ c (Proc.devRef .tc main_v15)) from h (· = _) rfl
  intro Q hQ
  dsimp only [W3, hostOps1]
  after_results
  rewrite [W2_v15]
  exact hQ

theorem W3_arg3 (c : Dev nD) : W3 (F := Ideal) m ρ c (Proc.devRef .tc main_arg3) = (m ((c : Thread nD τ).loc main_arg3)) := by
  suffices h : ∀ Q : Buf (Elt Ideal) ((c : Thread nD τ).loc main_arg3) → Prop,
      Q (m ((c : Thread nD τ).loc main_arg3)) → Q (W3 (F := Ideal) m ρ c (Proc.devRef .tc main_arg3)) from h (· = _) rfl
  intro Q hQ
  dsimp only [W3, hostOps1]
  after_results
  rewrite [W2_arg3]
  exact hQ

/-! ## The result -/

set_option maxHeartbeats 4000000 in
/-- The kernel's program leaves `kOut` of the arguments in its result buffer. -/
theorem kernel_value (c : Dev nD) : W5 (F := Ideal) m ρ c (Proc.devRef .tc main_v50)
    = kOut (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) := by
  suffices h : ∀ Q : Buf (Elt Ideal) ((c : Thread nD τ).loc main_v50) → Prop,
      Q (kOut (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)))
        → Q (W5 (F := Ideal) m ρ c (Proc.devRef .tc main_v50)) from h (· = _) rfl
  intro Q hQ
  dsimp only [W5, hostOps2]
  after_results
  have e5 : W4 (F := Ideal) m ρ c (Proc.devRef .tc main_v44_0) = (dat1 (V3 m ρ) c).arrAt 5 cfg1.N := W4_arr m ρ c 5
  have e6 : W4 (F := Ideal) m ρ c (Proc.devRef .tc main_v44_1) = (dat1 (V3 m ρ) c).arrAt 6 cfg1.N := W4_arr m ρ c 6
  rewrite [e5, e6, region1_norm (V3 m ρ) c, region1_pool (V3 m ρ) c]
  dsimp only [V3]
  rewrite [W3_v41, W3_v42, W3_v43, W3_v15, W3_arg3]
  exact hQ

end Cert.Hand

end
-- ==== Proof.RTerm.lean ====
/-
  The reference program's result, as a term of the eight argument arrays, cut into named pieces.

  The reference computes the same degree factors and edge indices as the kernel's host side (`kDeg`, `kWrap`), aggregates
  with a column it makes by spreading a vector along axis 0 (`rCol`), applies each dense layer on the host (`rH1`: the
  first layer clipped at zero and scaled; `rH2`: the second layer), and at the end scales every entry of the second
  layer by √256 / (mean row length) and adds the nodes' rows up by graph word (`rOut`).
-/
import proofs.«431417_j49967649521735_2_alg».proof.ReferenceIdeal
import proofs.«431417_j49967649521735_2_alg».proof.Proof.Gen.ReferenceIdeal
import proofs.«431417_j49967649521735_2_alg».proof.Proof.Gen.ReferenceIdeal.Run
import proofs.«431417_j49967649521735_2_alg».proof.Proof.Terms

set_option maxRecDepth 16384

noncomputable section

open scoped BigOperators

namespace Cert.Hand

open Idealize.ShloMosaic Idealize.ShloMosaic.TcCoe Idealize.SL.Sem Idealize.ShloMosaic.ValueIdx
open Cert.ReferenceIdeal Cert.ReferenceIdeal.Gen

/-- A vector of 50000 entries as a column, the reference's way: spread along axis 0. -/
def rCol (v : FVec Ideal S50000 .f32) : FVec Ideal S50000x1 .f32 :=
  broadcastInDim S50000x1 ![0] bcast_S50000_S50000x1_0 v

/-- First aggregation, with the reference's column. -/
def rAgg1 (x : FVec Ideal S50000x128 .f32) (src dst : IVec S800000 32) : FVec Ideal S50000x128 .f32 :=
  Host.scatterAdd scatter_S50000x128_S800000x1_S800000x128_1_0_0_1
    (broadcastInDim S50000x128 ![] bcast_S_S50000x128 (constant S_ .f32 0x00000000#32))
    (broadcastInDim S800000x1 ![0] bcast_S800000_S800000x1_0 dst)
    (Host.gather gather_S50000x128_S800000x1_S800000x128_1_0_n_n_0_1_1128
      (mulf x (broadcastInDim S50000x128 ![0, 1] bcast_S50000x1_S50000x128_0_1 (rCol (kDeg src))))
      (kWrap src))

/-- The first layer on the host: rows scaled by the in-degree column, times the weights, plus the bias; clipped below
    at zero; scaled by the out-degree column. -/
def rH1 (x : FVec Ideal S50000x128 .f32) (w1 : FVec Ideal S128x256 .f32) (b1 : FVec Ideal S256 .f32)
    (src dst : IVec S800000 32) : FVec Ideal S50000x256 .f32 :=
  mulf
    (maximumf
      (addf
        (Host.dotGeneral dot_S50000x128_S128x256_S50000x256_1_0_0_1_n_n none
          (mulf (rAgg1 x src dst) (broadcastInDim S50000x128 ![0, 1] bcast_S50000x1_S50000x128_0_1 (rCol (kDeg dst)))) w1)
        (broadcastInDim S50000x256 ![0, 1] bcast_S1x256_S50000x256_0_1 (broadcastInDim S1x256 ![1] bcast_S256_S1x256_1 b1)))
      (broadcastInDim S50000x256 ![] bcast_S_S50000x256 (constant S_ .f32 0x00000000#32)))
    (broadcastInDim S50000x256 ![0, 1] bcast_S50000x1_S50000x256_0_1 (rCol (kDeg src)))

/-- Second aggregation on the host. -/
def rAgg2 (h : FVec Ideal S50000x256 .f32) (src dst : IVec S800000 32) : FVec Ideal S50000x256 .f32 :=
  Host.scatterAdd scatter_S50000x256_S800000x1_S800000x256_1_0_0_1
    (broadcastInDim S50000x256 ![] bcast_S_S50000x256 (constant S_ .f32 0x00000000#32))
    (broadcastInDim S800000x1 ![0] bcast_S800000_S800000x1_0 dst)
    (Host.gather gather_S50000x256_S800000x1_S800000x256_1_0_n_n_0_1_1256 h (kWrap src))

/-- The second layer on the host. -/
def rH2 (a2 : FVec Ideal S50000x256 .f32) (w2 : FVec Ideal S256x256 .f32) (b2 : FVec Ideal S256 .f32)
    (dst : IVec S800000 32) : FVec Ideal S50000x256 .f32 :=
  addf
    (Host.dotGeneral dot_S50000x256_S256x256_S50000x256_1_0_0_1_n_n none
      (mulf a2 (broadcastInDim S50000x256 ![0, 1] bcast_S50000x1_S50000x256_0_1 (rCol (kDeg dst)))) w2)
    (broadcastInDim S50000x256 ![0, 1] bcast_S1x256_S50000x256_0_1 (broadcastInDim S1x256 ![1] bcast_S256_S1x256_1 b2))

/-- The end of the reference: every entry times √256 / (mean row length), the rows added up by graph word. -/
def rOut (h2 : FVec Ideal S50000x256 .f32) (ng : IVec S50000 32) : FVec Ideal S256x256 .f32 :=
  Host.scatterAdd scatter_S256x256_S50000x1_S50000x256_1_0_0_1
    (broadcastInDim S256x256 ![] bcast_S_S256x256 (constant S_ .f32 0x00000000#32))
    (broadcastInDim S50000x1 ![0] bcast_S50000_S50000x1_0 ng)
    (mulf h2
      (broadcastInDim S50000x256 ![] bcast_S_S50000x256
        (Host.divf (Host.sqrt (constant S_ .f32 0x43800000#32))
          (Host.divf
            (Host.reduceAdd
              (Host.sqrt (Host.reduceAdd (mulf h2 h2) (constant S_ .f32 0x00000000#32) reducesTo_S50000x256_S50000_d1 h_S_))
              (constant S_ .f32 0x00000000#32) reducesTo_S50000_S_d0 h_S_)
            (constant S_ .f32 0x47435000#32)))))

set_option maxHeartbeats 4000000 in
/-- The reference's composed result term is `rOut` of `rH2` of `rAgg2` of `rH1` of the arguments. -/
theorem ref_value (m : (ℓ : Loc nD τ sig) → Buf (Elt Ideal) ℓ) (c : Dev nD) :
    Cert.ReferenceIdeal.Value.res_main_v65 (F := Ideal) m c
      = rOut
          (rH2
            (rAgg2
              (rH1 (m ((c.tc : Thread nD τ).loc main_arg0)) (m ((c.tc : Thread nD τ).loc main_arg1)) (m ((c.tc : Thread nD τ).loc main_arg2))
                (m ((c.tc : Thread nD τ).loc main_arg5)) (m ((c.tc : Thread nD τ).loc main_arg6)))
              (m ((c.tc : Thread nD τ).loc main_arg5)) (m ((c.tc : Thread nD τ).loc main_arg6)))
            (m ((c.tc : Thread nD τ).loc main_arg3)) (m ((c.tc : Thread nD τ).loc main_arg4)) (m ((c.tc : Thread nD τ).loc main_arg6)))
          (m ((c.tc : Thread nD τ).loc main_arg7)) := by
  unfold Cert.ReferenceIdeal.Value.res_main_v65
  rfl

end Cert.Hand

end
-- ==== Proof.LibDotAt.lean ====
/-
  The host's `dot_general` of an [M, K] array with a [K, N] array, read at an output index at the ideal instance: the
  plain sum of products over the contracted axis,
      out (p, q) = ∑ k, l (p, k) · r (k, q),
  and, when the right operand is the transpose of an [N, K] array W (jnp's `x @ W.T`),
      out (p, q) = ∑ k, l (p, k) · W (q, k):
  the same sum a kernel's matmul contracting the last axes of both operands computes.
-/
import proofs.«431417_j49967649521735_2_alg».proof.Proof.LibMatmulAt
import Idealize.ShloMosaic.Lib.ValueLayout

noncomputable section

open scoped BigOperators

namespace Idealize.ShloMosaic.DotAt

open Idealize.ShloMosaic Idealize.ShloMosaic.ValueIdx Idealize.ShloMosaic.MatmulAt

variable {M K N : Nat}

/-- `out (p, q) = ∑ k, l (p, k) · r (k, q)`, whatever the precision and the schedule key. -/
theorem dotGeneral_plain_apply {φ₁ φ₂ : FTy} (prec : Option ContractPrecision) (sched : HostSchedule)
    (l : FVec Ideal ⟨2, ![M, K]⟩ φ₁) (r : FVec Ideal ⟨2, ![K, N]⟩ φ₂) (p : Fin M) (q : Fin N) :
    FloatOps.dotGeneral (DotDims.plain M K N) prec sched l r (ix2 p q) = ∑ k : Fin K, l (ix2 p k) * r (ix2 k q) := by
  rw [Ideal.dotGeneral_apply, ← Equiv.sum_comp (contrEquiv1 (DotDims.plain M K N) K rfl rfl).symm]
  refine Finset.sum_congr rfl fun k _ => ?_
  have hk := contrEquiv1_symm_val (DotDims.plain M K N) K rfl rfl k
  have el : (DotDims.plain M K N).lhsIdx (ix2 p q) ((contrEquiv1 (DotDims.plain M K N) K rfl rfl).symm k) = ix2 p k :=
    funext fun a => Fin.ext (by
      match a with
      | ⟨0, _⟩ => exact pl_lhs_0 _ _
      | ⟨1, _⟩ => exact (pl_lhs_1 _ _).trans hk)
  have er : (DotDims.plain M K N).rhsIdx (ix2 p q) ((contrEquiv1 (DotDims.plain M K N) K rfl rfl).symm k) = ix2 k q :=
    funext fun a => Fin.ext (by
      match a with
      | ⟨0, _⟩ => exact (pl_rhs_0 _ _).trans hk
      | ⟨1, _⟩ => exact pl_rhs_1 _ _)
  rw [el, er]

/-- Against a transposed [N, K] array: `out (p, q) = ∑ k, l (p, k) · W (q, k)`. -/
theorem dotGeneral_transpose_apply {φ₁ φ₂ : FTy} (prec : Option ContractPrecision) (sched : HostSchedule)
    (l : FVec Ideal ⟨2, ![M, K]⟩ φ₁) (W : FVec Ideal ⟨2, ![N, K]⟩ φ₂)
    (h : (⟨2, ![N, K]⟩ : Shape).Transposes [1, 0] ⟨2, ![K, N]⟩) (p : Fin M) (q : Fin N) :
    FloatOps.dotGeneral (DotDims.plain M K N) prec sched l (transpose ⟨2, ![K, N]⟩ [1, 0] W h) (ix2 p q)
      = ∑ k : Fin K, l (ix2 p k) * W (ix2 q k) := by
  rw [dotGeneral_plain_apply]
  exact Finset.sum_congr rfl fun k _ => by rw [transpose_ix2_apply]

end Idealize.ShloMosaic.DotAt

end
-- ==== Proof.HostReads.lean ====
/-
  The reference's host operations read at an index, in the shapes this certificate meets them.

  A dense layer on the host — the aggregated rows times a column of per-row factors spread over the features, a matrix
  product, a bias vector spread over the rows — is `affine` at every entry, with the factor vector seen as a column and
  the bias vector as a row; clipped at zero and scaled by a second per-row factor it is `layer1`. A row's length is the
  square root of the row sum of squares. The three sums (a vector's total, a column's total, the sum of the slabs of a
  rank-3 array) are the initial value plus the plain sum over the coordinate range.
-/
import proofs.«431417_j49967649521735_2_alg».proof.Proof.Spec
import proofs.«431417_j49967649521735_2_alg».proof.Proof.LibMatmulAt
import proofs.«431417_j49967649521735_2_alg».proof.Proof.LibDotAt
import proofs.«431417_j49967649521735_2_alg».proof.Proof.LibRowOps
import Idealize.ShloMosaic.Lib.ValueIdx
import Idealize.ShloMosaic.Lib.ValueLayout
import Idealize.ShloMosaic.Lib.IdealHost
import Idealize.ShloMosaic.Lib.Pipeline.Value
import Idealize.ShloMosaic.PureOps.Ideal.Laws

noncomputable section

open scoped BigOperators

namespace Cert.Hand

open Idealize.ShloMosaic Idealize.ShloMosaic.ValueIdx

/-- A host dense layer at (r, d): `affine` of the rows, the factor vector as a column, the weights, the bias vector as a row. -/
theorem host_affine_apply {K : Nat} (dot : DotDims ⟨2, ![50000, K]⟩ ⟨2, ![K, 256]⟩ ⟨2, ![50000, 256]⟩)
    (hdot : dot = DotDims.plain 50000 K 256)
    (a : FVec Ideal ⟨2, ![50000, K]⟩ .f32) (inv : FVec Ideal ⟨1, ![50000]⟩ .f32) (w : FVec Ideal ⟨2, ![K, 256]⟩ .f32)
    (b : FVec Ideal ⟨1, ![256]⟩ .f32)
    (h1 : (⟨1, ![50000]⟩ : Shape).BroadcastsInDim ⟨2, ![50000, 1]⟩ ![0])
    (h2 : (⟨2, ![50000, 1]⟩ : Shape).BroadcastsInDim ⟨2, ![50000, K]⟩ ![0, 1])
    (h3 : (⟨1, ![256]⟩ : Shape).BroadcastsInDim ⟨2, ![1, 256]⟩ ![1])
    (h4 : (⟨2, ![1, 256]⟩ : Shape).BroadcastsInDim ⟨2, ![50000, 256]⟩ ![0, 1])
    (hc : (⟨1, ![50000]⟩ : Shape).ShapeCasts ⟨2, ![50000, 1]⟩) (hr : (⟨1, ![256]⟩ : Shape).ShapeCasts ⟨2, ![1, 256]⟩)
    (r : Fin 50000) (d : Fin 256) :
    addf (Host.dotGeneral dot none
          (mulf a (broadcastInDim ⟨2, ![50000, K]⟩ ![0, 1] h2 (broadcastInDim ⟨2, ![50000, 1]⟩ ![0] h1 inv))) w)
        (broadcastInDim ⟨2, ![50000, 256]⟩ ![0, 1] h4 (broadcastInDim ⟨2, ![1, 256]⟩ ![1] h3 b)) (ix2 r d)
      = affine a (fun i => shapeCast ⟨2, ![50000, 1]⟩ inv hc i) w (fun i => shapeCast ⟨2, ![1, 256]⟩ b hr i) r d := by
  subst hdot
  unfold affine
  rw [addf_apply, RowOps.bcastInDim_rows_apply, RowOps.bcastInDim_row_apply]
  show FloatOps.dotGeneral (DotDims.plain 50000 K 256) none .single _ w (ix2 r d) + b (ix1 d)
    = (∑ k : Fin K, (a (ix2 r k) * shapeCast ⟨2, ![50000, 1]⟩ inv hc (ix2 r 0)) * w (ix2 k d))
      + shapeCast ⟨2, ![1, 256]⟩ b hr (ix2 0 d)
  rw [DotAt.dotGeneral_plain_apply, RowOps.shapeCast_col_apply, shapeCast_a_1a_apply]
  refine congrArg (· + b (ix1 d)) (Finset.sum_congr rfl fun k _ => ?_)
  rw [mulf_apply, RowOps.bcastInDim_cols_apply, RowOps.bcastInDim_col_apply]

/-- The same layer clipped below at zero and scaled by a second per-row factor: `layer1`. -/
theorem host_layer1_apply {K : Nat} (dot : DotDims ⟨2, ![50000, K]⟩ ⟨2, ![K, 256]⟩ ⟨2, ![50000, 256]⟩)
    (hdot : dot = DotDims.plain 50000 K 256)
    (a : FVec Ideal ⟨2, ![50000, K]⟩ .f32) (inv outv : FVec Ideal ⟨1, ![50000]⟩ .f32) (w : FVec Ideal ⟨2, ![K, 256]⟩ .f32)
    (b : FVec Ideal ⟨1, ![256]⟩ .f32)
    (h1 : (⟨1, ![50000]⟩ : Shape).BroadcastsInDim ⟨2, ![50000, 1]⟩ ![0])
    (h2 : (⟨2, ![50000, 1]⟩ : Shape).BroadcastsInDim ⟨2, ![50000, K]⟩ ![0, 1])
    (h3 : (⟨1, ![256]⟩ : Shape).BroadcastsInDim ⟨2, ![1, 256]⟩ ![1])
    (h4 : (⟨2, ![1, 256]⟩ : Shape).BroadcastsInDim ⟨2, ![50000, 256]⟩ ![0, 1])
    (h5 : (⟨1, ![50000]⟩ : Shape).BroadcastsInDim ⟨2, ![50000, 1]⟩ ![0])
    (h6 : (⟨2, ![50000, 1]⟩ : Shape).BroadcastsInDim ⟨2, ![50000, 256]⟩ ![0, 1])
    (hs : (⟨0, ![]⟩ : Shape).BroadcastsInDim ⟨2, ![50000, 256]⟩ ![])
    (hc : (⟨1, ![50000]⟩ : Shape).ShapeCasts ⟨2, ![50000, 1]⟩) (hr : (⟨1, ![256]⟩ : Shape).ShapeCasts ⟨2, ![1, 256]⟩)
    (r : Fin 50000) (d : Fin 256) :
    mulf
        (maximumf
          (addf (Host.dotGeneral dot none
              (mulf a (broadcastInDim ⟨2, ![50000, K]⟩ ![0, 1] h2 (broadcastInDim ⟨2, ![50000, 1]⟩ ![0] h1 inv))) w)
            (broadcastInDim ⟨2, ![50000, 256]⟩ ![0, 1] h4 (broadcastInDim ⟨2, ![1, 256]⟩ ![1] h3 b)))
          (broadcastInDim ⟨2, ![50000, 256]⟩ ![] hs (constant (F := Ideal) ⟨0, ![]⟩ .f32 0x00000000#32)))
        (broadcastInDim ⟨2, ![50000, 256]⟩ ![0, 1] h6 (broadcastInDim ⟨2, ![50000, 1]⟩ ![0] h5 outv)) (ix2 r d)
      = layer1 a (fun i => shapeCast ⟨2, ![50000, 1]⟩ inv hc i) (fun i => shapeCast ⟨2, ![50000, 1]⟩ outv hc i) w
          (fun i => shapeCast ⟨2, ![1, 256]⟩ b hr i) r d := by
  unfold layer1
  rw [mulf_apply, maximumf_apply, host_affine_apply dot hdot a inv w b h1 h2 h3 h4 hc hr r d,
    RowOps.bcastInDim_scalar_apply, constant_apply, Ideal.ofBits_zero_f32,
    RowOps.bcastInDim_cols_apply, RowOps.bcastInDim_col_apply]
  show _ = max _ 0 * shapeCast ⟨2, ![50000, 1]⟩ outv hc (ix2 r 0)
  rw [RowOps.shapeCast_col_apply]

/-- A row's length on the host: the square root of the initial value plus the row's sum of squares. -/
theorem host_rownorm_apply (Hm : FVec Ideal ⟨2, ![50000, 256]⟩ .f32)
    (h' : (⟨2, ![50000, 256]⟩ : Shape).ReducesTo [1] ⟨1, ![50000]⟩) (hu : 0 < (⟨0, ![]⟩ : Shape).numel) (r : Fin 50000) :
    Host.sqrt (Host.reduceAdd (mulf Hm Hm) (constant (F := Ideal) ⟨0, ![]⟩ .f32 0x00000000#32) h' hu) (ix1 r)
      = Ideal.sqrt (Ideal.ofBits .f32 0x00000000#32 + ∑ d : Fin 256, Hm (ix2 r d) * Hm (ix2 r d)) := by
  have h : (⟨2, ![50000, 256]⟩ : Shape).Reduces [1] ⟨1, ![50000]⟩ := ⟨h'.1, Nat.one_pos, h'.2⟩
  show FloatOps.hostUnary .sqrt
      (Host.reduceAdd (mulf Hm Hm) (constant (F := Ideal) ⟨0, ![]⟩ .f32 0x00000000#32) h' hu (ix1 r)) = _
  rw [Ideal.hostUnary_sqrt_def, RowOps.hostReduceAdd_row_apply _ _ h' hu h r, constant_apply]
  rfl

/-- A vector's total on the host. -/
theorem host_total_apply (v : FVec Ideal ⟨1, ![50000]⟩ .f32)
    (h' : (⟨1, ![50000]⟩ : Shape).ReducesTo [0] ⟨0, ![]⟩) (hu : 0 < (⟨0, ![]⟩ : Shape).numel) :
    Host.reduceAdd v (constant (F := Ideal) ⟨0, ![]⟩ .f32 0x00000000#32) h' hu ix0
      = Ideal.ofBits .f32 0x00000000#32 + ∑ r : Fin 50000, v (ix1 r) := by
  rw [hostReduceAdd_apply, Ideal.hostReduceAdd_total h' (fun b => b.elim0), constant_apply]
  refine congrArg (Ideal.ofBits .f32 0x00000000#32 + ·) ?_
  refine Fintype.sum_equiv ⟨fun i => i 0, ix1, fun i => (eq_ix1 i).symm, fun _ => rfl⟩ _ _ fun i => ?_
  exact congrArg v (eq_ix1 i)

/-- A column's total on the host (both axes reduced). -/
theorem host_coltotal_apply (v : FVec Ideal ⟨2, ![50000, 1]⟩ .f32)
    (h' : (⟨2, ![50000, 1]⟩ : Shape).ReducesTo [0, 1] ⟨0, ![]⟩) (hu : 0 < (⟨0, ![]⟩ : Shape).numel) :
    Host.reduceAdd v (constant (F := Ideal) ⟨0, ![]⟩ .f32 0x00000000#32) h' hu ix0
      = Ideal.ofBits .f32 0x00000000#32 + ∑ r : Fin 50000, v (ix2 r 0) := by
  rw [hostReduceAdd_apply, Ideal.hostReduceAdd_total h' (fun b => b.elim0), constant_apply, sum_idx2]
  refine congrArg (Ideal.ofBits .f32 0x00000000#32 + ·) (Finset.sum_congr rfl fun r _ => ?_)
  exact Fin.sum_univ_one _

/-- The sum of the 25 slabs of a [25, 256, 256] array on the host, at (g, d). -/
theorem host_slabsum_apply (v : FVec Ideal ⟨3, ![25, 256, 256]⟩ .f32)
    (h' : (⟨3, ![25, 256, 256]⟩ : Shape).ReducesTo [0] ⟨2, ![256, 256]⟩) (hu : 0 < (⟨0, ![]⟩ : Shape).numel)
    (g d : Fin 256) :
    Host.reduceAdd v (constant (F := Ideal) ⟨0, ![]⟩ .f32 0x00000000#32) h' hu (ix2 g d)
      = Ideal.ofBits .f32 0x00000000#32 + ∑ k : Fin 25, v (ix3 k g d) := by
  have h : (⟨3, ![25, 256, 256]⟩ : Shape).Reduces [0] ⟨2, ![256, 256]⟩ := ⟨h'.1, Nat.two_pos, h'.2⟩
  rw [hostReduceAdd_apply, Ideal.hostReduceAdd_single h' h, constant_apply]
  refine congrArg (Ideal.ofBits .f32 0x00000000#32 + ·) (Finset.sum_congr rfl fun k _ => congrArg v ?_)
  funext c
  apply Fin.ext
  match c with
  | ⟨0, _⟩ => rfl
  | ⟨1, _⟩ => rfl
  | ⟨2, _⟩ => rfl

end Cert.Hand

end
-- ==== Proof.PoolMath.lean ====
/-
  Pooling, then scaling, against scaling, then pooling.

  `H r d` is the second layer's entry for node `r` and feature `d`, `word r` the node's graph word, both arbitrary
  (an entry may be any extended real). One side sums, block by block of 2000 nodes, indicator × entry, and multiplies
  the total by the factor 16 / (mean row length); the other multiplies every entry by √256 / (mean row length) and
  adds up, for graph `g`, the nodes whose word read as a signed integer is `g`. They agree:
  * the 25 blocks of 2000 nodes are all 50000 nodes, each once;
  * the indicator is 1 where the word is `g` and 0 elsewhere, and for `g < 256` "the word is `g`" is "the word read
    signed is `g`";
  * √256 = 16;
  * a factor moves across a finite sum of extended reals when it is nonnegative and not +∞. The mean row length is
    nonnegative (a sum of square roots of sums of squares), so the factor 16 / mean is nonnegative, and it is +∞ only
    when the mean is 0 — and then every row length is 0, every entry is 0, and both sides are 0.
-/
import proofs.«431417_j49967649521735_2_alg».proof.Proof.Spec
import Idealize.ShloMosaic.PureOps.Ideal
import Idealize.ShloMosaic.Lib.ValueIdx
import Mathlib.Data.EReal.Operations
import Mathlib.Data.EReal.Inv

noncomputable section

open scoped BigOperators

namespace Cert.Hand

open Idealize.ShloMosaic Idealize.ShloMosaic.ValueIdx

/-! ### The float literals -/

/-- The pattern of `+0.0` denotes `0`. -/
theorem lit_zero : Ideal.ofBits .f32 0x00000000#32 = 0 := by
  simp [Ideal.ofBits, Ideal.ieee]

/-- The pattern `0x41800000` denotes `16`. -/
theorem lit_16 : Ideal.ofBits .f32 0x41800000#32 = ((16 : ℝ) : EReal) := by
  simp [Ideal.ofBits, Ideal.ieee, -EReal.coe_mul]; norm_num

/-- The pattern `0x47435000` denotes `50000`. -/
theorem lit_50000 : Ideal.ofBits .f32 0x47435000#32 = ((50000 : ℝ) : EReal) := by
  simp [Ideal.ofBits, Ideal.ieee, -EReal.coe_mul]; norm_num

/-- The pattern `0x43800000` denotes `256`. -/
theorem lit_256 : Ideal.ofBits .f32 0x43800000#32 = ((256 : ℝ) : EReal) := by
  simp [Ideal.ofBits, Ideal.ieee, -EReal.coe_mul]; norm_num

/-- `√256 = 16`. -/
theorem sqrt_256 : Ideal.sqrt ((256 : ℝ) : EReal) = ((16 : ℝ) : EReal) := by
  rw [Ideal.sqrt_coe, if_neg (by norm_num)]
  have h : Real.sqrt 256 = 16 := by
    rw [show (256 : ℝ) = 16 * 16 by norm_num]
    exact Real.sqrt_mul_self (by norm_num)
  rw [h]

/-! ### The indicator -/

/-- For `g < 256`, the word of `g` read as a signed integer is `g`. -/
theorem toInt_ofNat_small (g : Fin 256) : (BitVec.ofNat 32 g.val).toInt = (g.val : ℤ) := by
  have hg := g.isLt
  rw [BitVec.toInt_eq_toNat_cond, BitVec.toNat_ofNat]
  split_ifs <;> omega

/-- The indicator is `1` where the word read as a signed integer is `g`, and `0` elsewhere. -/
theorem oneHot_eq (w : BitVec 32) (g : Fin 256) :
    oneHot w g = if w.toInt = (g.val : ℤ) then 1 else 0 := by
  show ((((IntOp.cmpi .eq w (BitVec.ofNat 32 g.val)).setWidth 32).toInt : ℝ) : EReal) = _
  by_cases h : w = BitVec.ofNat 32 g.val
  · have h1 : w.toInt = (g.val : ℤ) := by rw [h]; exact toInt_ofNat_small g
    rw [if_pos h1]
    simp [IntOp.cmpi, h]
  · have h1 : w.toInt ≠ (g.val : ℤ) := by
      intro hc
      apply h
      apply BitVec.eq_of_toInt_eq
      rw [hc, toInt_ofNat_small]
    rw [if_neg h1]
    have hb : (w == BitVec.ofNat 32 g.val) = false := beq_eq_false_iff_ne.mpr h
    simp [IntOp.cmpi, hb]

/-! ### The blocks -/

/-- The 25 blocks of 2000 nodes are all 50000 nodes, each once. -/
theorem sum_blocks (F : Fin 50000 → EReal) :
    ∑ blk : Fin 25, ∑ q : Fin 2000, F (rowOf blk q) = ∑ e : Fin 50000, F e := by
  rw [← Fintype.sum_prod_type']
  refine Fintype.sum_equiv (finProdFinEquiv (m := 25) (n := 2000)) _ _ (fun x => ?_)
  congr 1
  apply Fin.ext
  simp [rowOf, finProdFinEquiv]
  omega

/-! ### A factor across a finite sum -/

/-- A nonnegative factor that is not `+∞` moves across a finite sum of extended reals. -/
theorem sum_mul_of_nonneg_of_ne_top {ι : Type} (s : Finset ι) (a : ι → EReal) {f : EReal}
    (h0 : 0 ≤ f) (ht : f ≠ ⊤) : (∑ e ∈ s, a e) * f = ∑ e ∈ s, a e * f := by
  classical
  induction s using Finset.induction_on with
  | empty => simp
  | insert i s hi ih =>
    rw [Finset.sum_insert hi, Finset.sum_insert hi, EReal.right_distrib_of_nonneg_of_ne_top h0 ht, ih]

/-! ### Nonnegativity and vanishing -/

/-- A square is nonnegative. -/
theorem mul_self_nonneg' (x : EReal) : 0 ≤ x * x := by
  induction x using EReal.rec with
  | bot => simp
  | coe r => exact_mod_cast mul_self_nonneg r
  | top => simp

/-- The square root of a nonnegative extended real is nonnegative. -/
theorem sqrt_nonneg {x : EReal} (hx : 0 ≤ x) : 0 ≤ Ideal.sqrt x := by
  induction x using EReal.rec with
  | bot => simp at hx
  | coe r =>
    have hr : 0 ≤ r := by exact_mod_cast hx
    rw [Ideal.sqrt_coe, if_neg (not_lt.mpr hr)]
    exact_mod_cast Real.sqrt_nonneg r
  | top => simp

/-- A nonnegative extended real whose square root is `0` is `0`. -/
theorem eq_zero_of_sqrt_eq_zero {x : EReal} (hx : 0 ≤ x) (h : Ideal.sqrt x = 0) : x = 0 := by
  induction x using EReal.rec with
  | bot => simp at hx
  | coe r =>
    have hr : 0 ≤ r := by exact_mod_cast hx
    rw [Ideal.sqrt_coe, if_neg (not_lt.mpr hr)] at h
    have h' : Real.sqrt r = 0 := by exact_mod_cast h
    rw [Real.sqrt_eq_zero hr] at h'
    rw [h']; rfl
  | top => simp at h

/-- An extended real whose square is `0` is `0`. -/
theorem eq_zero_of_mul_self_eq_zero {x : EReal} (h : x * x = 0) : x = 0 := by
  rcases mul_eq_zero.mp h with h | h <;> exact h

/-- The total row length is nonnegative. -/
theorem total_nonneg (H : Fin 50000 → Fin 256 → EReal) :
    0 ≤ ∑ r : Fin 50000, Ideal.sqrt (∑ d' : Fin 256, H r d' * H r d') :=
  Finset.sum_nonneg (fun r _ => sqrt_nonneg (Finset.sum_nonneg (fun d' _ => mul_self_nonneg' _)))

/-- If the total row length is `0`, every entry is `0`. -/
theorem entries_zero_of_total_zero (H : Fin 50000 → Fin 256 → EReal)
    (h : ∑ r : Fin 50000, Ideal.sqrt (∑ d' : Fin 256, H r d' * H r d') = 0) (r : Fin 50000) (d : Fin 256) :
    H r d = 0 := by
  have hsq : ∀ r : Fin 50000, 0 ≤ ∑ d' : Fin 256, H r d' * H r d' :=
    fun r => Finset.sum_nonneg (fun d' _ => mul_self_nonneg' _)
  have h1 := (Finset.sum_eq_zero_iff_of_nonneg (fun r _ => sqrt_nonneg (hsq r))).mp h r (Finset.mem_univ r)
  have h2 := eq_zero_of_sqrt_eq_zero (hsq r) h1
  have h3 := (Finset.sum_eq_zero_iff_of_nonneg (fun d' _ => mul_self_nonneg' (H r d'))).mp h2 d (Finset.mem_univ d)
  exact eq_zero_of_mul_self_eq_zero h3

/-- `16` over a nonnegative, nonzero mean is nonnegative and not `+∞`. -/
theorem factor_nonneg_ne_top {M : EReal} (h0 : 0 ≤ M) (hz : M ≠ 0) :
    0 ≤ Ideal.div ((16 : ℝ) : EReal) M ∧ Ideal.div ((16 : ℝ) : EReal) M ≠ ⊤ := by
  rw [Ideal.div, if_neg hz]
  induction M using EReal.rec with
  | bot => simp at h0
  | coe r =>
    have hr : 0 ≤ r := by exact_mod_cast h0
    rw [← EReal.coe_inv, ← EReal.coe_mul]
    refine ⟨?_, EReal.coe_ne_top _⟩
    have : 0 ≤ 16 * r⁻¹ := by positivity
    exact_mod_cast this
  | top => simp

/-- The pooled block sums times the kernel's factor are the reference's sum, by graph, of the scaled entries. -/
theorem pool_eq (H : Fin 50000 → Fin 256 → EReal) (word : Fin 50000 → BitVec 32) (g d : Fin 256) :
    (Ideal.ofBits .f32 0x00000000#32
        + ∑ blk : Fin 25, ∑ q : Fin 2000, oneHot (word (rowOf blk q)) g * H (rowOf blk q) d)
      * Ideal.div (Ideal.ofBits .f32 0x41800000#32)
          (Ideal.div (Ideal.ofBits .f32 0x00000000#32 + ∑ r : Fin 50000, Ideal.sqrt (∑ d' : Fin 256, H r d' * H r d'))
            (Ideal.ofBits .f32 0x47435000#32))
    = Ideal.ofBits .f32 0x00000000#32 + ∑ e : Fin 50000,
        if (word e).toInt = (g.val : ℤ) then
          H e d * Ideal.div (Ideal.sqrt (Ideal.ofBits .f32 0x43800000#32))
            (Ideal.div (Ideal.ofBits .f32 0x00000000#32
                + ∑ r : Fin 50000, Ideal.sqrt (Ideal.ofBits .f32 0x00000000#32 + ∑ d' : Fin 256, H r d' * H r d'))
              (Ideal.ofBits .f32 0x47435000#32))
        else 0 := by
  rw [lit_zero, lit_16, lit_50000, lit_256, sqrt_256]
  simp only [zero_add]
  rw [sum_blocks (fun e => oneHot (word e) g * H e d)]
  simp only [oneHot_eq]
  rw [Ideal.div_coe (by norm_num : (50000 : ℝ) ≠ 0)]
  have hT0 := total_nonneg H
  by_cases hMz : (∑ r : Fin 50000, Ideal.sqrt (∑ d' : Fin 256, H r d' * H r d')) * ((1 / 50000 : ℝ) : EReal) = 0
  · have hTz : ∑ r : Fin 50000, Ideal.sqrt (∑ d' : Fin 256, H r d' * H r d') = 0 := by
      rcases mul_eq_zero.mp hMz with h | h
      · exact h
      · exfalso
        have : (1 / 50000 : ℝ) = 0 := by exact_mod_cast h
        norm_num at this
    have hH := entries_zero_of_total_zero H hTz
    simp [hH]
  · have hM0 : 0 ≤ (∑ r : Fin 50000, Ideal.sqrt (∑ d' : Fin 256, H r d' * H r d')) * ((1 / 50000 : ℝ) : EReal) :=
      mul_nonneg hT0 (by exact_mod_cast (by norm_num : (0 : ℝ) ≤ 1 / 50000))
    obtain ⟨hf0, hft⟩ := factor_nonneg_ne_top hM0 hMz
    rw [sum_mul_of_nonneg_of_ne_top _ _ hf0 hft]
    refine Finset.sum_congr rfl (fun e _ => ?_)
    split_ifs <;> simp

end Cert.Hand

end
-- ==== Proof.LibScatterAddAt.lean ====
/-
  The host's accumulating float scatter (`stablehlo.scatter` with an `add` body over several scatter indices) READ AT ONE
  ELEMENT of its result, at the ideal instance: the operand's element plus the sum, over ALL updates, of those whose
  index lands on the element — an if-sum over the updates' coordinate ranges, the index words read signed. An index
  word that is negative or past the operand's extent equals no element's coordinate, so its update is in no element's
  sum: the operation drops it. General in the sizes; the dimension numbers enter as equations on the record's fields,
  which a printed record meets by `rfl`.

  Three shapes of dimension numbers: updates added into a vector, one index word each (a count or a sum by segment);
  update rows added into the rows of a matrix, one index word per row (a sum of rows by segment); updates added into a
  matrix at (row, column) pairs of index words (an adjacency matrix from an edge list).
-/
import Idealize.ShloMosaic.Lib.ValueIdxRank1
import Mathlib.Algebra.BigOperators.Group.Finset.Basic
import Mathlib.Algebra.BigOperators.Group.Finset.Piecewise

noncomputable section

open scoped BigOperators

namespace Cert.LibScatterAddAt

open Idealize.ShloMosaic Idealize.ShloMosaic.ValueIdx

/-! ## Where an update lands -/

/-- An update index `j` lands on the operand element `i` iff on every operand axis the window's start (the index word
    read signed, or 0) plus the window coordinate IS `i`'s coordinate — in particular it is then inside the operand,
    and an update one of whose sums is negative or past the extent lands nowhere. -/
theorem resultIdx?_eq_some_iff {s si u : Shape} (d : ScatterDims s si u) {w : Nat} (j : u.Idx) (idx : IVec si w) (i : s.Idx) :
    d.resultIdx? j idx = some i ↔ ∀ a, d.start j idx a + (d.window j a : ℤ) = ((i a).val : ℤ) := by
  unfold ScatterDims.resultIdx?
  split
  · rename_i h
    constructor
    · intro he a
      have hf := congrFun (Option.some.inj he) a
      have hv : (d.start j idx a + (d.window j a : ℤ)).toNat = (i a).val := congrArg Fin.val hf
      have h0 := (h a).1
      omega
    · intro hall
      refine congrArg some (funext fun a => Fin.ext ?_)
      show (d.start j idx a + (d.window j a : ℤ)).toNat = (i a).val
      rw [hall a]; exact Int.toNat_natCast _
  · rename_i h
    constructor
    · intro he; exact absurd he (by simp)
    · intro hall
      exact absurd (fun a => by rw [hall a]; exact ⟨Int.natCast_nonneg _, by exact_mod_cast (i a).isLt⟩) h

/-! ## Updates added into a vector, one index word each -/

section Vec

variable {N n w : Nat}

/-- With the operand's one axis inserted and mapped from the index word (index_vector_dim = 1 over indices [n, 1], no
    window axis), update `e`'s window starts at the word `idx[e, 0]` and has no extent. -/
theorem vec_start (d : ScatterDims ⟨1, ![N]⟩ ⟨2, ![n, 1]⟩ ⟨1, ![n]⟩)
    (huw : d.updateWindowDims = []) (hiw : d.insertedWindowDims = [0]) (hsd : d.scatterDimsToOperandDims = [0])
    (hiv : d.indexVectorDim = 1) (idx : IVec ⟨2, ![n, 1]⟩ w) (e : Fin n) :
    d.start (ix1 e) idx 0 = (idx (ix2 e 0)).toInt ∧ d.window (ix1 e) 0 = 0 := by
  obtain ⟨uw, iw, sd, iv, wf⟩ := d
  dsimp only at huw hiw hsd hiv
  subst huw hiw hsd hiv
  refine ⟨?_, ?_⟩
  · unfold ScatterDims.start
    rw [dif_pos (show (0 : Fin 1) ∈ [(0 : Fin 1)] by decide)]
    refine congrArg (fun k => (idx k).toInt) (funext fun b => Fin.ext ?_)
    match b with
    | ⟨0, _⟩ => rfl
    | ⟨1, _⟩ => rfl
  · unfold ScatterDims.window; rw [dif_neg (by simp [ScatterDims.sKept, Shape.kept])]

/-- THE VECTOR SCATTER READ AT i: the operand's element plus every update whose index word is `i` (read signed; a
    negative or too large word matches no coordinate). With updates all 1 this counts the words equal to `i`. -/
theorem ideal_scatterAdd_vec_apply (d : ScatterDims ⟨1, ![N]⟩ ⟨2, ![n, 1]⟩ ⟨1, ![n]⟩)
    (huw : d.updateWindowDims = []) (hiw : d.insertedWindowDims = [0]) (hsd : d.scatterDimsToOperandDims = [0])
    (hiv : d.indexVectorDim = 1)
    (x : (⟨1, ![N]⟩ : Shape).Idx → EReal) (idx : IVec ⟨2, ![n, 1]⟩ w) (upd : (⟨1, ![n]⟩ : Shape).Idx → EReal) (i : Fin N) :
    Ideal.hostScatterAdd d x idx upd (ix1 i)
      = x (ix1 i) + ∑ e : Fin n, if (idx (ix2 e 0)).toInt = (i.val : ℤ) then upd (ix1 e) else 0 := by
  unfold Ideal.hostScatterAdd
  congr 1
  rw [Finset.sum_filter, ← Equiv.sum_comp (idxEquiv1 (n := n)).symm]
  refine Finset.sum_congr rfl fun e _ => ?_
  show (if d.resultIdx? (ix1 e) idx = some (ix1 i) then upd (ix1 e) else 0) = _
  obtain ⟨h0, w0⟩ := vec_start d huw hiw hsd hiv idx e
  have key : d.resultIdx? (ix1 e) idx = some (ix1 i) ↔ (idx (ix2 e 0)).toInt = (i.val : ℤ) := by
    rw [resultIdx?_eq_some_iff]
    constructor
    · intro h
      have a0 := h 0
      rw [h0, w0] at a0
      simp only [Nat.cast_zero, add_zero] at a0
      exact a0
    · intro e0 a
      match a with
      | ⟨0, _⟩ => show d.start (ix1 e) idx 0 + (d.window (ix1 e) 0 : ℤ) = _; rw [h0, w0, e0]; simp
  simp only [key]

/-- The same of the program's operation `Host.scatterAdd` at the ideal instance. -/
theorem host_scatterAdd_vec_apply {φ : FTy} (d : ScatterDims ⟨1, ![N]⟩ ⟨2, ![n, 1]⟩ ⟨1, ![n]⟩)
    (huw : d.updateWindowDims = []) (hiw : d.insertedWindowDims = [0]) (hsd : d.scatterDimsToOperandDims = [0])
    (hiv : d.indexVectorDim = 1)
    (x : FVec Ideal ⟨1, ![N]⟩ φ) (idx : IVec ⟨2, ![n, 1]⟩ w) (upd : FVec Ideal ⟨1, ![n]⟩ φ) (i : Fin N) :
    Host.scatterAdd (F := Ideal) d x idx upd (ix1 i)
      = x (ix1 i) + ∑ e : Fin n, if (idx (ix2 e 0)).toInt = (i.val : ℤ) then upd (ix1 e) else 0 :=
  ideal_scatterAdd_vec_apply d huw hiw hsd hiv x idx upd i

end Vec

/-! ## Update rows added into the rows of a matrix, one index word per row -/

section Rows

variable {N D n w : Nat}

/-- With the operand's row axis inserted and mapped from the index word and its column axis the updates' window axis
    (index_vector_dim = 1 over indices [n, 1]), update `(e, j')`'s window starts at row word `idx[e, 0]`, column 0, and
    `j'` is its coordinate along the row. -/
theorem rows_start (d : ScatterDims ⟨2, ![N, D]⟩ ⟨2, ![n, 1]⟩ ⟨2, ![n, D]⟩)
    (huw : d.updateWindowDims = [1]) (hiw : d.insertedWindowDims = [0]) (hsd : d.scatterDimsToOperandDims = [0])
    (hiv : d.indexVectorDim = 1) (idx : IVec ⟨2, ![n, 1]⟩ w) (e : Fin n) (j' : Fin D) :
    d.start (ix2 e j') idx 0 = (idx (ix2 e 0)).toInt ∧ d.start (ix2 e j') idx 1 = 0
      ∧ d.window (ix2 e j') 0 = 0 ∧ d.window (ix2 e j') 1 = j'.val := by
  obtain ⟨uw, iw, sd, iv, wf⟩ := d
  dsimp only at huw hiw hsd hiv
  subst huw hiw hsd hiv
  refine ⟨?_, ?_, ?_, ?_⟩
  · unfold ScatterDims.start
    rw [dif_pos (show (0 : Fin 2) ∈ [(0 : Fin 2)] by decide)]
    refine congrArg (fun k => (idx k).toInt) (funext fun b => Fin.ext ?_)
    match b with
    | ⟨0, _⟩ => rfl
    | ⟨1, _⟩ => rfl
  · unfold ScatterDims.start; rw [dif_neg (by simp)]
  · unfold ScatterDims.window; rw [dif_neg (by simp [ScatterDims.sKept, Shape.kept])]
  · unfold ScatterDims.window; rw [dif_pos (by simp [ScatterDims.sKept, Shape.kept])]; rfl

/-- THE ROW SCATTER READ AT (i, j): the operand's element plus, of every update row whose index word is `i` (read
    signed; a negative or too large word matches no row), the element in column `j`. -/
theorem ideal_scatterAdd_rows_apply (d : ScatterDims ⟨2, ![N, D]⟩ ⟨2, ![n, 1]⟩ ⟨2, ![n, D]⟩)
    (huw : d.updateWindowDims = [1]) (hiw : d.insertedWindowDims = [0]) (hsd : d.scatterDimsToOperandDims = [0])
    (hiv : d.indexVectorDim = 1)
    (x : (⟨2, ![N, D]⟩ : Shape).Idx → EReal) (idx : IVec ⟨2, ![n, 1]⟩ w) (upd : (⟨2, ![n, D]⟩ : Shape).Idx → EReal)
    (i : Fin N) (j : Fin D) :
    Ideal.hostScatterAdd d x idx upd (ix2 i j)
      = x (ix2 i j) + ∑ e : Fin n, if (idx (ix2 e 0)).toInt = (i.val : ℤ) then upd (ix2 e j) else 0 := by
  unfold Ideal.hostScatterAdd
  congr 1
  rw [Finset.sum_filter, sum_idx2]
  refine Finset.sum_congr rfl fun e _ => ?_
  have key : ∀ j' : Fin D, d.resultIdx? (ix2 e j') idx = some (ix2 i j)
      ↔ ((idx (ix2 e 0)).toInt = (i.val : ℤ) ∧ j' = j) := by
    intro j'
    obtain ⟨h0, h1, w0, w1⟩ := rows_start d huw hiw hsd hiv idx e j'
    rw [resultIdx?_eq_some_iff]
    constructor
    · intro h
      have a0 := h 0; have a1 := h 1
      rw [h0, w0] at a0; rw [h1, w1] at a1
      simp only [Nat.cast_zero, add_zero, zero_add] at a0 a1
      exact ⟨a0, Fin.ext (by exact_mod_cast a1)⟩
    · rintro ⟨e0, rfl⟩ a
      match a with
      | ⟨0, _⟩ => show d.start (ix2 e j') idx 0 + (d.window (ix2 e j') 0 : ℤ) = _; rw [h0, w0, e0]; simp
      | ⟨1, _⟩ => show d.start (ix2 e j') idx 1 + (d.window (ix2 e j') 1 : ℤ) = _; rw [h1, w1]; simp
  simp only [key]
  by_cases hA : (idx (ix2 e 0)).toInt = (i.val : ℤ)
  · simp only [hA, true_and]
    rw [Finset.sum_ite_eq']; simp
  · simp only [hA, false_and, if_false]
    exact Finset.sum_const_zero

/-- The same of the program's operation `Host.scatterAdd` at the ideal instance. -/
theorem host_scatterAdd_rows_apply {φ : FTy} (d : ScatterDims ⟨2, ![N, D]⟩ ⟨2, ![n, 1]⟩ ⟨2, ![n, D]⟩)
    (huw : d.updateWindowDims = [1]) (hiw : d.insertedWindowDims = [0]) (hsd : d.scatterDimsToOperandDims = [0])
    (hiv : d.indexVectorDim = 1)
    (x : FVec Ideal ⟨2, ![N, D]⟩ φ) (idx : IVec ⟨2, ![n, 1]⟩ w) (upd : FVec Ideal ⟨2, ![n, D]⟩ φ) (i : Fin N) (j : Fin D) :
    Host.scatterAdd (F := Ideal) d x idx upd (ix2 i j)
      = x (ix2 i j) + ∑ e : Fin n, if (idx (ix2 e 0)).toInt = (i.val : ℤ) then upd (ix2 e j) else 0 :=
  ideal_scatterAdd_rows_apply d huw hiw hsd hiv x idx upd i j

end Rows

/-! ## Updates added into a matrix at (row, column) pairs of index words -/

section Points

variable {N M n w : Nat}

/-- With both operand axes inserted and mapped from the index pair (index_vector_dim = 1 over indices [n, 2], no window
    axis), update `e`'s window starts at row word `idx[e, 0]` and column word `idx[e, 1]`, and has no extent. -/
theorem points_start (d : ScatterDims ⟨2, ![N, M]⟩ ⟨2, ![n, 2]⟩ ⟨1, ![n]⟩)
    (huw : d.updateWindowDims = []) (hiw : d.insertedWindowDims = [0, 1]) (hsd : d.scatterDimsToOperandDims = [0, 1])
    (hiv : d.indexVectorDim = 1) (idx : IVec ⟨2, ![n, 2]⟩ w) (e : Fin n) :
    d.start (ix1 e) idx 0 = (idx (ix2 e 0)).toInt ∧ d.start (ix1 e) idx 1 = (idx (ix2 e 1)).toInt
      ∧ d.window (ix1 e) 0 = 0 ∧ d.window (ix1 e) 1 = 0 := by
  obtain ⟨uw, iw, sd, iv, wf⟩ := d
  dsimp only at huw hiw hsd hiv
  subst huw hiw hsd hiv
  refine ⟨?_, ?_, ?_, ?_⟩
  · unfold ScatterDims.start
    rw [dif_pos (show (0 : Fin 2) ∈ [(0 : Fin 2), 1] by decide)]
    refine congrArg (fun k => (idx k).toInt) (funext fun b => Fin.ext ?_)
    match b with
    | ⟨0, _⟩ => rfl
    | ⟨1, _⟩ => rfl
  · unfold ScatterDims.start
    rw [dif_pos (show (1 : Fin 2) ∈ [(0 : Fin 2), 1] by decide)]
    refine congrArg (fun k => (idx k).toInt) (funext fun b => Fin.ext ?_)
    match b with
    | ⟨0, _⟩ => rfl
    | ⟨1, _⟩ => rfl
  · unfold ScatterDims.window; rw [dif_neg (by simp [ScatterDims.sKept, Shape.kept])]
  · unfold ScatterDims.window; rw [dif_neg (by simp [ScatterDims.sKept, Shape.kept])]

/-- THE POINT SCATTER READ AT (i, c): the operand's element plus every update whose row word is `i` and whose column
    word is `c` (read signed; a negative or too large word matches no coordinate). -/
theorem ideal_scatterAdd_points_apply (d : ScatterDims ⟨2, ![N, M]⟩ ⟨2, ![n, 2]⟩ ⟨1, ![n]⟩)
    (huw : d.updateWindowDims = []) (hiw : d.insertedWindowDims = [0, 1]) (hsd : d.scatterDimsToOperandDims = [0, 1])
    (hiv : d.indexVectorDim = 1)
    (x : (⟨2, ![N, M]⟩ : Shape).Idx → EReal) (idx : IVec ⟨2, ![n, 2]⟩ w) (upd : (⟨1, ![n]⟩ : Shape).Idx → EReal)
    (i : Fin N) (c : Fin M) :
    Ideal.hostScatterAdd d x idx upd (ix2 i c)
      = x (ix2 i c) + ∑ e : Fin n,
          if (idx (ix2 e 0)).toInt = (i.val : ℤ) ∧ (idx (ix2 e 1)).toInt = (c.val : ℤ) then upd (ix1 e) else 0 := by
  unfold Ideal.hostScatterAdd
  congr 1
  rw [Finset.sum_filter, ← Equiv.sum_comp (idxEquiv1 (n := n)).symm]
  refine Finset.sum_congr rfl fun e _ => ?_
  show (if d.resultIdx? (ix1 e) idx = some (ix2 i c) then upd (ix1 e) else 0) = _
  obtain ⟨h0, h1, w0, w1⟩ := points_start d huw hiw hsd hiv idx e
  have key : d.resultIdx? (ix1 e) idx = some (ix2 i c)
      ↔ (idx (ix2 e 0)).toInt = (i.val : ℤ) ∧ (idx (ix2 e 1)).toInt = (c.val : ℤ) := by
    rw [resultIdx?_eq_some_iff]
    constructor
    · intro h
      have a0 := h 0; have a1 := h 1
      rw [h0, w0] at a0; rw [h1, w1] at a1
      simp only [Nat.cast_zero, add_zero] at a0 a1
      exact ⟨a0, a1⟩
    · rintro ⟨e0, e1⟩ a
      match a with
      | ⟨0, _⟩ => show d.start (ix1 e) idx 0 + (d.window (ix1 e) 0 : ℤ) = _; rw [h0, w0, e0]; simp
      | ⟨1, _⟩ => show d.start (ix1 e) idx 1 + (d.window (ix1 e) 1 : ℤ) = _; rw [h1, w1, e1]; simp
  simp only [key]

/-- The same of the program's operation `Host.scatterAdd` at the ideal instance. -/
theorem host_scatterAdd_points_apply {φ : FTy} (d : ScatterDims ⟨2, ![N, M]⟩ ⟨2, ![n, 2]⟩ ⟨1, ![n]⟩)
    (huw : d.updateWindowDims = []) (hiw : d.insertedWindowDims = [0, 1]) (hsd : d.scatterDimsToOperandDims = [0, 1])
    (hiv : d.indexVectorDim = 1)
    (x : FVec Ideal ⟨2, ![N, M]⟩ φ) (idx : IVec ⟨2, ![n, 2]⟩ w) (upd : FVec Ideal ⟨1, ![n]⟩ φ) (i : Fin N) (c : Fin M) :
    Host.scatterAdd (F := Ideal) d x idx upd (ix2 i c)
      = x (ix2 i c) + ∑ e : Fin n,
          if (idx (ix2 e 0)).toInt = (i.val : ℤ) ∧ (idx (ix2 e 1)).toInt = (c.val : ℤ) then upd (ix1 e) else 0 :=
  ideal_scatterAdd_points_apply d huw hiw hsd hiv x idx upd i c

end Points

end Cert.LibScatterAddAt

end
-- ==== Proof.Bridge.lean ====
/-
  The kernel's value and the reference's value are one function of the arguments.

  Piece by piece: the reference's column of a vector is the kernel's; so the first aggregations agree; the reference's
  first layer on the host is `layer1` entry by entry, which is the first kernel's array; so the second aggregations
  agree (the narrower format the kernel keeps its array in changes nothing over the extended reals); the reference's
  second layer is `affine` entry by entry. The results then differ only in the order of pooling and scaling, which
  `pool_eq` settles.
-/
import proofs.«431417_j49967649521735_2_alg».proof.Proof.Terms
import proofs.«431417_j49967649521735_2_alg».proof.Proof.RTerm
import proofs.«431417_j49967649521735_2_alg».proof.Proof.HostReads
import proofs.«431417_j49967649521735_2_alg».proof.Proof.PoolMath
import proofs.«431417_j49967649521735_2_alg».proof.Proof.LibScatterAddAt
import proofs.«431417_j49967649521735_2_alg».proof.Proof.LibRowOps
import Idealize.ShloMosaic.Lib.ValueIdx
import Idealize.ShloMosaic.Lib.IdealHost
import Idealize.ShloMosaic.PureOps.Ideal.Laws

set_option maxRecDepth 16384

noncomputable section

open scoped BigOperators

namespace Cert.Hand

open Idealize.ShloMosaic Idealize.ShloMosaic.ValueIdx

variable (x : FVec Ideal Cert.KernelIdeal.S50000x128 .f32) (w1 : FVec Ideal Cert.KernelIdeal.S128x256 .f32) (b1 : FVec Ideal Cert.KernelIdeal.S256 .f32)
  (w2 : FVec Ideal Cert.KernelIdeal.S256x256 .f32) (b2 : FVec Ideal Cert.KernelIdeal.S256 .f32) (src dst : IVec Cert.KernelIdeal.S800000 32)
  (ng : IVec Cert.KernelIdeal.S50000 32)

/-- Spreading a vector along axis 0 of a column is casting it to a column. -/
theorem rCol_eq (v : FVec Ideal Cert.KernelIdeal.S50000 .f32) : rCol v = kCol v := by
  funext i
  obtain ⟨r, u, rfl⟩ : ∃ (r : Fin 50000) (u : Fin 1), i = ix2 r u := ⟨i 0, i 1, eq_ix2 i⟩
  unfold rCol kCol
  rw [RowOps.bcastInDim_col_apply, RowOps.shapeCast_col_apply]

/-- The two first aggregations are the same gather and scatter of the same scaled rows. -/
theorem rAgg1_eq : rAgg1 x src dst = kAgg1 x src dst := by
  unfold rAgg1 kAgg1
  rw [rCol_eq]
  rfl

/-- The reference's first layer, entry by entry, is the first kernel's array. -/
theorem rH1_eq : rH1 x w1 b1 src dst = kH1 x w1 b1 src dst := by
  funext i
  obtain ⟨r, d, rfl⟩ : ∃ (r : Fin 50000) (d : Fin 256), i = ix2 r d := ⟨i 0, i 1, eq_ix2 i⟩
  unfold rH1 rCol
  rw [rAgg1_eq]
  exact host_layer1_apply (K := 128) Cert.ReferenceIdeal.dot_S50000x128_S128x256_S50000x256_1_0_0_1_n_n rfl (kAgg1 x src dst) (kDeg dst) (kDeg src)
    w1 b1 _ _ _ _ _ _ _ Cert.KernelIdeal.Gen.shapeCasts_S50000_S50000x1 Cert.KernelIdeal.Gen.shapeCasts_S256_S1x256 r d

/-- The two second aggregations agree: widening the kernel's narrower format is the identity here. -/
theorem rAgg2_eq (h : FVec Ideal Cert.KernelIdeal.S50000x256 .f32) : rAgg2 h src dst = kAgg2 h src dst := by
  unfold rAgg2 kAgg2
  rfl

/-- The reference's second layer, entry by entry. -/
theorem rH2_apply (a2 : FVec Ideal Cert.KernelIdeal.S50000x256 .f32) (r : Fin 50000) (d : Fin 256) :
    rH2 a2 w2 b2 dst (ix2 r d) = affine a2 (kCol (kDeg dst)) w2 (kRow b2) r d := by
  unfold rH2 rCol
  exact host_affine_apply (K := 256) Cert.ReferenceIdeal.dot_S50000x256_S256x256_S50000x256_1_0_0_1_n_n rfl a2 (kDeg dst) w2 b2 _ _ _ _
    Cert.KernelIdeal.Gen.shapeCasts_S50000_S50000x1 Cert.KernelIdeal.Gen.shapeCasts_S256_S1x256 r d

/-- The host's square root at an index. -/
theorem host_sqrt_apply {s : Shape} {φ : FTy} (v : FVec Ideal s φ) (i : s.Idx) : Host.sqrt v i = Ideal.sqrt (v i) := rfl

set_option maxHeartbeats 2000000 in
/-- Pooling by block and then scaling is scaling and then pooling by graph word: the two results agree. -/
theorem bridge : kOut x w1 b1 w2 b2 src dst ng
    = rOut (rH2 (rAgg2 (rH1 x w1 b1 src dst) src dst) w2 b2 dst) ng := by
  rw [rH1_eq, rAgg2_eq]
  funext i
  obtain ⟨g, d, rfl⟩ : ∃ (g d : Fin 256), i = ix2 g d := ⟨i 0, i 1, eq_ix2 i⟩
  unfold kOut rOut
  generalize kAgg2 (kH1 x w1 b1 src dst) src dst = A2
  rw [mulf_apply, host_slabsum_apply, RowOps.bcastInDim_scalar_apply, hostDivf_apply, hostDivf_apply, host_coltotal_apply]
  rw [Cert.LibScatterAddAt.host_scatterAdd_rows_apply _ rfl rfl rfl rfl]
  -- the kernel's side: a slab's entry is the block's indicator-weighted sum, a row length the root of the row's squares
  have hPP : ∀ k : Fin 25, kPP A2 w2 b2 dst ng (ix3 k g d)
      = ∑ q : Fin 2000, oneHot (ng (ix1 (rowOf k q))) g * affine A2 (kCol (kDeg dst)) w2 (kRow b2) (rowOf k q) d := by
    intro k
    show ∑ q : Fin 2000, oneHot (kColI ng (ix2 (rowOf k q) 0)) g * affine A2 (kCol (kDeg dst)) w2 (kRow b2) (rowOf k q) d = _
    refine Finset.sum_congr rfl fun q _ => ?_
    rw [show kColI ng (ix2 (rowOf k q) 0) = ng (ix1 (rowOf k q)) from RowOps.shapeCast_col_apply ng _ (rowOf k q) 0]
  have hRN : ∀ r : Fin 50000, kRN A2 w2 b2 dst (ix2 r 0)
      = Ideal.sqrt (∑ d' : Fin 256, affine A2 (kCol (kDeg dst)) w2 (kRow b2) r d' * affine A2 (kCol (kDeg dst)) w2 (kRow b2) r d') :=
    fun r => rfl
  simp only [hPP, hRN]
  -- pooling then scaling is scaling then pooling, for the second layer's entries and the nodes' graph words
  have hp := pool_eq (fun r d' => affine A2 (kCol (kDeg dst)) w2 (kRow b2) r d') (fun r => ng (ix1 r)) g d
  beta_reduce at hp
  refine hp.trans ?_
  -- the reference's side, term by term: the initial value, then for node e its graph word, its entry and the factor
  have hrow : ∀ r : Fin 50000,
      Host.sqrt (Host.reduceAdd (mulf (rH2 A2 w2 b2 dst) (rH2 A2 w2 b2 dst))
          (constant (F := Ideal) Cert.ReferenceIdeal.S_ .f32 0x00000000#32)
          Cert.ReferenceIdeal.Gen.reducesTo_S50000x256_S50000_d1 Cert.ReferenceIdeal.Gen.h_S_) (ix1 r)
        = Ideal.sqrt (Ideal.ofBits .f32 0x00000000#32
            + ∑ d' : Fin 256, affine A2 (kCol (kDeg dst)) w2 (kRow b2) r d' * affine A2 (kCol (kDeg dst)) w2 (kRow b2) r d') := by
    intro r
    rw [host_rownorm_apply]
    simp only [rH2_apply]
  refine congrArg₂ (· + ·) ?_ (Finset.sum_congr rfl fun e _ => ?_)
  · rw [RowOps.bcastInDim_scalar_apply, constant_apply]
  · rw [RowOps.bcastInDim_col_apply, mulf_apply, rH2_apply, RowOps.bcastInDim_scalar_apply, hostDivf_apply, hostDivf_apply,
      host_sqrt_apply, constant_apply, constant_apply, host_total_apply]
    simp only [hrow]

end Cert.Hand

end
-- ==== Proof.lean ====
/-
  A two-layer graph convolution with degree normalisation, a scale by 16 over the mean row length, and a sum of the
  nodes' rows by graph, computed two ways.

  Both programs count, for every node, the edges that leave and that enter it, turn the counts (at least 1) into the
  factors count^(-1/2), and for each layer gather the scaled source rows along the edges and add them into the target
  rows; these host steps are the same operations on the same operands. The kernel's program does the dense part of
  each layer in a fused kernel over blocks of nodes (5000 rows a block in the first layer, 2000 in the second), the
  reference does it on the host: entry by entry both are the scaled row times the weight matrix plus the bias (the
  first layer clipped below at zero and scaled by the out-degree factor); a change of float format is the identity on
  extended reals. They differ at the end. The reference multiplies every entry of the second layer by
  √256 / (mean row length) and then adds the rows up by graph word. The kernel adds up, block by block, the rows
  weighted by the indicator of the graph word (a product with the block's indicator matrix, transposed), sums the 25
  blocks' results, and multiplies by 16 / (mean row length) last. √256 is 16; the factor is nonnegative, and it is +∞
  only when every entry is 0, so it moves across the finite sum whatever extended reals the entries are.

  The three frames: the two kernel programs' are the generated ones; the reference's is its generated run with the
  result dropped. The ideal pass rewrote nothing, so there is nothing to preserve.
-/
import proofs.«431417_j49967649521735_2_alg».proof.Defs
import proofs.«431417_j49967649521735_2_alg».proof.Proof.Gen.Kernel
import proofs.«431417_j49967649521735_2_alg».proof.Proof.Gen.Kernel.Skeleton
import proofs.«431417_j49967649521735_2_alg».proof.Proof.Gen.Kernel.Launch
import proofs.«431417_j49967649521735_2_alg».proof.Proof.Gen.Kernel.Points
import proofs.«431417_j49967649521735_2_alg».proof.Proof.Gen.Kernel.Frame
import proofs.«431417_j49967649521735_2_alg».proof.Proof.Gen.KernelIdeal
import proofs.«431417_j49967649521735_2_alg».proof.Proof.Gen.KernelIdeal.Skeleton
import proofs.«431417_j49967649521735_2_alg».proof.Proof.Gen.KernelIdeal.Launch
import proofs.«431417_j49967649521735_2_alg».proof.Proof.Gen.KernelIdeal.Points
import proofs.«431417_j49967649521735_2_alg».proof.Proof.Gen.KernelIdeal.Frame
import proofs.«431417_j49967649521735_2_alg».proof.Proof.Gen.ReferenceIdeal
import proofs.«431417_j49967649521735_2_alg».proof.Proof.Gen.Pre_finite_inputs
import proofs.«431417_j49967649521735_2_alg».proof.Proof.Gen.ReferenceIdeal.Run
import proofs.«431417_j49967649521735_2_alg».proof.Proof.KRun
import proofs.«431417_j49967649521735_2_alg».proof.Proof.KValue
import proofs.«431417_j49967649521735_2_alg».proof.Proof.RTerm
import proofs.«431417_j49967649521735_2_alg».proof.Proof.Bridge
import Idealize.ShloMosaic.Adequacy
import Idealize.ShloMosaic.Init

set_option maxRecDepth 16384

noncomputable section

namespace Cert.Proof

open Idealize.ShloMosaic Idealize.ShloMosaic.TcCoe Idealize.SL.Sem

/-- The word-level kernel program terminates, faults nowhere and leaves its arguments as they were. -/
theorem frame_k : Cert.frame_Kernel := fun m ρ _ => Cert.Kernel.Gen.frame m ρ

/-- So does the idealized kernel program. -/
theorem frame_ki : Cert.frame_KernelIdeal := fun m ρ _ => Cert.KernelIdeal.Gen.frame m ρ

/-- So does the idealized reference: its run, with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- Run from memories that agree on the eight arguments, both idealized programs end with the same array: the kernel's
    program with `kOut` of the arguments, the reference with `rOut` of its two host layers, and these are one function. -/
theorem algebraic : Cert.algebraic_KernelIdeal_ReferenceIdeal := by
  intro m ρ m' ρ' _ hagree
  refine ⟨_, (θ_run Cert.KernelIdeal.defs _ _).mono
    (fun r h c => ⟨(h c).1.trans (Cert.Hand.kernel_value m ρ c), (h c).2⟩)
    (Cert.KernelIdeal.Gen.frame_result (F := Ideal) m ρ), ?_⟩
  refine (θ_run Cert.ReferenceIdeal.defs _ _).mono (fun r h c => ⟨(h c).1.trans ?_, (h c).2⟩)
    (Cert.ReferenceIdeal.Value.run (F := Ideal) m' ρ')
  rw [Cert.Hand.ref_value]
  obtain ⟨e0, e1, e2, e3, e4, e5, e6, e7⟩ := hagree c
  rw [e0, e1, e2, e3, e4, e5, e6, e7]
  exact (Cert.Hand.bridge _ _ _ _ _ _ _ _).symm

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
